-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S128x2048 : Shape := ⟨2, ![128, 2048]⟩
abbrev S512x128x2048 : Shape := ⟨3, ![512, 128, 2048]⟩
abbrev S512x128x1 : Shape := ⟨3, ![512, 128, 1]⟩
abbrev S32000x2048 : Shape := ⟨2, ![32000, 2048]⟩
abbrev S8192x2048 : Shape := ⟨2, ![8192, 2048]⟩
abbrev S8192 : Shape := ⟨1, ![8192]⟩
abbrev S2048x4096 : Shape := ⟨2, ![2048, 4096]⟩
abbrev S2048 : Shape := ⟨1, ![2048]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S512x128x2048 : S_.BroadcastsInDim S512x128x2048 (![] : Fin 0 → Fin S512x128x2048.rank)
  reducesTo_S512x128x2048_S_d0_1_2 : S512x128x2048.ReducesTo [0, 1, 2] S_
  bcast_S_S32000x2048 : S_.BroadcastsInDim S32000x2048 (![] : Fin 0 → Fin S32000x2048.rank)
  reducesTo_S32000x2048_S_d0_1 : S32000x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg9 : FVec F S8192 .f32) (main_arg10 : FVec F S2048x4096 .f32) (main_arg11 : FVec F S2048 .f32) (main_v33 : IVec S_ 1) : IVec S_ 1 :=
  let main_v34 : FVec F S8192 .f32 := Host.absf main_arg9
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S2048x4096 .f32 := Host.absf main_arg10
  let main_cst_14 : FVec F S_ .f32 := constant S_ .f32 0x7F800000#32
  let main_v40 : FVec F S2048x4096 .f32 := broadcastInDim S2048x4096 ![] bcast_S_S2048x4096 main_cst_14
  let main_v41 : IVec S2048x4096 1 := cmpf .olt main_v39 main_v40
  let main_c_15 : IVec S_ 1 := constantI S_ 1 1#1
  let main_v42 : IVec S_ 1 := (fun x v => Host.reduce IntOp.andi x v reducesTo_S2048x4096_S_d0_1 h_S_) main_v41 main_c_15
  let main_v43 : IVec S_ 1 := andi main_v38 main_v42
  let main_v44 : FVec F S2048 .f32 := Host.absf main_arg11
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg6 : FVec F S8192x2048 .f32) (main_arg7 : FVec F S8192x2048 .f32) (main_arg8 : FVec F S8192 .f32) (main_arg9 : FVec F S8192 .f32) (main_arg10 : FVec F S2048x4096 .f32) (main_arg11 : FVec F S2048 .f32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_v19 : FVec F S8192x2048 .f32 := Host.absf main_arg6
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg7
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg8
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg9 main_arg10 main_arg11 main_v33

def fn {F : FTy → Type} [FloatOps F] (main_arg0 : IVec S128 32) (main_arg1 : FVec F S128x2048 .f32) (main_arg2 : FVec F S128x2048 .f32) (main_arg3 : FVec F S512x128x2048 .f32) (main_arg4 : IVec S512x128x1 32) (main_arg5 : FVec F S32000x2048 .f32) (main_arg6 : FVec F S8192x2048 .f32) (main_arg7 : FVec F S8192x2048 .f32) (main_arg8 : FVec F S8192 .f32) (main_arg9 : FVec F S8192 .f32) (main_arg10 : FVec F S2048x4096 .f32) (main_arg11 : FVec F S2048 .f32) : IVec S_ 1 :=
  let main_v0 : FVec F S128x2048 .f32 := Host.absf main_arg1
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S128x2048 .f32 := Host.absf main_arg2
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S512x128x2048 .f32 := Host.absf main_arg3
  let main_cst_2 : FVec F S_ .f32 := constant S_ .f32 0x7F800000#32
  let main_v10 : FVec F S512x128x2048 .f32 := broadcastInDim S512x128x2048 ![] bcast_S_S512x128x2048 main_cst_2
  let main_v11 : IVec S512x128x2048 1 := cmpf .olt main_v9 main_v10
  let main_c_3 : IVec S_ 1 := constantI S_ 1 1#1
  let main_v12 : IVec S_ 1 := (fun x v => Host.reduce IntOp.andi x v reducesTo_S512x128x2048_S_d0_1_2 h_S_) main_v11 main_c_3
  let main_v13 : IVec S_ 1 := andi main_v8 main_v12
  let main_v14 : FVec F S32000x2048 .f32 := Host.absf main_arg5
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg6 main_arg7 main_arg8 main_arg9 main_arg10 main_arg11 main_v13 main_v16
-- ==== Kernel.lean ====
abbrev S128 : Shape := ⟨1, ![128]⟩
abbrev S128x2048 : Shape := ⟨2, ![128, 2048]⟩
abbrev S512x128x2048 : Shape := ⟨3, ![512, 128, 2048]⟩
abbrev S512x128x1 : Shape := ⟨3, ![512, 128, 1]⟩
abbrev S32000x2048 : Shape := ⟨2, ![32000, 2048]⟩
abbrev S8192x2048 : Shape := ⟨2, ![8192, 2048]⟩
abbrev S8192 : Shape := ⟨1, ![8192]⟩
abbrev S2048x4096 : Shape := ⟨2, ![2048, 4096]⟩
abbrev S2048 : Shape := ⟨1, ![2048]⟩
abbrev S_ : Shape := ⟨0, ![]⟩
abbrev S128x1 : Shape := ⟨2, ![128, 1]⟩
abbrev S2048x8192 : Shape := ⟨2, ![2048, 8192]⟩
abbrev S2048x1024 : Shape := ⟨2, ![2048, 1024]⟩
abbrev S1024 : Shape := ⟨1, ![1024]⟩
abbrev S128x1024 : Shape := ⟨2, ![128, 1024]⟩
abbrev S4x128x1024 : Shape := ⟨3, ![4, 128, 1024]⟩
abbrev S1x1024 : Shape := ⟨2, ![1, 1024]⟩
abbrev S1x128x1024 : Shape := ⟨3, ![1, 128, 1024]⟩
abbrev S64x2048 : Shape := ⟨2, ![64, 2048]⟩
abbrev S32x64x2048 : Shape := ⟨3, ![32, 64, 2048]⟩
abbrev S32x64x1 : Shape := ⟨3, ![32, 64, 1]⟩
abbrev S64x1 : Shape := ⟨2, ![64, 1]⟩
abbrev S1x64x2048 : Shape := ⟨3, ![1, 64, 2048]⟩
abbrev S32x64 : Shape := ⟨2, ![32, 64]⟩
abbrev S1x64x1 : Shape := ⟨3, ![1, 64, 1]⟩
abbrev S2048x2048 : Shape := ⟨2, ![2048, 2048]⟩

abbrev nBuf : Space → Nat
  | .hbm => 30
  | .vmem => 36
  | .smem => 0
  | _ => 0

abbrev bufTy : (tb : Table) → Fin (tcTables nBuf tb) → BufTy
  | .hbm, ⟨0, _⟩ => ⟨S128, .i32⟩
  | .hbm, ⟨1, _⟩ => ⟨S128x2048, .f32⟩
  | .hbm, ⟨2, _⟩ => ⟨S128x2048, .f32⟩
  | .hbm, ⟨3, _⟩ => ⟨S512x128x2048, .f32⟩
  | .hbm, ⟨4, _⟩ => ⟨S512x128x1, .i32⟩
  | .hbm, ⟨5, _⟩ => ⟨S32000x2048, .f32⟩
  | .hbm, ⟨6, _⟩ => ⟨S8192x2048, .f32⟩
  | .hbm, ⟨7, _⟩ => ⟨S8192x2048, .f32⟩
  | .hbm, ⟨8, _⟩ => ⟨S8192, .f32⟩
  | .hbm, ⟨9, _⟩ => ⟨S8192, .f32⟩
  | .hbm, ⟨10, _⟩ => ⟨S2048x4096, .f32⟩
  | .hbm, ⟨11, _⟩ => ⟨S2048, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x2048, .f32⟩
  | .hbm, ⟨21, _⟩ => ⟨S2048x8192, .f32⟩
  | .hbm, ⟨22, _⟩ => ⟨S2048x8192, .f32⟩
  | .hbm, ⟨23, _⟩ => ⟨S128x2048, .f32⟩
  | .hbm, ⟨24, _⟩ => ⟨S128x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S4x128x1024, .f32⟩
  | .local _ .vmem, ⟨15, _⟩ => ⟨S64x2048, .f32⟩
  | .local _ .vmem, ⟨16, _⟩ => ⟨S64x2048, .f32⟩
  | .local _ .vmem, ⟨17, _⟩ => ⟨S32x64x2048, .f32⟩
  | .local _ .vmem, ⟨18, _⟩ => ⟨S32x64x2048, .f32⟩
  | .local _ .vmem, ⟨19, _⟩ => ⟨S32x64x1, .i32⟩
  | .local _ .vmem, ⟨20, _⟩ => ⟨S32x64x1, .i32⟩
  | .local _ .vmem, ⟨21, _⟩ => ⟨S64x2048, .f32⟩
  | .local _ .vmem, ⟨22, _⟩ => ⟨S64x2048, .f32⟩
  | .local _ .vmem, ⟨23, _⟩ => ⟨S64x1, .f32⟩
  | .local _ .vmem, ⟨24, _⟩ => ⟨S64x1, .f32⟩
  | .local _ .vmem, ⟨25, _⟩ => ⟨S64x2048, .f32⟩
  | .local _ .vmem, ⟨26, _⟩ => ⟨S128x2048, .f32⟩
  | .local _ .vmem, ⟨27, _⟩ => ⟨S128x2048, .f32⟩
  | .local _ .vmem, ⟨28, _⟩ => ⟨S2048x1024, .f32⟩
  | .local _ .vmem, ⟨29, _⟩ => ⟨S2048x1024, .f32⟩
  | .local _ .vmem, ⟨30, _⟩ => ⟨S2048x1024, .f32⟩
  | .local _ .vmem, ⟨31, _⟩ => ⟨S2048x1024, .f32⟩
  | .local _ .vmem, ⟨32, _⟩ => ⟨S1024, .f32⟩
  | .local _ .vmem, ⟨33, _⟩ => ⟨S1024, .f32⟩
  | .local _ .vmem, ⟨34, _⟩ => ⟨S128x1024, .f32⟩
  | .local _ .vmem, ⟨35, _⟩ => ⟨S128x1024, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let v22 : Index := Scalar.indexCast arg1
  let c0_10 : Index := 0#32
  let c0_11 : Index := 0#32
  ![v22.toNat, 0, 0]
def k0_cond1 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32 : BitVec 32 := 0#32
  let v28 : BitVec 1 := Scalar.cmpi .ne v27 c0_i32
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![c0_i32.toNat, v1.toNat]

def cc0_transform_4 (i : grid0.Coords) : Fin 1 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  ![v1.toNat]

def cc0_transform_5 (i : grid0.Coords) : Fin 1 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  ![v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_27 : BitVec 32 := 0#32
  let v48 : BitVec 1 := Scalar.cmpi .ne v47 c0_i32_27
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x64x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 1 → Nat :=
  let arg0 : BitVec 32 := BitVec.ofNat 32 (i 0).val
  let c0_i32 : BitVec 32 := 0#32
  ![arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  transposes_S8192x2048_S2048x8192_1_0 : S8192x2048.Transposes [1, 0] S2048x8192
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  h_S1x128x1024 : 0 < S1x128x1024.numel
  shapeCasts_S1x128x1024_S128x1024 : S1x128x1024.ShapeCasts S128x1024
  shapeCasts_S128x1024_S1x128x1024 : S128x1024.ShapeCasts S1x128x1024
  inb_S4x128x1024_S1x128x1024_0_0_0 : ∀ a, (![0, 0, 0] : Fin 3 → Nat) a + S1x128x1024.size a ≤ S4x128x1024.size a
  inb_S4x128x1024_S1x128x1024_1_0_0 : ∀ a, (![1, 0, 0] : Fin 3 → Nat) a + S1x128x1024.size a ≤ S4x128x1024.size a
  inb_S4x128x1024_S1x128x1024_2_0_0 : ∀ a, (![2, 0, 0] : Fin 3 → Nat) a + S1x128x1024.size a ≤ S4x128x1024.size a
  inb_S4x128x1024_S1x128x1024_3_0_0 : ∀ a, (![3, 0, 0] : Fin 3 → Nat) a + S1x128x1024.size a ≤ S4x128x1024.size a
  inb_S128x1024_S128x1024_0_0 : ∀ a, (![0, 0] : Fin 2 → Nat) a + S128x1024.size a ≤ S128x1024.size a
  h_S128x1024 : 0 < S128x1024.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S32x64x2048_S32x64x2048_0_0_0 : ∀ a, (![0, 0, 0] : Fin 3 → Nat) a + S32x64x2048.size a ≤ S32x64x2048.size a
  h_S32x64x2048 : 0 < S32x64x2048.numel
  inb_S32x64x1_S32x64x1_0_0_0 : ∀ a, (![0, 0, 0] : Fin 3 → Nat) a + S32x64x1.size a ≤ S32x64x1.size a
  h_S32x64x1 : 0 < S32x64x1.numel
  shapeCasts_S64x2048_S1x64x2048 : S64x2048.ShapeCasts S1x64x2048
  broadcasts_S1x64x2048_S32x64x2048 : S1x64x2048.Broadcasts S32x64x2048
  reduces_S32x64x2048_S32x64 : S32x64x2048.Reduces [2] S32x64
  shapeCasts_S32x64_S32x64x1 : S32x64.ShapeCasts S32x64x1
  reduces_S32x64x1_S64x1 : S32x64x1.Reduces [0] S64x1
  shapeCasts_S64x1_S1x64x1 : S64x1.ShapeCasts S1x64x1
  broadcasts_S1x64x1_S32x64x1 : S1x64x1.Broadcasts S32x64x1
  broadcasts_S64x1_S64x2048 : S64x1.Broadcasts S64x2048
  broadcasts_S32x64x1_S32x64x2048 : S32x64x1.Broadcasts S32x64x2048
  reduces_S32x64x2048_S64x2048 : S32x64x2048.Reduces [0] S64x2048
  slices_S2048x4096_S2048x2048_0_0 : S2048x4096.Slices ![0, 0] S2048x2048
  transposes_S2048x2048_S2048x2048_1_0 : S2048x2048.Transposes [1, 0] S2048x2048
  slices_S2048x4096_S2048x2048_0_2048 : S2048x4096.Slices ![0, 2048] S2048x2048
  gather_S32000x2048_S128x1_S128x2048_1_0_n_n_0_1_12048_wf : GatherDims.WF S32000x2048 S128x1 S128x2048 [1] [0] [] [0] [] 1 ![1, 2048]
  dot_S128x2048_S2048x1024_S128x1024_1_0_0_1_n_n_wf : DotDims.WF S128x2048 S2048x1024 S128x1024 [1] [0] [0] [1] [] []
  hrank0 : 0 < grid0.rank
  k0_off1_inb : ∀ i : grid0.Coords, ∀ a, (k0_off1 i) a + S1x128x1024.size a ≤ S4x128x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .f32 = 32 ∨ (Rect.block (s := S128x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x8192.size a
  hwx0_2 : ∀ i : grid0.Coords, EltTy.bits .f32 = 32 ∨ (Rect.block (s := S2048x8192) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .f32 = 32 ∨ (Rect.block (s := S2048x8192) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x2048.size a
  hwx0_6 : ∀ i : grid0.Coords, EltTy.bits .f32 = 32 ∨ (Rect.block (s := S128x2048) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x2048.size a
  hwx0_7 : ∀ i : grid0.Coords, EltTy.bits .f32 = 32 ∨ (Rect.block (s := S128x2048) S128x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S128x2048.size a
  hwx1_0 : ∀ i : grid1.Coords, EltTy.bits .f32 = 32 ∨ (Rect.block (s := S128x2048) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x2048.size a ≤ S512x128x2048.size a
  hwx1_1 : ∀ i : grid1.Coords, EltTy.bits .f32 = 32 ∨ (Rect.block (s := S512x128x2048) S32x64x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64x1.size a ≤ S512x128x1.size a
  hwx1_2 : ∀ i : grid1.Coords, EltTy.bits .i32 = 32 ∨ (Rect.block (s := S512x128x1) S32x64x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S128x2048.size a
  hwx1_3 : ∀ i : grid1.Coords, EltTy.bits .f32 = 32 ∨ (Rect.block (s := S128x2048) S64x2048.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S128x2048.size a
  hwx2_0 : ∀ i : grid2.Coords, EltTy.bits .f32 = 32 ∨ (Rect.block (s := S128x2048) S128x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S128x2048.size a
  hwx2_1 : ∀ i : grid2.Coords, EltTy.bits .f32 = 32 ∨ (Rect.block (s := S128x2048) S128x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S2048x2048.size a
  hwx2_2 : ∀ i : grid2.Coords, EltTy.bits .f32 = 32 ∨ (Rect.block (s := S2048x2048) S2048x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S2048x2048.size a
  hwx2_3 : ∀ i : grid2.Coords, EltTy.bits .f32 = 32 ∨ (Rect.block (s := S2048x2048) S2048x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S2048.size a
  hwx2_4 : ∀ i : grid2.Coords, EltTy.bits .f32 = 32 ∨ (Rect.block (s := S2048) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x1024.size a ≤ S128x2048.size a
  hwx2_5 : ∀ i : grid2.Coords, EltTy.bits .f32 = 32 ∨ (Rect.block (s := S128x2048) S128x1024.size (cc2_transform_5 i) (hinb2_5 i)).WholeWords (EltTy.packing .f32)

variable [Facts₀]

def gather_S32000x2048_S128x1_S128x2048_1_0_n_n_0_1_12048 : GatherDims S32000x2048 S128x1 S128x2048 where
  offsetDims := [1]
  collapsedSliceDims := [0]
  operandBatchingDims := []
  startIndicesBatchingDims := []
  startIndexMap := [0]
  indexVectorDim := 1
  sliceSizes := ![1, 2048]
  wf := gather_S32000x2048_S128x1_S128x2048_1_0_n_n_0_1_12048_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v6) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

abbrev win1_0 : Pipeline.Window sig grid1 :=
  Pipeline.Window.ofSpec (Memref.whole main_v9) S64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S128x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S128x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2048x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2048x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15) S128x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S128 : Shape := ⟨1, ![128]⟩
abbrev S128x2048 : Shape := ⟨2, ![128, 2048]⟩
abbrev S512x128x2048 : Shape := ⟨3, ![512, 128, 2048]⟩
abbrev S512x128x1 : Shape := ⟨3, ![512, 128, 1]⟩
abbrev S32000x2048 : Shape := ⟨2, ![32000, 2048]⟩
abbrev S8192x2048 : Shape := ⟨2, ![8192, 2048]⟩
abbrev S8192 : Shape := ⟨1, ![8192]⟩
abbrev S2048x4096 : Shape := ⟨2, ![2048, 4096]⟩
abbrev S2048 : Shape := ⟨1, ![2048]⟩
abbrev S_ : Shape := ⟨0, ![]⟩
abbrev S128x1 : Shape := ⟨2, ![128, 1]⟩
abbrev S2048x8192 : Shape := ⟨2, ![2048, 8192]⟩
abbrev S128x8192 : Shape := ⟨2, ![128, 8192]⟩
abbrev S1x8192 : Shape := ⟨2, ![1, 8192]⟩
abbrev S1x128x2048 : Shape := ⟨3, ![1, 128, 2048]⟩
abbrev S512x128 : Shape := ⟨2, ![512, 128]⟩
abbrev S1x128x1 : Shape := ⟨3, ![1, 128, 1]⟩
abbrev S128x4096 : Shape := ⟨2, ![128, 4096]⟩
abbrev S4096x2048 : Shape := ⟨2, ![4096, 2048]⟩
abbrev S1x2048 : Shape := ⟨2, ![1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S128, .i32⟩
  | .hbm, ⟨1, _⟩ => ⟨S128x2048, .f32⟩
  | .hbm, ⟨2, _⟩ => ⟨S128x2048, .f32⟩
  | .hbm, ⟨3, _⟩ => ⟨S512x128x2048, .f32⟩
  | .hbm, ⟨4, _⟩ => ⟨S512x128x1, .i32⟩
  | .hbm, ⟨5, _⟩ => ⟨S32000x2048, .f32⟩
  | .hbm, ⟨6, _⟩ => ⟨S8192x2048, .f32⟩
  | .hbm, ⟨7, _⟩ => ⟨S8192x2048, .f32⟩
  | .hbm, ⟨8, _⟩ => ⟨S8192, .f32⟩
  | .hbm, ⟨9, _⟩ => ⟨S8192, .f32⟩
  | .hbm, ⟨10, _⟩ => ⟨S2048x4096, .f32⟩
  | .hbm, ⟨11, _⟩ => ⟨S2048, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x2048, .f32⟩
  | .hbm, ⟨21, _⟩ => ⟨S2048x8192, .f32⟩
  | .hbm, ⟨22, _⟩ => ⟨S128x8192, .f32⟩
  | .hbm, ⟨23, _⟩ => ⟨S1x8192, .f32⟩
  | .hbm, ⟨24, _⟩ => ⟨S128x8192, .f32⟩
  | .hbm, ⟨25, _⟩ => ⟨S128x8192, .f32⟩
  | .hbm, ⟨26, _⟩ => ⟨S2048x8192, .f32⟩
  | .hbm, ⟨27, _⟩ => ⟨S128x8192, .f32⟩
  | .hbm, ⟨28, _⟩ => ⟨S128x8192, .f32⟩
  | .hbm, ⟨29, _⟩ => ⟨S1x8192, .f32⟩
  | .hbm, ⟨30, _⟩ => ⟨S128x8192, .f32⟩
  | .hbm, ⟨31, _⟩ => ⟨S128x8192, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S128x2048, .f32⟩
  | .hbm, ⟨38, _⟩ => ⟨S_, .f32⟩
  | .hbm, ⟨39, _⟩ => ⟨S128x2048, .f32⟩
  | .hbm, ⟨40, _⟩ => ⟨S128x2048, .f32⟩
  | .hbm, ⟨41, _⟩ => ⟨S_, .f32⟩
  | .hbm, ⟨42, _⟩ => ⟨S128x2048, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | .hbm, ⟨57, _⟩ => ⟨S_, .f32⟩
  | .hbm, ⟨58, _⟩ => ⟨S128x2048, .f32⟩
  | .hbm, ⟨59, _⟩ => ⟨S128x2048, .f32⟩
  | .hbm, ⟨60, _⟩ => ⟨S128x2048, .f32⟩
  | .hbm, ⟨61, _⟩ => ⟨S128x2048, .f32⟩
  | .hbm, ⟨62, _⟩ => ⟨S128x2048, .f32⟩
  | .hbm, ⟨63, _⟩ => ⟨S128x2048, .f32⟩
  | .hbm, ⟨64, _⟩ => ⟨S128x2048, .f32⟩
  | .hbm, ⟨65, _⟩ => ⟨S128x2048, .f32⟩
  | .hbm, ⟨66, _⟩ => ⟨S1x128x2048, .f32⟩
  | .hbm, ⟨67, _⟩ => ⟨S512x128x2048, .f32⟩
  | .hbm, ⟨68, _⟩ => ⟨S512x128x2048, .f32⟩
  | .hbm, ⟨69, _⟩ => ⟨S_, .f32⟩
  | .hbm, ⟨70, _⟩ => ⟨S512x128, .f32⟩
  | .hbm, ⟨71, _⟩ => ⟨S512x128x1, .f32⟩
  | .hbm, ⟨72, _⟩ => ⟨S_, .i32⟩
  | .hbm, ⟨73, _⟩ => ⟨S512x128x1, .i32⟩
  | .hbm, ⟨74, _⟩ => ⟨S512x128x1, .i1⟩
  | .hbm, ⟨75, _⟩ => ⟨S_, .f32⟩
  | .hbm, ⟨76, _⟩ => ⟨S_, .f32⟩
  | .hbm, ⟨77, _⟩ => ⟨S512x128x1, .f32⟩
  | .hbm, ⟨78, _⟩ => ⟨S512x128x1, .f32⟩
  | .hbm, ⟨79, _⟩ => ⟨S_, .f32⟩
  | .hbm, ⟨80, _⟩ => ⟨S128x1, .f32⟩
  | .hbm, ⟨81, _⟩ => ⟨S_, .f32⟩
  | .hbm, ⟨82, _⟩ => ⟨S128x1, .f32⟩
  | .hbm, ⟨83, _⟩ => ⟨S128x1, .f32⟩
  | .hbm, ⟨84, _⟩ => ⟨S1x128x1, .f32⟩
  | .hbm, ⟨85, _⟩ => ⟨S512x128x1, .f32⟩
  | .hbm, ⟨86, _⟩ => ⟨S512x128x1, .f32⟩
  | .hbm, ⟨87, _⟩ => ⟨S512x128x1, .f32⟩
  | .hbm, ⟨88, _⟩ => ⟨S_, .f32⟩
  | .hbm, ⟨89, _⟩ => ⟨S128x1, .f32⟩
  | .hbm, ⟨90, _⟩ => ⟨S1x128x1, .f32⟩
  | .hbm, ⟨91, _⟩ => ⟨S512x128x1, .f32⟩
  | .hbm, ⟨92, _⟩ => ⟨S512x128x1, .f32⟩
  | .hbm, ⟨93, _⟩ => ⟨S512x128x2048, .f32⟩
  | .hbm, ⟨94, _⟩ => ⟨S512x128x2048, .f32⟩
  | .hbm, ⟨95, _⟩ => ⟨S_, .f32⟩
  | .hbm, ⟨96, _⟩ => ⟨S128x2048, .f32⟩
  | .hbm, ⟨97, _⟩ => ⟨S128x4096, .f32⟩
  | .hbm, ⟨98, _⟩ => ⟨S4096x2048, .f32⟩
  | .hbm, ⟨99, _⟩ => ⟨S128x2048, .f32⟩
  | .hbm, ⟨100, _⟩ => ⟨S1x2048, .f32⟩
  | .hbm, ⟨101, _⟩ => ⟨S128x2048, .f32⟩
  | .hbm, ⟨102, _⟩ => ⟨S128x2048, .f32⟩
  | .hbm, ⟨103, _⟩ => ⟨S128x2048, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_call0_v0 : Ref sig .tc := ⟨.hbm, 76, rfl⟩
abbrev main_call0_v1 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  transposes_S8192x2048_S2048x8192_1_0 : S8192x2048.Transposes [1, 0] S2048x8192
  bcast_S8192_S1x8192_1 : S8192.BroadcastsInDim S1x8192 (![1] : Fin 1 → Fin S1x8192.rank)
  bcast_S1x8192_S128x8192_0_1 : S1x8192.BroadcastsInDim S128x8192 (![0, 1] : Fin 2 → Fin S128x8192.rank)
  slices_S128x8192_S128x2048_0_0 : S128x8192.Slices ![0, 0] S128x2048
  slices_S128x8192_S128x2048_0_2048 : S128x8192.Slices ![0, 2048] S128x2048
  slices_S128x8192_S128x2048_0_4096 : S128x8192.Slices ![0, 4096] S128x2048
  slices_S128x8192_S128x2048_0_6144 : S128x8192.Slices ![0, 6144] S128x2048
  bcast_S_S128x2048 : S_.BroadcastsInDim S128x2048 (![] : Fin 0 → Fin S128x2048.rank)
  bcast_S128x2048_S1x128x2048_1_2 : S128x2048.BroadcastsInDim S1x128x2048 (![1, 2] : Fin 2 → Fin S1x128x2048.rank)
  bcast_S1x128x2048_S512x128x2048_0_1_2 : S1x128x2048.BroadcastsInDim S512x128x2048 (![0, 1, 2] : Fin 3 → Fin S512x128x2048.rank)
  reducesTo_S512x128x2048_S512x128_d2 : S512x128x2048.ReducesTo [2] S512x128
  h_S_ : 0 < S_.numel
  bcast_S512x128_S512x128x1_0_1 : S512x128.BroadcastsInDim S512x128x1 (![0, 1] : Fin 2 → Fin S512x128x1.rank)
  bcast_S_S512x128x1 : S_.BroadcastsInDim S512x128x1 (![] : Fin 0 → Fin S512x128x1.rank)
  reducesTo_S512x128x1_S128x1_d0 : S512x128x1.ReducesTo [0] S128x1
  bcast_S_S128x1 : S_.BroadcastsInDim S128x1 (![] : Fin 0 → Fin S128x1.rank)
  bcast_S128x1_S1x128x1_1_2 : S128x1.BroadcastsInDim S1x128x1 (![1, 2] : Fin 2 → Fin S1x128x1.rank)
  bcast_S1x128x1_S512x128x1_0_1_2 : S1x128x1.BroadcastsInDim S512x128x1 (![0, 1, 2] : Fin 3 → Fin S512x128x1.rank)
  bcast_S512x128x1_S512x128x2048_0_1_2 : S512x128x1.BroadcastsInDim S512x128x2048 (![0, 1, 2] : Fin 3 → Fin S512x128x2048.rank)
  reducesTo_S512x128x2048_S128x2048_d0 : S512x128x2048.ReducesTo [0] S128x2048
  concatenates_S128x2048_S128x2048_S128x4096_d1 : Shape.Concatenates [S128x2048, S128x2048] S128x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  gather_S32000x2048_S128x1_S128x2048_1_0_n_n_0_1_12048_wf : GatherDims.WF S32000x2048 S128x1 S128x2048 [1] [0] [] [0] [] 1 ![1, 2048]
  dot_S128x2048_S2048x8192_S128x8192_1_0_0_1_n_n_wf : DotDims.WF S128x2048 S2048x8192 S128x8192 [1] [0] [0] [1] [] []
  dot_S128x4096_S4096x2048_S128x2048_1_0_0_1_n_n_wf : DotDims.WF S128x4096 S4096x2048 S128x2048 [1] [0] [0] [1] [] []

variable [Facts₀]

def gather_S32000x2048_S128x1_S128x2048_1_0_n_n_0_1_12048 : GatherDims S32000x2048 S128x1 S128x2048 where
  offsetDims := [1]
  collapsedSliceDims := [0]
  operandBatchingDims := []
  startIndicesBatchingDims := []
  startIndexMap := [0]
  indexVectorDim := 1
  sliceSizes := ![1, 2048]
  wf := gather_S32000x2048_S128x1_S128x2048_1_0_n_n_0_1_12048_wf
def dot_S128x2048_S2048x8192_S128x8192_1_0_0_1_n_n : DotDims S128x2048 S2048x8192 S128x8192 where
  lhsContracting := [1]
  rhsContracting := [0]
  lhsNonContracting := [0]
  rhsNonContracting := [1]
  lhsBatch := []
  rhsBatch := []
  wf := dot_S128x2048_S2048x8192_S128x8192_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf

class Facts : Prop extends Facts₀ where

variable [Facts]
-- ==== Proof.KR0.lean ====
/-
  The first launch: the LSTM cell. The grid is (half h, gate j), eight points; at every point the body forms the
  activated gate j of the half's column block from x, h, the two weight blocks and the two bias blocks, and stores
  it into slab j of a four-slab scratch buffer that lives across points; at the last gate (j = 3) it reads the four
  slabs back, the cell state's block, and stores h' = o * tanh(f * c + i * g) into the output block, which the
  pipeline writes back there and only there.

  The scratch is carried from point to point, so the region's invariant after a point names what the slabs written
  so far in the current half hold (the activated gates of the points of this half up to this one); the other slabs
  hold contents nobody reads before they are overwritten. The output window is idle at the points with j ≠ 3: its
  buffer is handed to the body and taken back untouched.

  Stated for any contents `V` of the core's buffers at the region's entry.
-/
import proofs.«424716_j51917564674095_3_alg».proof.Proof.Gen.Kernel.Launch
import proofs.«424716_j51917564674095_3_alg».proof.Proof.Gen.Kernel.Skeleton
import proofs.«424716_j51917564674095_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it
    is not fetched its block index has not moved. One statement per input window (the window is a literal so
    that the configuration reduces). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

/-- The whole of each staging block as a rectangle: the body loads each input whole and stores the output whole. -/
abbrev r0_a : Rect S128x2048 := Rect.unit (s := S128x2048) ![0, 0] S128x2048.size inb_S128x2048_S128x2048_0_0
abbrev r0_b : Rect S2048x1024 := Rect.unit (s := S2048x1024) ![0, 0] S2048x1024.size inb_S2048x1024_S2048x1024_0_0
abbrev r0_c : Rect S1024 := Rect.unit (s := S1024) ![0] S1024.size inb_S1024_S1024_0
abbrev r0_d : Rect S128x1024 := Rect.unit (s := S128x1024) ![0, 0] S128x1024.size inb_S128x1024_S128x1024_0_0

/-- Slab `k` of the scratch buffer fits in it. -/
theorem slab0_inb (k : Fin 4) : ∀ a, (![k.val, 0, 0] : Fin 3 → ℕ) a + S1x128x1024.size a ≤ S4x128x1024.size a := by
  have hk := k.isLt
  intro a; fin_cases a
  · show k.val + 1 ≤ 4; omega
  · show 0 + 128 ≤ 128; omega
  · show 0 + 1024 ≤ 1024; omega

/-- Slab `k` of the scratch buffer: one gate's 128 × 1024 values. -/
abbrev slab0 (k : Fin 4) : Rect S4x128x1024 := Rect.unit (s := S4x128x1024) ![k.val, 0, 0] S1x128x1024.size (slab0_inb k)

/-! ## One store read back through unit rectangles -/

/-- What a view reads after one store over contents `f`: what it read of `f`, the store's payload laid over it on
    the store's rectangle. -/
theorem read_writes_one {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy, View.writes_nil]

/-- A load through the rectangle a payload was laid over reads the payload. -/
theorem ld_overlay_unit_hit {s : Shape} {e : EltTy} {Val : EltTy → Type} {off off' size : Fin s.rank → ℕ}
    (inb : ∀ a, off a + size a ≤ s.size a) (inb' : ∀ a, off' a + size a ≤ s.size a) (heq : off = off')
    (X : s.Idx → Val e) (p : (Rect.unit off size inb).shape.Idx → Val e) :
    View.ld ((Rect.unit off size inb).overlay X p) (Rect.unit off' size inb') = p := by
  subst heq
  funext x
  exact Rect.overlay_emb (Rect.unit off size inb) X p x

/-- A load through a unit rectangle that some axis keeps apart from the one a payload was laid over reads what
    was there before. -/
theorem ld_overlay_unit_miss {s : Shape} {e : EltTy} {Val : EltTy → Type} {off off' size size' : Fin s.rank → ℕ}
    (inb : ∀ a, off a + size a ≤ s.size a) (inb' : ∀ a, off' a + size' a ≤ s.size a)
    (a : Fin s.rank) (h : off a + size a ≤ off' a ∨ off' a + size' a ≤ off a)
    (X : s.Idx → Val e) (p : (Rect.unit off size inb).shape.Idx → Val e) :
    View.ld ((Rect.unit off size inb).overlay X p) (Rect.unit off' size' inb') = View.ld X (Rect.unit off' size' inb') := by
  funext x
  refine Rect.overlay_of_not_mem (Rect.unit off size inb) X p (fun hm => ?_)
  have hm' := (Rect.mem_set_unit.mp hm) a
  have hx : ((Rect.unit off' size' inb').idx x a : ℕ) = off' a + 1 * (x a).val := rfl
  have hlt : (x a).val < size' a := (x a).isLt
  rw [hx] at hm'
  omega

/-! ## What the body stores -/

/-- The activated gate the body forms from its six input blocks (each loaded whole) at grid coordinates `i`:
    x·W_ihᵀ + b_ih + h·W_hhᵀ + b_hh, through tanh for gate 2 and the logistic function for the others. -/
def pay0 (i : grid0.Coords) (x0 x1 : Vec F S128x2048 .f32) (x2 x3 : Vec F S2048x1024 .f32) (x4 x5 : Vec F S1024 .f32) : Vec F S1x128x1024 .f32 :=
  k0_pay1 i (View.ld x0 r0_a) (View.ld x1 r0_a) (View.ld x2 r0_b) (View.ld x3 r0_b) (View.ld x4 r0_c) (View.ld x5 r0_c)

/-- The scratch after the body's store at coordinates `i`: `p` laid over the slab of the point's gate. -/
def put0 (i : grid0.Coords) (xs : Vec F S4x128x1024 .f32) (p : Vec F S1x128x1024 .f32) : Vec F S4x128x1024 .f32 :=
  (Rect.unit (s := S4x128x1024) (k0_off1 i) S1x128x1024.size (k0_off1_inb i)).overlay xs p

/-- What the body stores into the output block at the last gate, from the four slabs of the scratch and the cell
    state's block. -/
def out0 (xs : Vec F S4x128x1024 .f32) (x6 : Vec F S128x1024 .f32) : Vec F S128x1024 .f32 :=
  k0_pay2 (View.ld xs (slab0 0)) (View.ld xs (slab0 1)) (View.ld xs (slab0 2)) (View.ld xs (slab0 3)) (View.ld x6 r0_d)

/-- The body's one store into the output block covers it. -/
theorem cover0_7 (p0 : Vec F S128x1024 .f32) (y : S128x1024.Idx) :
    ∃ pc ∈ ([⟨r0_d, p0⟩] : List (View.Piece (Elt F) S128x1024 .f32)), y ∈ pc.1.set :=
  View.cover_of_tiled [⟨r0_d, p0⟩] S128x1024.size (by rfl) y

theorem zeros0_2 : (![0, 0] : Fin 2 → ℕ) = fun _ => 0 := by funext a; fin_cases a <;> rfl

/-! ## The body's triple, at the last gate and elsewhere -/

set_option maxHeartbeats 4000000 in
/-- At a point of the last gate, on whole memrefs — the inputs' at contents `xW`, the output's at anything, the
    scratch at `xs` — the body runs to the inputs' as they were, the scratch with the point's gate stored in its
    slab, and the output block at `out0` of the scratch so updated. -/
theorem sound_kernel0_live (c : Dev nD) (E : Set ℕ) (i : grid0.Coords) (hc : k0_cond1 i = 1#1)
    (arg2 : Memref sig .tc .vmem S128x2048 .f32) (harg2 : arg2.IsWhole) (arg3 : Memref sig .tc .vmem S128x2048 .f32) (harg3 : arg3.IsWhole)
    (arg4 : Memref sig .tc .vmem S2048x1024 .f32) (harg4 : arg4.IsWhole) (arg5 : Memref sig .tc .vmem S2048x1024 .f32) (harg5 : arg5.IsWhole)
    (arg6 : Memref sig .tc .vmem S1024 .f32) (harg6 : arg6.IsWhole) (arg7 : Memref sig .tc .vmem S1024 .f32) (harg7 : arg7.IsWhole)
    (arg8 : Memref sig .tc .vmem S128x1024 .f32) (harg8 : arg8.IsWhole) (arg9 : Memref sig .tc .vmem S128x1024 .f32) (harg9 : arg9.IsWhole)
    (arg10 : Memref sig .tc .vmem S4x128x1024 .f32) (harg10 : arg10.IsWhole)
    (x0 x1 : Vec F S128x2048 .f32) (x2 x3 : Vec F S2048x1024 .f32) (x4 x5 : Vec F S1024 .f32) (x6 : Vec F S128x1024 .f32)
    (xs : Vec F S4x128x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
            ∗ owns (c : Thread nD τ) arg9 fullShare (out0 (put0 i xs (pay0 i x0 x1 x2 x3 x4 x5)) x6)
            ∗ owns (c : Thread nD τ) arg10 fullShare (put0 i xs (pay0 i x0 x1 x2 x3 x4 x5))) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover0_7 (F := F) _), View.canon_unit_zero zeros0_2]
    simp only [View.readAt_eq_ld, read_writes_one]
    rfl
  iexists _; isplitr
  swap; · iexact HS
  ipureintro
  rw [read_writes_one]
  rfl

set_option maxHeartbeats 4000000 in
/-- At a point of another gate the body runs to the inputs' as they were, the scratch with the point's gate stored
    in its slab, and the output's memref as it was handed over. -/
theorem sound_kernel0_idle (c : Dev nD) (E : Set ℕ) (i : grid0.Coords) (hc : ¬k0_cond1 i = 1#1)
    (arg2 : Memref sig .tc .vmem S128x2048 .f32) (harg2 : arg2.IsWhole) (arg3 : Memref sig .tc .vmem S128x2048 .f32) (harg3 : arg3.IsWhole)
    (arg4 : Memref sig .tc .vmem S2048x1024 .f32) (harg4 : arg4.IsWhole) (arg5 : Memref sig .tc .vmem S2048x1024 .f32) (harg5 : arg5.IsWhole)
    (arg6 : Memref sig .tc .vmem S1024 .f32) (harg6 : arg6.IsWhole) (arg7 : Memref sig .tc .vmem S1024 .f32) (harg7 : arg7.IsWhole)
    (arg8 : Memref sig .tc .vmem S128x1024 .f32) (harg8 : arg8.IsWhole) (arg9 : Memref sig .tc .vmem S128x1024 .f32) (harg9 : arg9.IsWhole)
    (arg10 : Memref sig .tc .vmem S4x128x1024 .f32) (harg10 : arg10.IsWhole)
    (x0 x1 : Vec F S128x2048 .f32) (x2 x3 : Vec F S2048x1024 .f32) (x4 x5 : Vec F S1024 .f32) (x6 : Vec F S128x1024 .f32)
    (xs : Vec F S4x128x1024 .f32) (xi : Vec F S128x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
            ∗ owns (c : Thread nD τ) arg9 fullShare xi
            ∗ owns (c : Thread nD τ) arg10 fullShare (put0 i xs (pay0 i x0 x1 x2 x3 x4 x5))) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0; subst hf1; subst hf2; subst hf3; subst hf4; subst hf5; subst hf6; subst hf7; subst hfs
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  rw [read_writes_one]
  rfl

/-! ## The grid in closed form -/

/-- The gate coordinate of point `t` is `t mod 4` — decided over the grid. -/
theorem gate0 : ∀ t : Fin cfg0.N, ((grid0.coords t) 1).val = t.val % 4 :=
  (by decide +kernel : ∀ t : Fin grid0.N, ((grid0.coords t) 1).val = t.val % 4)

/-- The body's conditional is taken at the points of the last gate. -/
theorem hcond0 : ∀ t : Fin cfg0.N, k0_cond1 (grid0.coords t) = 1#1 ↔ t.val % 4 = 3 :=
  (by decide +kernel : ∀ t : Fin grid0.N, k0_cond1 (grid0.coords t) = 1#1 ↔ t.val % 4 = 3)

/-- The slab the body stores into at point `t` is the one of its gate. -/
theorem hoff0 (t : Fin cfg0.N) : k0_off1 (grid0.coords t) = ![t.val % 4, 0, 0] := by
  rw [k0_off1_eq, gate0]

/-- Away from the last gate the output window is idle and not written back; at the last gate it is live. -/
theorem idleAt0_7 : ∀ t : Fin cfg0.N, ¬k0_cond1 (grid0.coords t) = 1#1 → cfg0.idle 7 (grid0.coords t) = true := by decide +kernel
theorem noFlush0_7 : ∀ t : Fin cfg0.N, ¬k0_cond1 (grid0.coords t) = 1#1 → (cfg0.win 7).flush t = false := by decide +kernel
theorem liveAt0_7 : ∀ t : Fin cfg0.N, k0_cond1 (grid0.coords t) = 1#1 → cfg0.idle 7 (grid0.coords t) = false := by decide +kernel

/-! ## What the scratch and the output hold, point by point -/

/-- What the body stores into slab `t mod 4` of the scratch at point `t`: the activated gate of that point's blocks. -/
def act0 (c : Dev nD) (t : Fin cfg0.N) : Vec F S1x128x1024 .f32 :=
  k0_pay1 (grid0.coords t) (View.ld (iblk0 V c 0 t) r0_a) (View.ld (iblk0 V c 1 t) r0_a) (View.ld (iblk0 V c 2 t) r0_b) (View.ld (iblk0 V c 3 t) r0_b) (View.ld (iblk0 V c 4 t) r0_c) (View.ld (iblk0 V c 5 t) r0_c)

theorem act0_eq (c : Dev nD) (t : Fin cfg0.N) :
    act0 V c t = pay0 (grid0.coords t) (iblk0 V c 0 t) (iblk0 V c 1 t) (iblk0 V c 2 t) (iblk0 V c 3 t) (iblk0 V c 4 t) (iblk0 V c 5 t) := rfl

/-- Point `4·(t/4) + j`, the point of gate `j` in `t`'s half. -/
def pt0 (t : Fin cfg0.N) (j : Fin 4) : Fin cfg0.N :=
  ⟨4 * (t.val / 4) + j.val, by have := t.isLt; have := j.isLt; have : cfg0.N = 8 := N_0; omega⟩

/-- What the body stores into the output block at a point of the last gate (stated at every `t`; only the points
    with `t mod 4 = 3` matter): h' from the four activated gates of the half and the cell state's block. -/
def hnew0 (c : Dev nD) (t : Fin cfg0.N) : Vec F S128x1024 .f32 :=
  k0_pay2 (act0 V c (pt0 t 0)) (act0 V c (pt0 t 1)) (act0 V c (pt0 t 2)) (act0 V c (pt0 t 3)) (View.ld (iblk0 V c 6 t) r0_d)

/-- The point of `t`'s own gate in its half is `t`. -/
theorem pt0_self (t : Fin cfg0.N) (k : Fin 4) (h : k.val = t.val % 4) : pt0 t k = t :=
  Fin.ext (by show 4 * (t.val / 4) + k.val = t.val; omega)

/-- A point and the one before it in the same half name the same points of the half. -/
theorem pt0_prev (t t' : Fin cfg0.N) (h1 : t'.val + 1 = t.val) (h0 : t.val % 4 ≠ 0) (k : Fin 4) : pt0 t' k = pt0 t k :=
  Fin.ext (by show 4 * (t'.val / 4) + k.val = 4 * (t.val / 4) + k.val; omega)

/-- After point `t` the slabs of the gates up to `t`'s hold those gates of `t`'s half. -/
def Inv0 (c : Dev nD) (t : Fin cfg0.N) (xs : Vec F S4x128x1024 .f32) : Prop :=
  ∀ k : Fin 4, k.val ≤ t.val % 4 → View.ld xs (slab0 k) = act0 V c (pt0 t k)

/-- Before point `t` the slabs of the gates below `t`'s hold those gates of `t`'s half. -/
def Pre0 (c : Dev nD) (t : Fin cfg0.N) (xs : Vec F S4x128x1024 .f32) : Prop :=
  ∀ k : Fin 4, k.val < t.val % 4 → View.ld xs (slab0 k) = act0 V c (pt0 t k)

/-- At the first point of a half nothing is asked of the scratch. -/
theorem Pre0_first (c : Dev nD) (t : Fin cfg0.N) (h : t.val % 4 = 0) (xs : Vec F S4x128x1024 .f32) : Pre0 V c t xs :=
  fun k hk => absurd hk (by omega)

/-- What the point before left is what this point asks, when both are in one half; at a half's first point
    nothing is asked. -/
theorem Pre0_of_Inv0 (c : Dev nD) (t t' : Fin cfg0.N) (h1 : t'.val + 1 = t.val) (xs : Vec F S4x128x1024 .f32)
    (h : Inv0 V c t' xs) : Pre0 V c t xs := fun k hk => by
  have h0 : t.val % 4 ≠ 0 := by omega
  rw [← pt0_prev t t' h1 h0 k]
  exact h k (by omega)

/-- The body's store keeps the invariant: the slab of the point's gate now holds it, the slabs below are
    untouched. -/
theorem Inv0_put (c : Dev nD) (t : Fin cfg0.N) (xs : Vec F S4x128x1024 .f32) (h : Pre0 V c t xs) :
    Inv0 V c t (put0 (grid0.coords t) xs (act0 V c t)) := fun k hk => by
  unfold put0
  by_cases hkt : k.val = t.val % 4
  · rw [pt0_self t k hkt]
    exact ld_overlay_unit_hit (k0_off1_inb _) (slab0_inb k) (by rw [hoff0, hkt]) xs (act0 V c t)
  · have hlt : k.val < t.val % 4 := by omega
    rw [← h k hlt]
    exact ld_overlay_unit_miss (k0_off1_inb _) (slab0_inb k) 0
      (by rw [hoff0]; show t.val % 4 + 1 ≤ k.val ∨ k.val + 1 ≤ t.val % 4; omega) xs (act0 V c t)

/-- At a point of the last gate, the four slabs hold the half's four gates, so the body's output store is `hnew0`. -/
theorem hnew0_of (c : Dev nD) (t : Fin cfg0.N) (h3 : t.val % 4 = 3) (xs : Vec F S4x128x1024 .f32) (hI : Inv0 V c t xs) :
    out0 xs (iblk0 V c 6 t) = hnew0 V c t := by
  unfold out0 hnew0
  rw [hI 0 (by show 0 ≤ t.val % 4; omega), hI 1 (by show 1 ≤ t.val % 4; omega), hI 2 (by show 2 ≤ t.val % 4; omega),
    hI 3 (by show 3 ≤ t.val % 4; omega)]
  rfl

/-! ## The invariant -/

/-- The scratch operand: a whole scoped buffer of the kernel's own, passed beside the windows. -/
abbrev scM0 : Memref sig .tc .vmem S4x128x1024 .f32 := Memref.whole cc0_scratch0

/-- The core's scoped buffers that are neither a staging buffer of this launch nor its scratch, at some contents
    each: the body never names them. -/
def rest0 (c : Dev nD) : sProp 𝕄 :=
  Pipeline.scopedRestBut (Ix := Unit) (Name := ℕ) (U := UR sig nD τ) (Lvl := ℕ) (Val := Elt F) spec0 c [cc0_scratch0]

/-- The class's invariant with the scratch split off as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0
  rw [Pipeline.scopedRest_split_of_list spec0 c [cc0_scratch0] (by decide) (by decide)]
  simp only [scM0, owns_whole]; try rfl

/-- The region's invariant before position `n`: before the first point the class's; afterwards the scratch at
    contents whose slabs written so far in the half hold the half's gates (`Inv0` of the point before), the other
    scoped buffers and the generator register at anything. -/
def Phi0 (c : Dev nD) : (n : ℕ) → n ≤ cfg0.N → sProp 𝕄
  | 0, _ => Pipeline.ΦA spec0 c
  | n + 1, hn => iprop(((∃ xs, ⌜Inv0 V c ⟨n, hn⟩ xs⌝ ∗ owns (c : Thread nD τ) scM0 fullShare xs) ∗ rest0 (F := F) c) ∗ (∃ r, prngReg c r))

theorem Phi0_succ (c : Dev nD) (n : ℕ) (hn : n < cfg0.N) :
    Phi0 V c (n + 1) hn = iprop(((∃ xs, ⌜Inv0 V c ⟨n, hn⟩ xs⌝ ∗ owns (c : Thread nD τ) scM0 fullShare xs) ∗ rest0 (F := F) c) ∗ (∃ r, prngReg c r)) := rfl

/-- Before any point the invariant gives the scratch at contents that hold what the point asks. -/
theorem Phi0_open (c : Dev nD) (t : Fin cfg0.N) :
    Phi0 V c t.val (Nat.le_of_lt t.isLt)
      ⊢ iprop(((∃ xs, ⌜Pre0 V c t xs⌝ ∗ owns (c : Thread nD τ) scM0 fullShare xs) ∗ rest0 (F := F) c) ∗ (∃ r, prngReg c r)) := by
  obtain ⟨n, hn⟩ := t
  cases n with
  | zero =>
    show (Pipeline.ΦA spec0 c : sProp 𝕄) ⊢ _
    rw [PhiA0_eq]
    iintro ⟨⟨⟨%d, HS⟩, Hr⟩, Hg⟩
    isplitl [HS Hr]
    · isplitl [HS]
      · iexists d; isplitr
        · ipureintro; exact Pre0_first V c ⟨0, hn⟩ (Nat.zero_mod 4) d
        iexact HS
      iexact Hr
    iexact Hg
  | succ n =>
    show Phi0 V c (n + 1) (Nat.lt_of_succ_lt hn) ⊢ _
    rw [Phi0_succ]
    iintro ⟨⟨⟨%xs, %hI, HS⟩, Hr⟩, Hg⟩
    isplitl [HS Hr]
    · isplitl [HS]
      · iexists xs; isplitr
        · ipureintro; exact Pre0_of_Inv0 V c ⟨n + 1, hn⟩ ⟨n, Nat.lt_of_succ_lt hn⟩ rfl xs hI
        iexact HS
      iexact Hr
    iexact Hg

/-! ## The proof data -/

/-- The region's proof data on core `c`: the arrays as found; after the body each input's buffer at its block and
    the output's at `hnew0`; the invariant `Phi0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hnew0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := rfl
theorem owed0 (c : Dev nD) (t : Fin (cfg0.N + 1)) : (dat0 V c).owed t = 0 := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hnew0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- What the body leaves in an input's buffer: its block (the configuration states no idle point of an input). -/
theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]
theorem leaves0_2 (c : Dev nD) (t : Fin cfg0.N) :
    (dat0 V c).leavesExact 2 t = owns (c : Thread nD τ) (st0_2 t) fullShare (iblk0 V c 2 t) := by
  rw [← after0_2]
theorem leaves0_3 (c : Dev nD) (t : Fin cfg0.N) :
    (dat0 V c).leavesExact 3 t = owns (c : Thread nD τ) (st0_3 t) fullShare (iblk0 V c 3 t) := by
  rw [← after0_3]
theorem leaves0_4 (c : Dev nD) (t : Fin cfg0.N) :
    (dat0 V c).leavesExact 4 t = owns (c : Thread nD τ) (st0_4 t) fullShare (iblk0 V c 4 t) := by
  rw [← after0_4]
theorem leaves0_5 (c : Dev nD) (t : Fin cfg0.N) :
    (dat0 V c).leavesExact 5 t = owns (c : Thread nD τ) (st0_5 t) fullShare (iblk0 V c 5 t) := by
  rw [← after0_5]
theorem leaves0_6 (c : Dev nD) (t : Fin cfg0.N) :
    (dat0 V c).leavesExact 6 t = owns (c : Thread nD τ) (st0_6 t) fullShare (iblk0 V c 6 t) := by
  rw [← after0_6]
/-- and in the output's at a point of the last gate: `hnew0`. -/
theorem leaves0_7 (c : Dev nD) (t : Fin cfg0.N) (hc : k0_cond1 (grid0.coords t) = 1#1) :
    (dat0 V c).leavesExact 7 t = owns (c : Thread nD τ) (st0_7 t) fullShare (hnew0 V c t) := by
  rw [← after0_7]; unfold Dat.leavesExact; rw [liveAt0_7 t hc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point: the inputs' memrefs hold their blocks and the invariant hands over the scratch at
    contents that hold what the point asks, so the triple of the point's case applies; the store keeps the
    invariant; at the last gate the output block is `hnew0`, elsewhere its buffer comes back as handed over. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.succ = Phi0 V c (t.val + 1) t.isLt from rfl, Phi0_succ, Phi0_castSucc,
    leaves0_0, leaves0_1, leaves0_2, leaves0_3, leaves0_4, leaves0_5, leaves0_6]
  by_cases hc : k0_cond1 (grid0.coords t) = 1#1
  · rw [leaves0_7 V c t hc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi0_open V c t) $$ HΦ
    icases HΦ' with ⟨⟨⟨%xs, %hP, HS⟩, Hr⟩, Hg⟩
    have hI := Inv0_put V c t xs hP
    rw [act0_eq] at hI
    rw [← hnew0_of V c t ((hcond0 t).mp hc) _ hI]
    iapply (sound_kernel0_live c Set.univ (grid0.coords t) hc _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) xs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr Hg]
    · isplitl [HS Hr]
      · isplitl [HS]
        · iexists _; isplitr
          · ipureintro; exact hI
          iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat0 V c) 7 t (idleAt0_7 t hc) (noFlush0_7 t hc)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi0_open V c t) $$ HΦ
    icases HΦ' with ⟨⟨⟨%xs, %hP, HS⟩, Hr⟩, Hg⟩
    have hI := Inv0_put V c t xs hP
    rw [act0_eq] at hI
    iapply (sound_kernel0_idle c Set.univ (grid0.coords t) hc _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) xs
      ((dat0 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr Hg]
    · isplitl [HS Hr]
      · isplitl [HS]
        · iexists _; isplitr
          · ipureintro; exact hI
          iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := .rfl

/-- At any position the invariant gives the class's back: what the scratch holds is forgotten. -/
theorem Phi0_out (c : Dev nD) (n : ℕ) (h : n ≤ cfg0.N) : Phi0 V c n h ⊢ (Pipeline.ΦA spec0 c : sProp 𝕄) := by
  cases n with
  | zero => exact .rfl
  | succ n =>
    rw [Phi0_succ, PhiA0_eq]
    iintro ⟨⟨⟨%xs, %hI, HS⟩, Hr⟩, Hg⟩
    isplitl [HS Hr]
    · isplitl [HS]
      · iexists xs; iexact HS
      iexact Hr
    iexact Hg

/-- So it does after the last point. -/
theorem hout0 (c : Dev nD) : (dat0 V c).Φ (Fin.last cfg0.N) ⊢ (Pipeline.ΦA spec0 c : sProp 𝕄) :=
  Phi0_out V c (Fin.last cfg0.N).val (Nat.le_of_lt_succ (Fin.last cfg0.N).isLt)

end Cert.Kernel.Hand

end
-- ==== Proof.KR1.lean ====
/-
  The second launch: the attention reduction, a streaming softmax-weighted sum over the source positions. The grid
  is (batch half, tile of 32 source positions): 2 × 16 points. At every point the body reads the hidden state h'
  of its batch half (64 × 2048), one tile of source rows (32 × 64 × 2048) and of the mask (32 × 64 × 1), and
  updates a state kept in three scratch buffers that no window stages: the running maximum m of the masked scores,
  the running normaliser l and the running weighted sum acc, rescaled to the new maximum as in the streaming form of
  softmax. At the first tile of a batch half the state is reset before it is read; at the last tile the body
  stores acc / l into the output block, which only that point writes back.

  Stated for any contents `V` of the core's buffers at the region's entry: each window's block at a point, the
  state after each point by recursion on the point (`st1`), what the last tile stores (`content1`), the body's
  triple in each of its three control cases, the proof data and the body obligation at every point. The
  invariant between points is the three scratch buffers at the state the point before left.
-/
import proofs.«424716_j51917564674095_3_alg».proof.Proof.Gen.Kernel.Launch
import proofs.«424716_j51917564674095_3_alg».proof.Proof.Gen.Kernel.Skeleton
import proofs.«424716_j51917564674095_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer rectangles -/

/-- The whole-buffer rectangle's offsets are zero, at rank two and rank three. -/
theorem off1_2 : (![0, 0] : Fin 2 → ℕ) = fun _ => 0 := funext fun a => by fin_cases a <;> rfl
theorem off1_3 : (![0, 0, 0] : Fin 3 → ℕ) = fun _ => 0 := funext fun a => by fin_cases a <;> rfl

/-- A load through the whole-buffer rectangle reads the buffer's contents. -/
theorem readAt_whole1 {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f :=
  View.ld_unit_zero h inb (v.read (Elt F) f)

/-- A buffer whose last store went through the whole-buffer rectangle reads as that store's payload,
    whatever was stored before. -/
theorem read_writes_whole1 {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (p : S.Idx → Elt F e)
    (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero h inb y⟩),
    View.canon_cons_unit_zero h inb]

/-- The two facts at the shapes of the body's buffers. -/
theorem ra1_64x1 {sg : RefSig} {κ : Kind} {sp : Space} (v : View sg κ sp S64x1 .f32) (f : v.ty.Contents (Elt F)) :
    View.readAt (Elt F) v (Rect.unit (s := S64x1) ![0, 0] S64x1.size inb_S64x1_S64x1_0_0).toLoadRect f = v.read (Elt F) f :=
  readAt_whole1 v f off1_2 _
theorem ra1_64x2048 {sg : RefSig} {κ : Kind} {sp : Space} (v : View sg κ sp S64x2048 .f32) (f : v.ty.Contents (Elt F)) :
    View.readAt (Elt F) v (Rect.unit (s := S64x2048) ![0, 0] S64x2048.size inb_S64x2048_S64x2048_0_0).toLoadRect f = v.read (Elt F) f :=
  readAt_whole1 v f off1_2 _
theorem ra1_32x64x2048 {sg : RefSig} {κ : Kind} {sp : Space} (v : View sg κ sp S32x64x2048 .f32) (f : v.ty.Contents (Elt F)) :
    View.readAt (Elt F) v (Rect.unit (s := S32x64x2048) ![0, 0, 0] S32x64x2048.size inb_S32x64x2048_S32x64x2048_0_0_0).toLoadRect f = v.read (Elt F) f :=
  readAt_whole1 v f off1_3 _
theorem ra1_32x64x1 {sg : RefSig} {κ : Kind} {sp : Space} (v : View sg κ sp S32x64x1 .i32) (f : v.ty.Contents (Elt F)) :
    View.readAt (Elt F) v (Rect.unit (s := S32x64x1) ![0, 0, 0] S32x64x1.size inb_S32x64x1_S32x64x1_0_0_0).toLoadRect f = v.read (Elt F) f :=
  readAt_whole1 v f off1_3 _
theorem rw1_64x1 {sg : RefSig} {κ : Kind} {sp : Space} (v : View sg κ sp S64x1 .f32) (f : v.ty.Contents (Elt F)) (p : Vec F S64x1 .f32)
    (L : List (View.Piece (Elt F) S64x1 .f32)) :
    v.read (Elt F) (v.writes (Elt F) f ((⟨Rect.unit (s := S64x1) ![0, 0] S64x1.size inb_S64x1_S64x1_0_0, p⟩ : View.Piece (Elt F) S64x1 .f32) :: L)) = p :=
  read_writes_whole1 v f off1_2 _ p L
theorem rw1_64x2048 {sg : RefSig} {κ : Kind} {sp : Space} (v : View sg κ sp S64x2048 .f32) (f : v.ty.Contents (Elt F)) (p : Vec F S64x2048 .f32)
    (L : List (View.Piece (Elt F) S64x2048 .f32)) :
    v.read (Elt F) (v.writes (Elt F) f ((⟨Rect.unit (s := S64x2048) ![0, 0] S64x2048.size inb_S64x2048_S64x2048_0_0, p⟩ : View.Piece (Elt F) S64x2048 .f32) :: L)) = p :=
  read_writes_whole1 v f off1_2 _ p L

/-! ## The body's two conditionals, in closed form over the grid -/

/-- The first conditional (the reset of the streaming state): the tile coordinate is zero. -/
abbrev cond1_0 (i : grid1.Coords) : Prop :=
  Scalar.cmpi .ne (Scalar.extui (Scalar.cmpi .eq (BitVec.ofNat 32 (i 1).val) 0#32)) 0#32 = 1#1
/-- The second conditional (the normalising epilogue): the tile coordinate is the last, fifteen. -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- Where the output window is idle: exactly off the last tile of a batch half; there the pipeline does not
    write its block back. On the last tile it is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body's triple, case by case -/

set_option maxHeartbeats 4000000 in
/-- A tile that is neither the first nor the last of its batch half: the state (m, l, acc) found in the three
    scratch buffers is replaced by its update from the point's three input blocks; the inputs and the output
    buffer are left as found. -/
theorem sound_kernel1_mid (c : Dev nD) (E : Set ℕ) (i : grid1.Coords) (hc0 : ¬cond1_0 i) (hc1 : ¬cond1_1 i)
    (arg2 : Memref sig .tc .vmem S64x2048 .f32) (harg2 : arg2.IsWhole) (arg3 : Memref sig .tc .vmem S32x64x2048 .f32) (harg3 : arg3.IsWhole)
    (arg4 : Memref sig .tc .vmem S32x64x1 .i32) (harg4 : arg4.IsWhole) (arg5 : Memref sig .tc .vmem S64x2048 .f32) (harg5 : arg5.IsWhole)
    (arg6 : Memref sig .tc .vmem S64x1 .f32) (harg6 : arg6.IsWhole) (arg7 : Memref sig .tc .vmem S64x1 .f32) (harg7 : arg7.IsWhole)
    (arg8 : Memref sig .tc .vmem S64x2048 .f32) (harg8 : arg8.IsWhole)
    (x3 : Vec F S64x2048 .f32) (x5 : Vec F S32x64x2048 .f32) (x6 : Vec F S32x64x1 .i32) (xi : Vec F S64x2048 .f32)
    (pm pl : Vec F S64x1 .f32) (pacc : Vec F S64x2048 .f32) (K : PUnit → sProp 𝕄) :
    iprop(owns (c : Thread nD τ) arg2 fullShare x3 ∗ owns (c : Thread nD τ) arg3 fullShare x5 ∗ owns (c : Thread nD τ) arg4 fullShare x6
        ∗ owns (c : Thread nD τ) arg5 fullShare xi ∗ owns (c : Thread nD τ) arg6 fullShare pm ∗ owns (c : Thread nD τ) arg7 fullShare pl ∗ owns (c : Thread nD τ) arg8 fullShare pacc
        ∗ (iprop(owns (c : Thread nD τ) arg2 fullShare x3 ∗ owns (c : Thread nD τ) arg3 fullShare x5 ∗ owns (c : Thread nD τ) arg4 fullShare x6
            ∗ owns (c : Thread nD τ) arg5 fullShare xi ∗ owns (c : Thread nD τ) arg6 fullShare (k1_pay2 (k1_pay8 x3 x5 x6 pm))
            ∗ owns (c : Thread nD τ) arg7 fullShare (k1_pay11 x3 x5 x6 pm pm pl)
            ∗ owns (c : Thread nD τ) arg8 fullShare (k1_pay1 x5 (k1_pay9 x3 x5 x6 pm pm) (k1_pay10 x3 x5 x6 pm) pacc)) -∗ K ⟨⟩))
      ⊢ wp frame (wpE (defs₀ (F := F)) Variants.none c none) E (cc1__attn_reduce_kernel i arg2 harg2 arg3 harg3 arg4 harg4 arg5 harg5 arg6 harg6 arg7 harg7 arg8 harg8) K := by
  simp only [cc1__attn_reduce_kernel_eq_skeleton]; unfold cc1__attn_reduce_kernel_skel
  unfold owns
  iintro ⟨⟨%f3, %hf3, H3⟩, ⟨%f5, %hf5, H5⟩, ⟨%f6, %hf6, H6⟩, ⟨%fi, %hfi, Hi⟩, ⟨%fm, %hfm, Hm⟩, ⟨%fl, %hfl, Hl⟩, ⟨%fa, %hfa, Ha⟩, Hk⟩
  subst hf3; subst hf5; subst hf6; subst hfi; subst hfm; subst hfl; subst hfa
  sl_exec (disch := first | exact hc0 | exact hc1)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [Hi]
  · iexists fi; isplitr; · ipureintro; rfl
    iexact Hi
  isplitl [Hm]
  · iexists _; isplitr
    swap; · iexact Hm
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  isplitl [Hl]
  · iexists _; isplitr
    swap; · iexact Hl
    ipureintro
    refine (rw1_64x1 _ _ _ _).trans ?_
    repeat (first | rw [View.readCov_cons_toLoadRect] | rw [ra1_64x1] | rw [ra1_64x2048] | rw [ra1_32x64x2048] | rw [ra1_32x64x1])
  iexists _; isplitr
  swap; · iexact Ha
  ipureintro
  sl_unfold_run_names
  refine (rw1_64x2048 _ _ _ _).trans ?_
  repeat (first | rw [View.readCov_cons_toLoadRect] | rw [ra1_64x1] | rw [ra1_64x2048] | rw [ra1_32x64x2048] | rw [ra1_32x64x1])

set_option maxHeartbeats 4000000 in
/-- The first tile of a batch half: whatever the three scratch buffers hold is overwritten by the initial state
    (m = the mask constant, l = 0, acc = 0) before anything reads them, and the update runs from that. -/
theorem sound_kernel1_reset (c : Dev nD) (E : Set ℕ) (i : grid1.Coords) (hc0 : cond1_0 i) (hc1 : ¬cond1_1 i)
    (arg2 : Memref sig .tc .vmem S64x2048 .f32) (harg2 : arg2.IsWhole) (arg3 : Memref sig .tc .vmem S32x64x2048 .f32) (harg3 : arg3.IsWhole)
    (arg4 : Memref sig .tc .vmem S32x64x1 .i32) (harg4 : arg4.IsWhole) (arg5 : Memref sig .tc .vmem S64x2048 .f32) (harg5 : arg5.IsWhole)
    (arg6 : Memref sig .tc .vmem S64x1 .f32) (harg6 : arg6.IsWhole) (arg7 : Memref sig .tc .vmem S64x1 .f32) (harg7 : arg7.IsWhole)
    (arg8 : Memref sig .tc .vmem S64x2048 .f32) (harg8 : arg8.IsWhole)
    (x3 : Vec F S64x2048 .f32) (x5 : Vec F S32x64x2048 .f32) (x6 : Vec F S32x64x1 .i32) (xi : Vec F S64x2048 .f32) (K : PUnit → sProp 𝕄) :
    iprop(owns (c : Thread nD τ) arg2 fullShare x3 ∗ owns (c : Thread nD τ) arg3 fullShare x5 ∗ owns (c : Thread nD τ) arg4 fullShare x6
        ∗ owns (c : Thread nD τ) arg5 fullShare xi ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x3 ∗ owns (c : Thread nD τ) arg3 fullShare x5 ∗ owns (c : Thread nD τ) arg4 fullShare x6
            ∗ owns (c : Thread nD τ) arg5 fullShare xi ∗ owns (c : Thread nD τ) arg6 fullShare (k1_pay2 (k1_pay8 x3 x5 x6 (k1_pay4 (F := F))))
            ∗ owns (c : Thread nD τ) arg7 fullShare (k1_pay11 x3 x5 x6 (k1_pay4 (F := F)) (k1_pay4 (F := F)) (k1_pay5 (F := F)))
            ∗ owns (c : Thread nD τ) arg8 fullShare (k1_pay1 x5 (k1_pay9 x3 x5 x6 (k1_pay4 (F := F)) (k1_pay4 (F := F))) (k1_pay10 x3 x5 x6 (k1_pay4 (F := F))) (k1_pay6 (F := F)))) -∗ K ⟨⟩))
      ⊢ wp frame (wpE (defs₀ (F := F)) Variants.none c none) E (cc1__attn_reduce_kernel i arg2 harg2 arg3 harg3 arg4 harg4 arg5 harg5 arg6 harg6 arg7 harg7 arg8 harg8) K := by
  simp only [cc1__attn_reduce_kernel_eq_skeleton]; unfold cc1__attn_reduce_kernel_skel
  unfold owns
  iintro ⟨⟨%f3, %hf3, H3⟩, ⟨%f5, %hf5, H5⟩, ⟨%f6, %hf6, H6⟩, ⟨%fi, %hfi, Hi⟩, ⟨%dm, %fm, -, Hm⟩, ⟨%dl, %fl, -, Hl⟩, ⟨%da, %fa, -, Ha⟩, Hk⟩
  subst hf3; subst hf5; subst hf6; subst hfi
  sl_exec (disch := first | exact hc0 | exact hc1)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [Hi]
  · iexists fi; isplitr; · ipureintro; rfl
    iexact Hi
  isplitl [Hm]
  · iexists _; isplitr
    swap; · iexact Hm
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  isplitl [Hl]
  · iexists _; isplitr
    swap; · iexact Hl
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  iexists _; isplitr
  swap; · iexact Ha
  ipureintro
  sl_unfold_run_names
  refine (rw1_64x2048 _ _ _ _).trans ?_
  repeat (first | rw [View.readCov_cons_toLoadRect] | rw [ra1_64x1] | rw [ra1_64x2048] | rw [ra1_32x64x2048] | rw [ra1_32x64x1])

set_option maxHeartbeats 4000000 in
/-- The last tile of a batch half: the update as at a middle tile, and then the output buffer, whatever it held,
    receives the normalised sum acc / l of the UPDATED state. -/
theorem sound_kernel1_last (c : Dev nD) (E : Set ℕ) (i : grid1.Coords) (hc0 : ¬cond1_0 i) (hc1 : cond1_1 i)
    (arg2 : Memref sig .tc .vmem S64x2048 .f32) (harg2 : arg2.IsWhole) (arg3 : Memref sig .tc .vmem S32x64x2048 .f32) (harg3 : arg3.IsWhole)
    (arg4 : Memref sig .tc .vmem S32x64x1 .i32) (harg4 : arg4.IsWhole) (arg5 : Memref sig .tc .vmem S64x2048 .f32) (harg5 : arg5.IsWhole)
    (arg6 : Memref sig .tc .vmem S64x1 .f32) (harg6 : arg6.IsWhole) (arg7 : Memref sig .tc .vmem S64x1 .f32) (harg7 : arg7.IsWhole)
    (arg8 : Memref sig .tc .vmem S64x2048 .f32) (harg8 : arg8.IsWhole)
    (x3 : Vec F S64x2048 .f32) (x5 : Vec F S32x64x2048 .f32) (x6 : Vec F S32x64x1 .i32)
    (pm pl : Vec F S64x1 .f32) (pacc : Vec F S64x2048 .f32) (K : PUnit → sProp 𝕄) :
    iprop(owns (c : Thread nD τ) arg2 fullShare x3 ∗ owns (c : Thread nD τ) arg3 fullShare x5 ∗ owns (c : Thread nD τ) arg4 fullShare x6
        ∗ (∃ d, owns (c : Thread nD τ) arg5 fullShare d) ∗ owns (c : Thread nD τ) arg6 fullShare pm ∗ owns (c : Thread nD τ) arg7 fullShare pl ∗ owns (c : Thread nD τ) arg8 fullShare pacc
        ∗ (iprop(owns (c : Thread nD τ) arg2 fullShare x3 ∗ owns (c : Thread nD τ) arg3 fullShare x5 ∗ owns (c : Thread nD τ) arg4 fullShare x6
            ∗ owns (c : Thread nD τ) arg5 fullShare (k1_pay3 (k1_pay1 x5 (k1_pay9 x3 x5 x6 pm pm) (k1_pay10 x3 x5 x6 pm) pacc) (k1_pay11 x3 x5 x6 pm pm pl))
            ∗ owns (c : Thread nD τ) arg6 fullShare (k1_pay2 (k1_pay8 x3 x5 x6 pm))
            ∗ owns (c : Thread nD τ) arg7 fullShare (k1_pay11 x3 x5 x6 pm pm pl)
            ∗ owns (c : Thread nD τ) arg8 fullShare (k1_pay1 x5 (k1_pay9 x3 x5 x6 pm pm) (k1_pay10 x3 x5 x6 pm) pacc)) -∗ K ⟨⟩))
      ⊢ wp frame (wpE (defs₀ (F := F)) Variants.none c none) E (cc1__attn_reduce_kernel i arg2 harg2 arg3 harg3 arg4 harg4 arg5 harg5 arg6 harg6 arg7 harg7 arg8 harg8) K := by
  simp only [cc1__attn_reduce_kernel_eq_skeleton]; unfold cc1__attn_reduce_kernel_skel
  unfold owns
  iintro ⟨⟨%f3, %hf3, H3⟩, ⟨%f5, %hf5, H5⟩, ⟨%f6, %hf6, H6⟩, ⟨%di, %fi, -, Hi⟩, ⟨%fm, %hfm, Hm⟩, ⟨%fl, %hfl, Hl⟩, ⟨%fa, %hfa, Ha⟩, Hk⟩
  subst hf3; subst hf5; subst hf6; subst hfm; subst hfl; subst hfa
  sl_exec (disch := first | exact hc0 | exact hc1)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [Hi]
  · iexists _; isplitr
    swap; · iexact Hi
    ipureintro
    sl_unfold_run_names
    refine (rw1_64x2048 _ _ _ _).trans ?_
    repeat (first | rw [View.readCov_cons_toLoadRect] | rw [ra1_64x1] | rw [ra1_64x2048] | rw [ra1_32x64x2048] | rw [ra1_32x64x1])
  isplitl [Hm]
  · iexists _; isplitr
    swap; · iexact Hm
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  isplitl [Hl]
  · iexists _; isplitr
    swap; · iexact Hl
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  iexists _; isplitr
  swap; · iexact Ha
  ipureintro
  sl_unfold_run_names
  refine (rw1_64x2048 _ _ _ _).trans ?_
  repeat (first | rw [View.readCov_cons_toLoadRect] | rw [ra1_64x1] | rw [ra1_64x2048] | rw [ra1_32x64x2048] | rw [ra1_32x64x1])

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it
    is not fetched (the hidden-state window, within a batch half) its block index has not moved. One statement
    per input window (the window is a literal so that the configuration reduces). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The streaming state -/

/-- one point's update of the streaming state (m, l, acc) from the state `p` it finds -/
def step1 (c : Dev nD) (t : Fin cfg1.N) (p : Vec F S64x1 .f32 × Vec F S64x1 .f32 × Vec F S64x2048 .f32) : Vec F S64x1 .f32 × Vec F S64x1 .f32 × Vec F S64x2048 .f32 :=
  (k1_pay2 (k1_pay8 (iblk1 V c 0 t) (iblk1 V c 1 t) (iblk1 V c 2 t) p.1),
   k1_pay11 (iblk1 V c 0 t) (iblk1 V c 1 t) (iblk1 V c 2 t) p.1 p.1 p.2.1,
   k1_pay1 (iblk1 V c 1 t) (k1_pay9 (iblk1 V c 0 t) (iblk1 V c 1 t) (iblk1 V c 2 t) p.1 p.1) (k1_pay10 (iblk1 V c 0 t) (iblk1 V c 1 t) (iblk1 V c 2 t) p.1) p.2.2)

/-- the state the body leaves in the three scratch buffers at point n: reset at the first tile of a batch half -/
def st1 (c : Dev nD) : (n : ℕ) → n < cfg1.N → Vec F S64x1 .f32 × Vec F S64x1 .f32 × Vec F S64x2048 .f32
  | 0, hn => step1 V c ⟨0, hn⟩ (k1_pay4, k1_pay5, k1_pay6)
  | n + 1, hn => step1 V c ⟨n + 1, hn⟩ (if (n + 1) % 16 = 0 then (k1_pay4, k1_pay5, k1_pay6) else st1 c n (Nat.lt_of_succ_lt hn))

/-- At the first tile of a batch half the state left is the update of the initial state. -/
theorem st1_reset (c : Dev nD) (t : Fin cfg1.N) (h0 : t.val % 16 = 0) :
    st1 V c t.val t.isLt = step1 V c t (k1_pay4, k1_pay5, k1_pay6) := by
  obtain ⟨n, hn⟩ := t
  cases n with
  | zero => rfl
  | succ n => exact congrArg (step1 V c ⟨n + 1, hn⟩) (if_pos h0)

/-- At any later tile it is the update of the state the point before left. -/
theorem st1_step (c : Dev nD) (t : Fin cfg1.N) (h0 : ¬t.val % 16 = 0) :
    st1 V c t.val t.isLt = step1 V c t (st1 V c (t.val - 1) (Nat.lt_of_le_of_lt (Nat.sub_le _ _) t.isLt)) := by
  obtain ⟨n, hn⟩ := t
  cases n with
  | zero => exact absurd (Nat.zero_mod _) h0
  | succ n => exact congrArg (step1 V c ⟨n + 1, hn⟩) (if_neg h0)

/-- what the body stores into the output block at a point with s = 15 (stated at every t) -/
def content1 (c : Dev nD) (t : Fin cfg1.N) : Vec F S64x2048 .f32 := k1_pay3 (st1 V c t.val t.isLt).2.2 (st1 V c t.val t.isLt).2.1

/-! ## The invariant: the streaming state in the three scratch buffers -/

/-- The scratch operands: whole scoped buffers of the kernel's own, passed beside the windows. -/
abbrev scM1_0 : Memref sig .tc .vmem S64x1 .f32 := Memref.whole cc1_scratch0
abbrev scM1_1 : Memref sig .tc .vmem S64x1 .f32 := Memref.whole cc1_scratch1
abbrev scM1_2 : Memref sig .tc .vmem S64x2048 .f32 := Memref.whole cc1_scratch2

/-- What the launch hands the region, with the three scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

/-- The region's invariant before position `n`: before the first point what the launch hands over (the scratch
    buffers at anything); afterwards the three scratch buffers at the state the point before left, the other
    scoped buffers unopened, and the generator register at some state. -/
def Phi1 (c : Dev nD) : (n : ℕ) → n ≤ cfg1.N → sProp 𝕄
  | 0, _ => Pipeline.ΦA spec1 c
  | n + 1, hn => iprop(iprop(iprop(owns (c : Thread nD τ) scM1_0 fullShare (st1 V c n hn).1 ∗ owns (c : Thread nD τ) scM1_1 fullShare (st1 V c n hn).2.1 ∗ owns (c : Thread nD τ) scM1_2 fullShare (st1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (st1 V c n hn).1 ∗ owns (c : Thread nD τ) scM1_1 fullShare (st1 V c n hn).2.1 ∗ owns (c : Thread nD τ) scM1_2 fullShare (st1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (st1 V c (n - 1) (by omega)).1 ∗ owns (c : Thread nD τ) scM1_1 fullShare (st1 V c (n - 1) (by omega)).2.1 ∗ owns (c : Thread nD τ) scM1_2 fullShare (st1 V c (n - 1) (by omega)).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-! ## The proof data -/

/-- The region's proof data on core `c`: the arrays as found; after the body each input's buffer at its block and
    the output's at the normalised sum of the state the point leaves (consulted only at the last tile of a batch
    half, the one point that writes the block back); the invariant carries the streaming state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => content1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := rfl
theorem owed1 (c : Dev nD) (t : Fin (cfg1.N + 1)) : (dat1 V c).owed t = 0 := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = content1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 4000000 in
/-- The body at any point. The inputs' memrefs hold their blocks; the tile coordinate says which case the point is
    in. At the first tile of a batch half the scratch buffers are handed over at whatever they hold (what the
    launch left, or the previous half's final state) and come back at the update of the initial state; at a later
    tile they are handed over at the state the point before left and come back at its update. Off the last tile
    the output buffer goes through untouched; at the last tile it comes back at the normalised sum of the state
    just left. The core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, after1_0, after1_1, after1_2]
  have hN : t.val < 32 := lt_of_lt_of_eq t.isLt (show cfg1.N = 32 from N_1)
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), st1_reset V c t h0]
    simp only [step1]
    by_cases hz : t.val = 0
    · rw [Phi1_castSucc V c t, Phi1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩⟩
      iapply (sound_kernel1_reset c Set.univ _ hc0 hc1 _ _ _ _ _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_reset c Set.univ _ hc0 hc1 _ _ _ _ _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    by_cases h1 : t.val % 16 = 15
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      unfold content1
      rw [st1_step V c t h0]
      simp only [step1]
      rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_last c Set.univ _ hc0 hc1 _ _ _ _ _ _ _ _ _ _ _ _ _ _ (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1), st1_step V c t h0]
      simp only [step1]
      rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_mid c Set.univ _ hc0 hc1 _ _ _ _ _ _ _ _ _ _ _ _ _ _ (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := .rfl

/-- After the last point the invariant gives back what the launch handed over: the scratch buffers' named
    contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Cert.Kernel.Hand

end
-- ==== Proof.KR2.lean ====
/-
  The third launch: out = tanh(content · Wc + h' · Wh + b), the output columns split in two halves over a grid of
  two points. Every operand is staged by the pipeline and the body keeps nothing between points, so the
  region's invariant is only the scoped buffers it never names and the generator register.

  Stated for any contents `V` of the core's buffers at the region's entry: each window's block at a point,
  what the body leaves in the output block (its one store, of the payload of the five input blocks), the
  body's triple, the proof data and the body obligation at every point.
-/
import proofs.«424716_j51917564674095_3_alg».proof.Proof.Gen.Kernel.Launch
import proofs.«424716_j51917564674095_3_alg».proof.Proof.Gen.Kernel.Skeleton
import proofs.«424716_j51917564674095_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it
    is not fetched its block index has not moved. One statement per input window (the window is a literal so
    that the configuration reduces). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole output block as a rectangle: the body's one store covers it. -/
abbrev r2_5 : Rect S128x1024 := Rect.unit (s := S128x1024) ![0, 0] S128x1024.size inb_S128x1024_S128x1024_0_0

/-- The whole of each input block as a rectangle: the body loads each input whole. -/
abbrev r2_a : Rect S128x2048 := Rect.unit (s := S128x2048) ![0, 0] S128x2048.size inb_S128x2048_S128x2048_0_0
abbrev r2_b : Rect S2048x1024 := Rect.unit (s := S2048x1024) ![0, 0] S2048x1024.size inb_S2048x1024_S2048x1024_0_0
abbrev r2_c : Rect S1024 := Rect.unit (s := S1024) ![0] S1024.size inb_S1024_S1024_0

/-- The output block after the body: its one store, of the payload of the five input blocks (each loaded whole). -/
def out2_5 (x0 x1 : Vec F S128x2048 .f32) (x2 x3 : Vec F S2048x1024 .f32) (x4 : Vec F S1024 .f32) : Vec F S128x1024 .f32 :=
  View.canon [⟨r2_5, k2_pay1 (View.ld x0 r2_a) (View.ld x1 r2_a) (View.ld x2 r2_b) (View.ld x3 r2_b) (View.ld x4 r2_c)⟩]

theorem cover2_5 (p0 : Vec F S128x1024 .f32) (y : S128x1024.Idx) :
    ∃ pc ∈ ([⟨r2_5, p0⟩] : List (View.Piece (Elt F) S128x1024 .f32)), y ∈ pc.1.set :=
  View.cover_of_tiled [⟨r2_5, p0⟩] S128x1024.size (by rfl) y

/-! ## The body's triple -/

set_option maxHeartbeats 1000000 in
/-- On whole staging memrefs, the inputs' at contents `xW` and the output's at anything, the body runs to the
    inputs' as they were and the output's at `out2_5` of them. -/
theorem sound_kernel2 (c : Dev nD) (E : Set ℕ) (i : grid2.Coords)
    (arg1 : Memref sig .tc .vmem S128x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S2048x1024 .f32) (harg4 : arg4.IsWhole)
    (arg5 : Memref sig .tc .vmem S1024 .f32) (harg5 : arg5.IsWhole) (arg6 : Memref sig .tc .vmem S128x1024 .f32) (harg6 : arg6.IsWhole)
    (x0 x1 : Vec F S128x2048 .f32) (x2 x3 : Vec F S2048x1024 .f32) (x4 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__final_kernel i arg1 harg1 arg2 harg2 arg3 harg3 arg4 harg4 arg5 harg5 arg6 harg6) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 (F := F) _)

/-! ## The proof data -/

/-- The region's proof data on core `c`: the arrays as found; after the body each input's buffer at its block and
    the output's at `out2_5` of the input blocks; the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := rfl
theorem owed2 (c : Dev nD) (t : Fin (cfg2.N + 1)) : (dat2 V c).owed t = 0 := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

end Cert.Kernel.Hand

end
-- ==== Proof.KRun.lean ====
/-
  The whole program: five segments — the host lines before the first launch, the LSTM launch, the attention
  launch, the host lines slicing and transposing attn_W, the final launch — run in order from the launch memory.
  The contents of the core's buffers at each boundary are a fold through @main: a host stretch applies its
  operations, a launch replaces its output array by what its write-backs leave and keeps everything else.
  Every weakly fair execution terminates with every unscoped buffer at the last boundary's contents; read at
  the arguments that is the frame, read at the result it is the value the launches computed.
-/
import proofs.«424716_j51917564674095_3_alg».proof.Proof.Gen.Kernel.Launch
import proofs.«424716_j51917564674095_3_alg».proof.Proof.Gen.Kernel.Skeleton
import proofs.«424716_j51917564674095_3_alg».proof.Proof.Gen.Kernel.Points
import proofs.«424716_j51917564674095_3_alg».proof.Proof.Gen.Kernel.Regions
import proofs.«424716_j51917564674095_3_alg».proof.Proof.KR0
import proofs.«424716_j51917564674095_3_alg».proof.Proof.KR1
import proofs.«424716_j51917564674095_3_alg».proof.Proof.KR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host lines before the first launch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Only the region's output array changes: an input window's array is never written, and the other buffers bypass it. -/
theorem W2_keep (c : Dev nD) (b : Ref sig .tc) (hb : b ≠ main_v9) : W2 m ρ c (Proc.devRef .tc b) = W1 m ρ c (Proc.devRef .tc b) := by
  by_cases h : ∃ w, Pipeline.arrRef spec0 w = b
  · obtain ⟨w, rfl⟩ := h
    have hin : ∀ w : Fin cfg0.W, Pipeline.arrRef spec0 w ≠ main_v9 → (cfg0.win w).isOut = false := by decide
    exact (W2_arr m ρ c w).trans (((dat0 (V1 m ρ) c).arrAt_in w (hin w hb) _).trans (A_eq0 (V1 m ρ) c w))
  · exact W2_of_ne m ρ c b fun w e => h ⟨w, e⟩

/-- After region 1: its arrays at what the write-backs leave, every other buffer as the region found it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Only the region's output array changes: an input window's array is never written, and the other buffers bypass it. -/
theorem W3_keep (c : Dev nD) (b : Ref sig .tc) (hb : b ≠ main_v10) : W3 m ρ c (Proc.devRef .tc b) = W2 m ρ c (Proc.devRef .tc b) := by
  by_cases h : ∃ w, Pipeline.arrRef spec1 w = b
  · obtain ⟨w, rfl⟩ := h
    have hin : ∀ w : Fin cfg1.W, Pipeline.arrRef spec1 w ≠ main_v10 → (cfg1.win w).isOut = false := by decide
    exact (W3_arr m ρ c w).trans (((dat1 (V2 m ρ) c).arrAt_in w (hin w hb) _).trans (A_eq1 (V2 m ρ) c w))
  · exact W3_of_ne m ρ c b fun w e => h ⟨w, e⟩

/-- After the host lines between the second and the third launch. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2: its arrays at what the write-backs leave, every other buffer as the region found it. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Only the region's output array changes: an input window's array is never written, and the other buffers bypass it. -/
theorem W5_keep (c : Dev nD) (b : Ref sig .tc) (hb : b ≠ main_v15) : W5 m ρ c (Proc.devRef .tc b) = W4 m ρ c (Proc.devRef .tc b) := by
  by_cases h : ∃ w, Pipeline.arrRef spec2 w = b
  · obtain ⟨w, rfl⟩ := h
    have hin : ∀ w : Fin cfg2.W, Pipeline.arrRef spec2 w ≠ main_v15 → (cfg2.win w).isOut = false := by decide
    exact (W5_arr m ρ c w).trans (((dat2 (V4 m ρ) c).arrAt_in w (hin w hb) _).trans (A_eq2 (V4 m ρ) c w))
  · exact W5_of_ne m ρ c b fun w e => h ⟨w, e⟩

/-- A buffer that no host line writes and that is no launch's output ends as launched. -/
theorem W5_kept (c : Dev nD) (b : Ref sig .tc) (h9 : b ≠ main_v9) (h10 : b ≠ main_v10) (h15 : b ≠ main_v15)
    (h0 : b ∉ hostOps0_W) (h2 : b ∉ hostOps2_W) : W5 m ρ c (Proc.devRef .tc b) = m ((c : Thread nD τ).loc b) :=
  calc W5 m ρ c (Proc.devRef .tc b)
    _ = W4 m ρ c (Proc.devRef .tc b) := W5_keep m ρ c b h15
    _ = W3 m ρ c (Proc.devRef .tc b) := StableHlo.after_of_writes_sub hostOps2 _ hostOps2_writes h2
    _ = W2 m ρ c (Proc.devRef .tc b) := W3_keep m ρ c b h10
    _ = W1 m ρ c (Proc.devRef .tc b) := W2_keep m ρ c b h9
    _ = W0 m ρ c (Proc.devRef .tc b) := StableHlo.after_of_writes_sub hostOps0 _ hostOps0_writes h0
    _ = m ((c : Thread nD τ).loc b) := rfl

/-! ## The proof data family and the thread state -/

/-- Every launch's proof data, each at its region's entry contents (a literal match on the launch). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Region 0 over the thread state: entered with every unscoped buffer at `W1`, left with them at `W2`. Its arrays
    are split out of the unscoped buffers on entry and put back, at what the write-backs leave, on exit; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h1.trans (hin0 (V1 m ρ) c)
  hout c := by
    rw [Pipeline.ownSems0_none]
    have h1 : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers on entry and put back, at what the write-backs leave, on exit; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (hin1 (V2 m ρ) c)
  hout c := by
    rw [Pipeline.ownSems0_none]
    have h1 : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its arrays
    are split out of the unscoped buffers on entry and put back, at what the write-backs leave, on exit; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun c t => owed2 (V4 m ρ) c t
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q2 (V4 m ρ) c w) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h1.trans (hin2 (V4 m ρ) c)
  hout c := by
    rw [Pipeline.ownSems0_none]
    have h1 : (Pipeline.ΦA spec2 c : sProp 𝕄)
        ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V4 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q2 (V4 m ρ) c w)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with the
    result buffer at what the third launch's write-backs leave and every argument array as launched. -/
theorem run : θ_run defs (onTc (τ := τ) (main (F := F))) ⟨m, fun _ => 0, ρ⟩ (fun r => ∀ c : Dev nD,
      r.2.mem ((c.tc : Thread nD τ).loc main_v15) = (dat2 (V4 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v15 (by decide))).trans (W5_arr m ρ c 5),
       (h c _ (mem_uc main_arg0 (by decide))).trans (W5_kept m ρ c main_arg0 (by decide) (by decide) (by decide) (by decide) (by decide)),
       (h c _ (mem_uc main_arg1 (by decide))).trans (W5_kept m ρ c main_arg1 (by decide) (by decide) (by decide) (by decide) (by decide)),
       (h c _ (mem_uc main_arg2 (by decide))).trans (W5_kept m ρ c main_arg2 (by decide) (by decide) (by decide) (by decide) (by decide)),
       (h c _ (mem_uc main_arg3 (by decide))).trans (W5_kept m ρ c main_arg3 (by decide) (by decide) (by decide) (by decide) (by decide)),
       (h c _ (mem_uc main_arg4 (by decide))).trans (W5_kept m ρ c main_arg4 (by decide) (by decide) (by decide) (by decide) (by decide)),
       (h c _ (mem_uc main_arg5 (by decide))).trans (W5_kept m ρ c main_arg5 (by decide) (by decide) (by decide) (by decide) (by decide)),
       (h c _ (mem_uc main_arg6 (by decide))).trans (W5_kept m ρ c main_arg6 (by decide) (by decide) (by decide) (by decide) (by decide)),
       (h c _ (mem_uc main_arg7 (by decide))).trans (W5_kept m ρ c main_arg7 (by decide) (by decide) (by decide) (by decide) (by decide)),
       (h c _ (mem_uc main_arg8 (by decide))).trans (W5_kept m ρ c main_arg8 (by decide) (by decide) (by decide) (by decide) (by decide)),
       (h c _ (mem_uc main_arg9 (by decide))).trans (W5_kept m ρ c main_arg9 (by decide) (by decide) (by decide) (by decide) (by decide)),
       (h c _ (mem_uc main_arg10 (by decide))).trans (W5_kept m ρ c main_arg10 (by decide) (by decide) (by decide) (by decide) (by decide)),
       (h c _ (mem_uc main_arg11 (by decide))).trans (W5_kept m ρ c main_arg11 (by decide) (by decide) (by decide) (by decide) (by decide))⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.Kernel.Hand

end
-- ==== Proof.R0.lean ====
/-
  The first launch: the LSTM cell. The grid is (half h, gate j), eight points; at every point the body forms the
  activated gate j of the half's column block from x, h, the two weight blocks and the two bias blocks, and stores
  it into slab j of a four-slab scratch buffer that lives across points; at the last gate (j = 3) it reads the four
  slabs back, the cell state's block, and stores h' = o * tanh(f * c + i * g) into the output block, which the
  pipeline writes back there and only there.

  The scratch is carried from point to point, so the region's invariant after a point names what the slabs written
  so far in the current half hold (the activated gates of the points of this half up to this one); the other slabs
  hold contents nobody reads before they are overwritten. The output window is idle at the points with j ≠ 3: its
  buffer is handed to the body and taken back untouched.

  Stated for any contents `V` of the core's buffers at the region's entry.
-/
import proofs.«424716_j51917564674095_3_alg».proof.Proof.Gen.KernelIdeal.Launch
import proofs.«424716_j51917564674095_3_alg».proof.Proof.Gen.KernelIdeal.Skeleton
import proofs.«424716_j51917564674095_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it
    is not fetched its block index has not moved. One statement per input window (the window is a literal so
    that the configuration reduces). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

/-- The whole of each staging block as a rectangle: the body loads each input whole and stores the output whole. -/
abbrev r0_a : Rect S128x2048 := Rect.unit (s := S128x2048) ![0, 0] S128x2048.size inb_S128x2048_S128x2048_0_0
abbrev r0_b : Rect S2048x1024 := Rect.unit (s := S2048x1024) ![0, 0] S2048x1024.size inb_S2048x1024_S2048x1024_0_0
abbrev r0_c : Rect S1024 := Rect.unit (s := S1024) ![0] S1024.size inb_S1024_S1024_0
abbrev r0_d : Rect S128x1024 := Rect.unit (s := S128x1024) ![0, 0] S128x1024.size inb_S128x1024_S128x1024_0_0

/-- Slab `k` of the scratch buffer fits in it. -/
theorem slab0_inb (k : Fin 4) : ∀ a, (![k.val, 0, 0] : Fin 3 → ℕ) a + S1x128x1024.size a ≤ S4x128x1024.size a := by
  have hk := k.isLt
  intro a; fin_cases a
  · show k.val + 1 ≤ 4; omega
  · show 0 + 128 ≤ 128; omega
  · show 0 + 1024 ≤ 1024; omega

/-- Slab `k` of the scratch buffer: one gate's 128 × 1024 values. -/
abbrev slab0 (k : Fin 4) : Rect S4x128x1024 := Rect.unit (s := S4x128x1024) ![k.val, 0, 0] S1x128x1024.size (slab0_inb k)

/-! ## One store read back through unit rectangles -/

/-- What a view reads after one store over contents `f`: what it read of `f`, the store's payload laid over it on
    the store's rectangle. -/
theorem read_writes_one {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy, View.writes_nil]

/-- A load through the rectangle a payload was laid over reads the payload. -/
theorem ld_overlay_unit_hit {s : Shape} {e : EltTy} {Val : EltTy → Type} {off off' size : Fin s.rank → ℕ}
    (inb : ∀ a, off a + size a ≤ s.size a) (inb' : ∀ a, off' a + size a ≤ s.size a) (heq : off = off')
    (X : s.Idx → Val e) (p : (Rect.unit off size inb).shape.Idx → Val e) :
    View.ld ((Rect.unit off size inb).overlay X p) (Rect.unit off' size inb') = p := by
  subst heq
  funext x
  exact Rect.overlay_emb (Rect.unit off size inb) X p x

/-- A load through a unit rectangle that some axis keeps apart from the one a payload was laid over reads what
    was there before. -/
theorem ld_overlay_unit_miss {s : Shape} {e : EltTy} {Val : EltTy → Type} {off off' size size' : Fin s.rank → ℕ}
    (inb : ∀ a, off a + size a ≤ s.size a) (inb' : ∀ a, off' a + size' a ≤ s.size a)
    (a : Fin s.rank) (h : off a + size a ≤ off' a ∨ off' a + size' a ≤ off a)
    (X : s.Idx → Val e) (p : (Rect.unit off size inb).shape.Idx → Val e) :
    View.ld ((Rect.unit off size inb).overlay X p) (Rect.unit off' size' inb') = View.ld X (Rect.unit off' size' inb') := by
  funext x
  refine Rect.overlay_of_not_mem (Rect.unit off size inb) X p (fun hm => ?_)
  have hm' := (Rect.mem_set_unit.mp hm) a
  have hx : ((Rect.unit off' size' inb').idx x a : ℕ) = off' a + 1 * (x a).val := rfl
  have hlt : (x a).val < size' a := (x a).isLt
  rw [hx] at hm'
  omega

/-! ## What the body stores -/

/-- The activated gate the body forms from its six input blocks (each loaded whole) at grid coordinates `i`:
    x·W_ihᵀ + b_ih + h·W_hhᵀ + b_hh, through tanh for gate 2 and the logistic function for the others. -/
def pay0 (i : grid0.Coords) (x0 x1 : Vec F S128x2048 .f32) (x2 x3 : Vec F S2048x1024 .f32) (x4 x5 : Vec F S1024 .f32) : Vec F S1x128x1024 .f32 :=
  k0_pay1 i (View.ld x0 r0_a) (View.ld x1 r0_a) (View.ld x2 r0_b) (View.ld x3 r0_b) (View.ld x4 r0_c) (View.ld x5 r0_c)

/-- The scratch after the body's store at coordinates `i`: `p` laid over the slab of the point's gate. -/
def put0 (i : grid0.Coords) (xs : Vec F S4x128x1024 .f32) (p : Vec F S1x128x1024 .f32) : Vec F S4x128x1024 .f32 :=
  (Rect.unit (s := S4x128x1024) (k0_off1 i) S1x128x1024.size (k0_off1_inb i)).overlay xs p

/-- What the body stores into the output block at the last gate, from the four slabs of the scratch and the cell
    state's block. -/
def out0 (xs : Vec F S4x128x1024 .f32) (x6 : Vec F S128x1024 .f32) : Vec F S128x1024 .f32 :=
  k0_pay2 (View.ld xs (slab0 0)) (View.ld xs (slab0 1)) (View.ld xs (slab0 2)) (View.ld xs (slab0 3)) (View.ld x6 r0_d)

/-- The body's one store into the output block covers it. -/
theorem cover0_7 (p0 : Vec F S128x1024 .f32) (y : S128x1024.Idx) :
    ∃ pc ∈ ([⟨r0_d, p0⟩] : List (View.Piece (Elt F) S128x1024 .f32)), y ∈ pc.1.set :=
  View.cover_of_tiled [⟨r0_d, p0⟩] S128x1024.size (by rfl) y

theorem zeros0_2 : (![0, 0] : Fin 2 → ℕ) = fun _ => 0 := by funext a; fin_cases a <;> rfl

/-! ## The body's triple, at the last gate and elsewhere -/

set_option maxHeartbeats 4000000 in
/-- At a point of the last gate, on whole memrefs — the inputs' at contents `xW`, the output's at anything, the
    scratch at `xs` — the body runs to the inputs' as they were, the scratch with the point's gate stored in its
    slab, and the output block at `out0` of the scratch so updated. -/
theorem sound_kernel0_live (c : Dev nD) (E : Set ℕ) (i : grid0.Coords) (hc : k0_cond1 i = 1#1)
    (arg2 : Memref sig .tc .vmem S128x2048 .f32) (harg2 : arg2.IsWhole) (arg3 : Memref sig .tc .vmem S128x2048 .f32) (harg3 : arg3.IsWhole)
    (arg4 : Memref sig .tc .vmem S2048x1024 .f32) (harg4 : arg4.IsWhole) (arg5 : Memref sig .tc .vmem S2048x1024 .f32) (harg5 : arg5.IsWhole)
    (arg6 : Memref sig .tc .vmem S1024 .f32) (harg6 : arg6.IsWhole) (arg7 : Memref sig .tc .vmem S1024 .f32) (harg7 : arg7.IsWhole)
    (arg8 : Memref sig .tc .vmem S128x1024 .f32) (harg8 : arg8.IsWhole) (arg9 : Memref sig .tc .vmem S128x1024 .f32) (harg9 : arg9.IsWhole)
    (arg10 : Memref sig .tc .vmem S4x128x1024 .f32) (harg10 : arg10.IsWhole)
    (x0 x1 : Vec F S128x2048 .f32) (x2 x3 : Vec F S2048x1024 .f32) (x4 x5 : Vec F S1024 .f32) (x6 : Vec F S128x1024 .f32)
    (xs : Vec F S4x128x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
            ∗ owns (c : Thread nD τ) arg9 fullShare (out0 (put0 i xs (pay0 i x0 x1 x2 x3 x4 x5)) x6)
            ∗ owns (c : Thread nD τ) arg10 fullShare (put0 i xs (pay0 i x0 x1 x2 x3 x4 x5))) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover0_7 (F := F) _), View.canon_unit_zero zeros0_2]
    simp only [View.readAt_eq_ld, read_writes_one]
    rfl
  iexists _; isplitr
  swap; · iexact HS
  ipureintro
  rw [read_writes_one]
  rfl

set_option maxHeartbeats 4000000 in
/-- At a point of another gate the body runs to the inputs' as they were, the scratch with the point's gate stored
    in its slab, and the output's memref as it was handed over. -/
theorem sound_kernel0_idle (c : Dev nD) (E : Set ℕ) (i : grid0.Coords) (hc : ¬k0_cond1 i = 1#1)
    (arg2 : Memref sig .tc .vmem S128x2048 .f32) (harg2 : arg2.IsWhole) (arg3 : Memref sig .tc .vmem S128x2048 .f32) (harg3 : arg3.IsWhole)
    (arg4 : Memref sig .tc .vmem S2048x1024 .f32) (harg4 : arg4.IsWhole) (arg5 : Memref sig .tc .vmem S2048x1024 .f32) (harg5 : arg5.IsWhole)
    (arg6 : Memref sig .tc .vmem S1024 .f32) (harg6 : arg6.IsWhole) (arg7 : Memref sig .tc .vmem S1024 .f32) (harg7 : arg7.IsWhole)
    (arg8 : Memref sig .tc .vmem S128x1024 .f32) (harg8 : arg8.IsWhole) (arg9 : Memref sig .tc .vmem S128x1024 .f32) (harg9 : arg9.IsWhole)
    (arg10 : Memref sig .tc .vmem S4x128x1024 .f32) (harg10 : arg10.IsWhole)
    (x0 x1 : Vec F S128x2048 .f32) (x2 x3 : Vec F S2048x1024 .f32) (x4 x5 : Vec F S1024 .f32) (x6 : Vec F S128x1024 .f32)
    (xs : Vec F S4x128x1024 .f32) (xi : Vec F S128x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
            ∗ owns (c : Thread nD τ) arg9 fullShare xi
            ∗ owns (c : Thread nD τ) arg10 fullShare (put0 i xs (pay0 i x0 x1 x2 x3 x4 x5))) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0; subst hf1; subst hf2; subst hf3; subst hf4; subst hf5; subst hf6; subst hf7; subst hfs
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  rw [read_writes_one]
  rfl

/-! ## The grid in closed form -/

/-- The gate coordinate of point `t` is `t mod 4` — decided over the grid. -/
theorem gate0 : ∀ t : Fin cfg0.N, ((grid0.coords t) 1).val = t.val % 4 :=
  (by decide +kernel : ∀ t : Fin grid0.N, ((grid0.coords t) 1).val = t.val % 4)

/-- The body's conditional is taken at the points of the last gate. -/
theorem hcond0 : ∀ t : Fin cfg0.N, k0_cond1 (grid0.coords t) = 1#1 ↔ t.val % 4 = 3 :=
  (by decide +kernel : ∀ t : Fin grid0.N, k0_cond1 (grid0.coords t) = 1#1 ↔ t.val % 4 = 3)

/-- The slab the body stores into at point `t` is the one of its gate. -/
theorem hoff0 (t : Fin cfg0.N) : k0_off1 (grid0.coords t) = ![t.val % 4, 0, 0] := by
  rw [k0_off1_eq, gate0]

/-- Away from the last gate the output window is idle and not written back; at the last gate it is live. -/
theorem idleAt0_7 : ∀ t : Fin cfg0.N, ¬k0_cond1 (grid0.coords t) = 1#1 → cfg0.idle 7 (grid0.coords t) = true := by decide +kernel
theorem noFlush0_7 : ∀ t : Fin cfg0.N, ¬k0_cond1 (grid0.coords t) = 1#1 → (cfg0.win 7).flush t = false := by decide +kernel
theorem liveAt0_7 : ∀ t : Fin cfg0.N, k0_cond1 (grid0.coords t) = 1#1 → cfg0.idle 7 (grid0.coords t) = false := by decide +kernel

/-! ## What the scratch and the output hold, point by point -/

/-- What the body stores into slab `t mod 4` of the scratch at point `t`: the activated gate of that point's blocks. -/
def act0 (c : Dev nD) (t : Fin cfg0.N) : Vec F S1x128x1024 .f32 :=
  k0_pay1 (grid0.coords t) (View.ld (iblk0 V c 0 t) r0_a) (View.ld (iblk0 V c 1 t) r0_a) (View.ld (iblk0 V c 2 t) r0_b) (View.ld (iblk0 V c 3 t) r0_b) (View.ld (iblk0 V c 4 t) r0_c) (View.ld (iblk0 V c 5 t) r0_c)

theorem act0_eq (c : Dev nD) (t : Fin cfg0.N) :
    act0 V c t = pay0 (grid0.coords t) (iblk0 V c 0 t) (iblk0 V c 1 t) (iblk0 V c 2 t) (iblk0 V c 3 t) (iblk0 V c 4 t) (iblk0 V c 5 t) := rfl

/-- Point `4·(t/4) + j`, the point of gate `j` in `t`'s half. -/
def pt0 (t : Fin cfg0.N) (j : Fin 4) : Fin cfg0.N :=
  ⟨4 * (t.val / 4) + j.val, by have := t.isLt; have := j.isLt; have : cfg0.N = 8 := N_0; omega⟩

/-- What the body stores into the output block at a point of the last gate (stated at every `t`; only the points
    with `t mod 4 = 3` matter): h' from the four activated gates of the half and the cell state's block. -/
def hnew0 (c : Dev nD) (t : Fin cfg0.N) : Vec F S128x1024 .f32 :=
  k0_pay2 (act0 V c (pt0 t 0)) (act0 V c (pt0 t 1)) (act0 V c (pt0 t 2)) (act0 V c (pt0 t 3)) (View.ld (iblk0 V c 6 t) r0_d)

/-- The point of `t`'s own gate in its half is `t`. -/
theorem pt0_self (t : Fin cfg0.N) (k : Fin 4) (h : k.val = t.val % 4) : pt0 t k = t :=
  Fin.ext (by show 4 * (t.val / 4) + k.val = t.val; omega)

/-- A point and the one before it in the same half name the same points of the half. -/
theorem pt0_prev (t t' : Fin cfg0.N) (h1 : t'.val + 1 = t.val) (h0 : t.val % 4 ≠ 0) (k : Fin 4) : pt0 t' k = pt0 t k :=
  Fin.ext (by show 4 * (t'.val / 4) + k.val = 4 * (t.val / 4) + k.val; omega)

/-- After point `t` the slabs of the gates up to `t`'s hold those gates of `t`'s half. -/
def Inv0 (c : Dev nD) (t : Fin cfg0.N) (xs : Vec F S4x128x1024 .f32) : Prop :=
  ∀ k : Fin 4, k.val ≤ t.val % 4 → View.ld xs (slab0 k) = act0 V c (pt0 t k)

/-- Before point `t` the slabs of the gates below `t`'s hold those gates of `t`'s half. -/
def Pre0 (c : Dev nD) (t : Fin cfg0.N) (xs : Vec F S4x128x1024 .f32) : Prop :=
  ∀ k : Fin 4, k.val < t.val % 4 → View.ld xs (slab0 k) = act0 V c (pt0 t k)

/-- At the first point of a half nothing is asked of the scratch. -/
theorem Pre0_first (c : Dev nD) (t : Fin cfg0.N) (h : t.val % 4 = 0) (xs : Vec F S4x128x1024 .f32) : Pre0 V c t xs :=
  fun k hk => absurd hk (by omega)

/-- What the point before left is what this point asks, when both are in one half; at a half's first point
    nothing is asked. -/
theorem Pre0_of_Inv0 (c : Dev nD) (t t' : Fin cfg0.N) (h1 : t'.val + 1 = t.val) (xs : Vec F S4x128x1024 .f32)
    (h : Inv0 V c t' xs) : Pre0 V c t xs := fun k hk => by
  have h0 : t.val % 4 ≠ 0 := by omega
  rw [← pt0_prev t t' h1 h0 k]
  exact h k (by omega)

/-- The body's store keeps the invariant: the slab of the point's gate now holds it, the slabs below are
    untouched. -/
theorem Inv0_put (c : Dev nD) (t : Fin cfg0.N) (xs : Vec F S4x128x1024 .f32) (h : Pre0 V c t xs) :
    Inv0 V c t (put0 (grid0.coords t) xs (act0 V c t)) := fun k hk => by
  unfold put0
  by_cases hkt : k.val = t.val % 4
  · rw [pt0_self t k hkt]
    exact ld_overlay_unit_hit (k0_off1_inb _) (slab0_inb k) (by rw [hoff0, hkt]) xs (act0 V c t)
  · have hlt : k.val < t.val % 4 := by omega
    rw [← h k hlt]
    exact ld_overlay_unit_miss (k0_off1_inb _) (slab0_inb k) 0
      (by rw [hoff0]; show t.val % 4 + 1 ≤ k.val ∨ k.val + 1 ≤ t.val % 4; omega) xs (act0 V c t)

/-- At a point of the last gate, the four slabs hold the half's four gates, so the body's output store is `hnew0`. -/
theorem hnew0_of (c : Dev nD) (t : Fin cfg0.N) (h3 : t.val % 4 = 3) (xs : Vec F S4x128x1024 .f32) (hI : Inv0 V c t xs) :
    out0 xs (iblk0 V c 6 t) = hnew0 V c t := by
  unfold out0 hnew0
  rw [hI 0 (by show 0 ≤ t.val % 4; omega), hI 1 (by show 1 ≤ t.val % 4; omega), hI 2 (by show 2 ≤ t.val % 4; omega),
    hI 3 (by show 3 ≤ t.val % 4; omega)]
  rfl

/-! ## The invariant -/

/-- The scratch operand: a whole scoped buffer of the kernel's own, passed beside the windows. -/
abbrev scM0 : Memref sig .tc .vmem S4x128x1024 .f32 := Memref.whole cc0_scratch0

/-- The core's scoped buffers that are neither a staging buffer of this launch nor its scratch, at some contents
    each: the body never names them. -/
def rest0 (c : Dev nD) : sProp 𝕄 :=
  Pipeline.scopedRestBut (Ix := Unit) (Name := ℕ) (U := UR sig nD τ) (Lvl := ℕ) (Val := Elt F) spec0 c [cc0_scratch0]

/-- The class's invariant with the scratch split off as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0
  rw [Pipeline.scopedRest_split_of_list spec0 c [cc0_scratch0] (by decide) (by decide)]
  simp only [scM0, owns_whole]; try rfl

/-- The region's invariant before position `n`: before the first point the class's; afterwards the scratch at
    contents whose slabs written so far in the half hold the half's gates (`Inv0` of the point before), the other
    scoped buffers and the generator register at anything. -/
def Phi0 (c : Dev nD) : (n : ℕ) → n ≤ cfg0.N → sProp 𝕄
  | 0, _ => Pipeline.ΦA spec0 c
  | n + 1, hn => iprop(((∃ xs, ⌜Inv0 V c ⟨n, hn⟩ xs⌝ ∗ owns (c : Thread nD τ) scM0 fullShare xs) ∗ rest0 (F := F) c) ∗ (∃ r, prngReg c r))

theorem Phi0_succ (c : Dev nD) (n : ℕ) (hn : n < cfg0.N) :
    Phi0 V c (n + 1) hn = iprop(((∃ xs, ⌜Inv0 V c ⟨n, hn⟩ xs⌝ ∗ owns (c : Thread nD τ) scM0 fullShare xs) ∗ rest0 (F := F) c) ∗ (∃ r, prngReg c r)) := rfl

/-- Before any point the invariant gives the scratch at contents that hold what the point asks. -/
theorem Phi0_open (c : Dev nD) (t : Fin cfg0.N) :
    Phi0 V c t.val (Nat.le_of_lt t.isLt)
      ⊢ iprop(((∃ xs, ⌜Pre0 V c t xs⌝ ∗ owns (c : Thread nD τ) scM0 fullShare xs) ∗ rest0 (F := F) c) ∗ (∃ r, prngReg c r)) := by
  obtain ⟨n, hn⟩ := t
  cases n with
  | zero =>
    show (Pipeline.ΦA spec0 c : sProp 𝕄) ⊢ _
    rw [PhiA0_eq]
    iintro ⟨⟨⟨%d, HS⟩, Hr⟩, Hg⟩
    isplitl [HS Hr]
    · isplitl [HS]
      · iexists d; isplitr
        · ipureintro; exact Pre0_first V c ⟨0, hn⟩ (Nat.zero_mod 4) d
        iexact HS
      iexact Hr
    iexact Hg
  | succ n =>
    show Phi0 V c (n + 1) (Nat.lt_of_succ_lt hn) ⊢ _
    rw [Phi0_succ]
    iintro ⟨⟨⟨%xs, %hI, HS⟩, Hr⟩, Hg⟩
    isplitl [HS Hr]
    · isplitl [HS]
      · iexists xs; isplitr
        · ipureintro; exact Pre0_of_Inv0 V c ⟨n + 1, hn⟩ ⟨n, Nat.lt_of_succ_lt hn⟩ rfl xs hI
        iexact HS
      iexact Hr
    iexact Hg

/-! ## The proof data -/

/-- The region's proof data on core `c`: the arrays as found; after the body each input's buffer at its block and
    the output's at `hnew0`; the invariant `Phi0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hnew0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := rfl
theorem owed0 (c : Dev nD) (t : Fin (cfg0.N + 1)) : (dat0 V c).owed t = 0 := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hnew0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- What the body leaves in an input's buffer: its block (the configuration states no idle point of an input). -/
theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]
theorem leaves0_2 (c : Dev nD) (t : Fin cfg0.N) :
    (dat0 V c).leavesExact 2 t = owns (c : Thread nD τ) (st0_2 t) fullShare (iblk0 V c 2 t) := by
  rw [← after0_2]
theorem leaves0_3 (c : Dev nD) (t : Fin cfg0.N) :
    (dat0 V c).leavesExact 3 t = owns (c : Thread nD τ) (st0_3 t) fullShare (iblk0 V c 3 t) := by
  rw [← after0_3]
theorem leaves0_4 (c : Dev nD) (t : Fin cfg0.N) :
    (dat0 V c).leavesExact 4 t = owns (c : Thread nD τ) (st0_4 t) fullShare (iblk0 V c 4 t) := by
  rw [← after0_4]
theorem leaves0_5 (c : Dev nD) (t : Fin cfg0.N) :
    (dat0 V c).leavesExact 5 t = owns (c : Thread nD τ) (st0_5 t) fullShare (iblk0 V c 5 t) := by
  rw [← after0_5]
theorem leaves0_6 (c : Dev nD) (t : Fin cfg0.N) :
    (dat0 V c).leavesExact 6 t = owns (c : Thread nD τ) (st0_6 t) fullShare (iblk0 V c 6 t) := by
  rw [← after0_6]
/-- and in the output's at a point of the last gate: `hnew0`. -/
theorem leaves0_7 (c : Dev nD) (t : Fin cfg0.N) (hc : k0_cond1 (grid0.coords t) = 1#1) :
    (dat0 V c).leavesExact 7 t = owns (c : Thread nD τ) (st0_7 t) fullShare (hnew0 V c t) := by
  rw [← after0_7]; unfold Dat.leavesExact; rw [liveAt0_7 t hc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point: the inputs' memrefs hold their blocks and the invariant hands over the scratch at
    contents that hold what the point asks, so the triple of the point's case applies; the store keeps the
    invariant; at the last gate the output block is `hnew0`, elsewhere its buffer comes back as handed over. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.succ = Phi0 V c (t.val + 1) t.isLt from rfl, Phi0_succ, Phi0_castSucc,
    leaves0_0, leaves0_1, leaves0_2, leaves0_3, leaves0_4, leaves0_5, leaves0_6]
  by_cases hc : k0_cond1 (grid0.coords t) = 1#1
  · rw [leaves0_7 V c t hc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi0_open V c t) $$ HΦ
    icases HΦ' with ⟨⟨⟨%xs, %hP, HS⟩, Hr⟩, Hg⟩
    have hI := Inv0_put V c t xs hP
    rw [act0_eq] at hI
    rw [← hnew0_of V c t ((hcond0 t).mp hc) _ hI]
    iapply (sound_kernel0_live c Set.univ (grid0.coords t) hc _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) xs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr Hg]
    · isplitl [HS Hr]
      · isplitl [HS]
        · iexists _; isplitr
          · ipureintro; exact hI
          iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat0 V c) 7 t (idleAt0_7 t hc) (noFlush0_7 t hc)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi0_open V c t) $$ HΦ
    icases HΦ' with ⟨⟨⟨%xs, %hP, HS⟩, Hr⟩, Hg⟩
    have hI := Inv0_put V c t xs hP
    rw [act0_eq] at hI
    iapply (sound_kernel0_idle c Set.univ (grid0.coords t) hc _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) xs
      ((dat0 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr Hg]
    · isplitl [HS Hr]
      · isplitl [HS]
        · iexists _; isplitr
          · ipureintro; exact hI
          iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := .rfl

/-- At any position the invariant gives the class's back: what the scratch holds is forgotten. -/
theorem Phi0_out (c : Dev nD) (n : ℕ) (h : n ≤ cfg0.N) : Phi0 V c n h ⊢ (Pipeline.ΦA spec0 c : sProp 𝕄) := by
  cases n with
  | zero => exact .rfl
  | succ n =>
    rw [Phi0_succ, PhiA0_eq]
    iintro ⟨⟨⟨%xs, %hI, HS⟩, Hr⟩, Hg⟩
    isplitl [HS Hr]
    · isplitl [HS]
      · iexists xs; iexact HS
      iexact Hr
    iexact Hg

/-- So it does after the last point. -/
theorem hout0 (c : Dev nD) : (dat0 V c).Φ (Fin.last cfg0.N) ⊢ (Pipeline.ΦA spec0 c : sProp 𝕄) :=
  Phi0_out V c (Fin.last cfg0.N).val (Nat.le_of_lt_succ (Fin.last cfg0.N).isLt)

end Cert.KernelIdeal.Hand

end
-- ==== Proof.R1.lean ====
/-
  The second launch: the attention reduction, a streaming softmax-weighted sum over the source positions. The grid
  is (batch half, tile of 32 source positions): 2 × 16 points. At every point the body reads the hidden state h'
  of its batch half (64 × 2048), one tile of source rows (32 × 64 × 2048) and of the mask (32 × 64 × 1), and
  updates a state kept in three scratch buffers that no window stages: the running maximum m of the masked scores,
  the running normaliser l and the running weighted sum acc, rescaled to the new maximum as in the streaming form of
  softmax. At the first tile of a batch half the state is reset before it is read; at the last tile the body
  stores acc / l into the output block, which only that point writes back.

  Stated for any contents `V` of the core's buffers at the region's entry: each window's block at a point, the
  state after each point by recursion on the point (`st1`), what the last tile stores (`content1`), the body's
  triple in each of its three control cases, the proof data and the body obligation at every point. The
  invariant between points is the three scratch buffers at the state the point before left.
-/
import proofs.«424716_j51917564674095_3_alg».proof.Proof.Gen.KernelIdeal.Launch
import proofs.«424716_j51917564674095_3_alg».proof.Proof.Gen.KernelIdeal.Skeleton
import proofs.«424716_j51917564674095_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer rectangles -/

/-- The whole-buffer rectangle's offsets are zero, at rank two and rank three. -/
theorem off1_2 : (![0, 0] : Fin 2 → ℕ) = fun _ => 0 := funext fun a => by fin_cases a <;> rfl
theorem off1_3 : (![0, 0, 0] : Fin 3 → ℕ) = fun _ => 0 := funext fun a => by fin_cases a <;> rfl

/-- A load through the whole-buffer rectangle reads the buffer's contents. -/
theorem readAt_whole1 {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f :=
  View.ld_unit_zero h inb (v.read (Elt F) f)

/-- A buffer whose last store went through the whole-buffer rectangle reads as that store's payload,
    whatever was stored before. -/
theorem read_writes_whole1 {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (p : S.Idx → Elt F e)
    (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero h inb y⟩),
    View.canon_cons_unit_zero h inb]

/-- The two facts at the shapes of the body's buffers. -/
theorem ra1_64x1 {sg : RefSig} {κ : Kind} {sp : Space} (v : View sg κ sp S64x1 .f32) (f : v.ty.Contents (Elt F)) :
    View.readAt (Elt F) v (Rect.unit (s := S64x1) ![0, 0] S64x1.size inb_S64x1_S64x1_0_0).toLoadRect f = v.read (Elt F) f :=
  readAt_whole1 v f off1_2 _
theorem ra1_64x2048 {sg : RefSig} {κ : Kind} {sp : Space} (v : View sg κ sp S64x2048 .f32) (f : v.ty.Contents (Elt F)) :
    View.readAt (Elt F) v (Rect.unit (s := S64x2048) ![0, 0] S64x2048.size inb_S64x2048_S64x2048_0_0).toLoadRect f = v.read (Elt F) f :=
  readAt_whole1 v f off1_2 _
theorem ra1_32x64x2048 {sg : RefSig} {κ : Kind} {sp : Space} (v : View sg κ sp S32x64x2048 .f32) (f : v.ty.Contents (Elt F)) :
    View.readAt (Elt F) v (Rect.unit (s := S32x64x2048) ![0, 0, 0] S32x64x2048.size inb_S32x64x2048_S32x64x2048_0_0_0).toLoadRect f = v.read (Elt F) f :=
  readAt_whole1 v f off1_3 _
theorem ra1_32x64x1 {sg : RefSig} {κ : Kind} {sp : Space} (v : View sg κ sp S32x64x1 .i32) (f : v.ty.Contents (Elt F)) :
    View.readAt (Elt F) v (Rect.unit (s := S32x64x1) ![0, 0, 0] S32x64x1.size inb_S32x64x1_S32x64x1_0_0_0).toLoadRect f = v.read (Elt F) f :=
  readAt_whole1 v f off1_3 _
theorem rw1_64x1 {sg : RefSig} {κ : Kind} {sp : Space} (v : View sg κ sp S64x1 .f32) (f : v.ty.Contents (Elt F)) (p : Vec F S64x1 .f32)
    (L : List (View.Piece (Elt F) S64x1 .f32)) :
    v.read (Elt F) (v.writes (Elt F) f ((⟨Rect.unit (s := S64x1) ![0, 0] S64x1.size inb_S64x1_S64x1_0_0, p⟩ : View.Piece (Elt F) S64x1 .f32) :: L)) = p :=
  read_writes_whole1 v f off1_2 _ p L
theorem rw1_64x2048 {sg : RefSig} {κ : Kind} {sp : Space} (v : View sg κ sp S64x2048 .f32) (f : v.ty.Contents (Elt F)) (p : Vec F S64x2048 .f32)
    (L : List (View.Piece (Elt F) S64x2048 .f32)) :
    v.read (Elt F) (v.writes (Elt F) f ((⟨Rect.unit (s := S64x2048) ![0, 0] S64x2048.size inb_S64x2048_S64x2048_0_0, p⟩ : View.Piece (Elt F) S64x2048 .f32) :: L)) = p :=
  read_writes_whole1 v f off1_2 _ p L

/-! ## The body's two conditionals, in closed form over the grid -/

/-- The first conditional (the reset of the streaming state): the tile coordinate is zero. -/
abbrev cond1_0 (i : grid1.Coords) : Prop :=
  Scalar.cmpi .ne (Scalar.extui (Scalar.cmpi .eq (BitVec.ofNat 32 (i 1).val) 0#32)) 0#32 = 1#1
/-- The second conditional (the normalising epilogue): the tile coordinate is the last, fifteen. -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- Where the output window is idle: exactly off the last tile of a batch half; there the pipeline does not
    write its block back. On the last tile it is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body's triple, case by case -/

set_option maxHeartbeats 4000000 in
/-- A tile that is neither the first nor the last of its batch half: the state (m, l, acc) found in the three
    scratch buffers is replaced by its update from the point's three input blocks; the inputs and the output
    buffer are left as found. -/
theorem sound_kernel1_mid (c : Dev nD) (E : Set ℕ) (i : grid1.Coords) (hc0 : ¬cond1_0 i) (hc1 : ¬cond1_1 i)
    (arg2 : Memref sig .tc .vmem S64x2048 .f32) (harg2 : arg2.IsWhole) (arg3 : Memref sig .tc .vmem S32x64x2048 .f32) (harg3 : arg3.IsWhole)
    (arg4 : Memref sig .tc .vmem S32x64x1 .i32) (harg4 : arg4.IsWhole) (arg5 : Memref sig .tc .vmem S64x2048 .f32) (harg5 : arg5.IsWhole)
    (arg6 : Memref sig .tc .vmem S64x1 .f32) (harg6 : arg6.IsWhole) (arg7 : Memref sig .tc .vmem S64x1 .f32) (harg7 : arg7.IsWhole)
    (arg8 : Memref sig .tc .vmem S64x2048 .f32) (harg8 : arg8.IsWhole)
    (x3 : Vec F S64x2048 .f32) (x5 : Vec F S32x64x2048 .f32) (x6 : Vec F S32x64x1 .i32) (xi : Vec F S64x2048 .f32)
    (pm pl : Vec F S64x1 .f32) (pacc : Vec F S64x2048 .f32) (K : PUnit → sProp 𝕄) :
    iprop(owns (c : Thread nD τ) arg2 fullShare x3 ∗ owns (c : Thread nD τ) arg3 fullShare x5 ∗ owns (c : Thread nD τ) arg4 fullShare x6
        ∗ owns (c : Thread nD τ) arg5 fullShare xi ∗ owns (c : Thread nD τ) arg6 fullShare pm ∗ owns (c : Thread nD τ) arg7 fullShare pl ∗ owns (c : Thread nD τ) arg8 fullShare pacc
        ∗ (iprop(owns (c : Thread nD τ) arg2 fullShare x3 ∗ owns (c : Thread nD τ) arg3 fullShare x5 ∗ owns (c : Thread nD τ) arg4 fullShare x6
            ∗ owns (c : Thread nD τ) arg5 fullShare xi ∗ owns (c : Thread nD τ) arg6 fullShare (k1_pay2 (k1_pay8 x3 x5 x6 pm))
            ∗ owns (c : Thread nD τ) arg7 fullShare (k1_pay11 x3 x5 x6 pm pm pl)
            ∗ owns (c : Thread nD τ) arg8 fullShare (k1_pay1 x5 (k1_pay9 x3 x5 x6 pm pm) (k1_pay10 x3 x5 x6 pm) pacc)) -∗ K ⟨⟩))
      ⊢ wp frame (wpE (defs₀ (F := F)) Variants.none c none) E (cc1__attn_reduce_kernel i arg2 harg2 arg3 harg3 arg4 harg4 arg5 harg5 arg6 harg6 arg7 harg7 arg8 harg8) K := by
  simp only [cc1__attn_reduce_kernel_eq_skeleton]; unfold cc1__attn_reduce_kernel_skel
  unfold owns
  iintro ⟨⟨%f3, %hf3, H3⟩, ⟨%f5, %hf5, H5⟩, ⟨%f6, %hf6, H6⟩, ⟨%fi, %hfi, Hi⟩, ⟨%fm, %hfm, Hm⟩, ⟨%fl, %hfl, Hl⟩, ⟨%fa, %hfa, Ha⟩, Hk⟩
  subst hf3; subst hf5; subst hf6; subst hfi; subst hfm; subst hfl; subst hfa
  sl_exec (disch := first | exact hc0 | exact hc1)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [Hi]
  · iexists fi; isplitr; · ipureintro; rfl
    iexact Hi
  isplitl [Hm]
  · iexists _; isplitr
    swap; · iexact Hm
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  isplitl [Hl]
  · iexists _; isplitr
    swap; · iexact Hl
    ipureintro
    refine (rw1_64x1 _ _ _ _).trans ?_
    repeat (first | rw [View.readCov_cons_toLoadRect] | rw [ra1_64x1] | rw [ra1_64x2048] | rw [ra1_32x64x2048] | rw [ra1_32x64x1])
  iexists _; isplitr
  swap; · iexact Ha
  ipureintro
  sl_unfold_run_names
  refine (rw1_64x2048 _ _ _ _).trans ?_
  repeat (first | rw [View.readCov_cons_toLoadRect] | rw [ra1_64x1] | rw [ra1_64x2048] | rw [ra1_32x64x2048] | rw [ra1_32x64x1])

set_option maxHeartbeats 4000000 in
/-- The first tile of a batch half: whatever the three scratch buffers hold is overwritten by the initial state
    (m = the mask constant, l = 0, acc = 0) before anything reads them, and the update runs from that. -/
theorem sound_kernel1_reset (c : Dev nD) (E : Set ℕ) (i : grid1.Coords) (hc0 : cond1_0 i) (hc1 : ¬cond1_1 i)
    (arg2 : Memref sig .tc .vmem S64x2048 .f32) (harg2 : arg2.IsWhole) (arg3 : Memref sig .tc .vmem S32x64x2048 .f32) (harg3 : arg3.IsWhole)
    (arg4 : Memref sig .tc .vmem S32x64x1 .i32) (harg4 : arg4.IsWhole) (arg5 : Memref sig .tc .vmem S64x2048 .f32) (harg5 : arg5.IsWhole)
    (arg6 : Memref sig .tc .vmem S64x1 .f32) (harg6 : arg6.IsWhole) (arg7 : Memref sig .tc .vmem S64x1 .f32) (harg7 : arg7.IsWhole)
    (arg8 : Memref sig .tc .vmem S64x2048 .f32) (harg8 : arg8.IsWhole)
    (x3 : Vec F S64x2048 .f32) (x5 : Vec F S32x64x2048 .f32) (x6 : Vec F S32x64x1 .i32) (xi : Vec F S64x2048 .f32) (K : PUnit → sProp 𝕄) :
    iprop(owns (c : Thread nD τ) arg2 fullShare x3 ∗ owns (c : Thread nD τ) arg3 fullShare x5 ∗ owns (c : Thread nD τ) arg4 fullShare x6
        ∗ owns (c : Thread nD τ) arg5 fullShare xi ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x3 ∗ owns (c : Thread nD τ) arg3 fullShare x5 ∗ owns (c : Thread nD τ) arg4 fullShare x6
            ∗ owns (c : Thread nD τ) arg5 fullShare xi ∗ owns (c : Thread nD τ) arg6 fullShare (k1_pay2 (k1_pay8 x3 x5 x6 (k1_pay4 (F := F))))
            ∗ owns (c : Thread nD τ) arg7 fullShare (k1_pay11 x3 x5 x6 (k1_pay4 (F := F)) (k1_pay4 (F := F)) (k1_pay5 (F := F)))
            ∗ owns (c : Thread nD τ) arg8 fullShare (k1_pay1 x5 (k1_pay9 x3 x5 x6 (k1_pay4 (F := F)) (k1_pay4 (F := F))) (k1_pay10 x3 x5 x6 (k1_pay4 (F := F))) (k1_pay6 (F := F)))) -∗ K ⟨⟩))
      ⊢ wp frame (wpE (defs₀ (F := F)) Variants.none c none) E (cc1__attn_reduce_kernel i arg2 harg2 arg3 harg3 arg4 harg4 arg5 harg5 arg6 harg6 arg7 harg7 arg8 harg8) K := by
  simp only [cc1__attn_reduce_kernel_eq_skeleton]; unfold cc1__attn_reduce_kernel_skel
  unfold owns
  iintro ⟨⟨%f3, %hf3, H3⟩, ⟨%f5, %hf5, H5⟩, ⟨%f6, %hf6, H6⟩, ⟨%fi, %hfi, Hi⟩, ⟨%dm, %fm, -, Hm⟩, ⟨%dl, %fl, -, Hl⟩, ⟨%da, %fa, -, Ha⟩, Hk⟩
  subst hf3; subst hf5; subst hf6; subst hfi
  sl_exec (disch := first | exact hc0 | exact hc1)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [Hi]
  · iexists fi; isplitr; · ipureintro; rfl
    iexact Hi
  isplitl [Hm]
  · iexists _; isplitr
    swap; · iexact Hm
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  isplitl [Hl]
  · iexists _; isplitr
    swap; · iexact Hl
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  iexists _; isplitr
  swap; · iexact Ha
  ipureintro
  sl_unfold_run_names
  refine (rw1_64x2048 _ _ _ _).trans ?_
  repeat (first | rw [View.readCov_cons_toLoadRect] | rw [ra1_64x1] | rw [ra1_64x2048] | rw [ra1_32x64x2048] | rw [ra1_32x64x1])

set_option maxHeartbeats 4000000 in
/-- The last tile of a batch half: the update as at a middle tile, and then the output buffer, whatever it held,
    receives the normalised sum acc / l of the UPDATED state. -/
theorem sound_kernel1_last (c : Dev nD) (E : Set ℕ) (i : grid1.Coords) (hc0 : ¬cond1_0 i) (hc1 : cond1_1 i)
    (arg2 : Memref sig .tc .vmem S64x2048 .f32) (harg2 : arg2.IsWhole) (arg3 : Memref sig .tc .vmem S32x64x2048 .f32) (harg3 : arg3.IsWhole)
    (arg4 : Memref sig .tc .vmem S32x64x1 .i32) (harg4 : arg4.IsWhole) (arg5 : Memref sig .tc .vmem S64x2048 .f32) (harg5 : arg5.IsWhole)
    (arg6 : Memref sig .tc .vmem S64x1 .f32) (harg6 : arg6.IsWhole) (arg7 : Memref sig .tc .vmem S64x1 .f32) (harg7 : arg7.IsWhole)
    (arg8 : Memref sig .tc .vmem S64x2048 .f32) (harg8 : arg8.IsWhole)
    (x3 : Vec F S64x2048 .f32) (x5 : Vec F S32x64x2048 .f32) (x6 : Vec F S32x64x1 .i32)
    (pm pl : Vec F S64x1 .f32) (pacc : Vec F S64x2048 .f32) (K : PUnit → sProp 𝕄) :
    iprop(owns (c : Thread nD τ) arg2 fullShare x3 ∗ owns (c : Thread nD τ) arg3 fullShare x5 ∗ owns (c : Thread nD τ) arg4 fullShare x6
        ∗ (∃ d, owns (c : Thread nD τ) arg5 fullShare d) ∗ owns (c : Thread nD τ) arg6 fullShare pm ∗ owns (c : Thread nD τ) arg7 fullShare pl ∗ owns (c : Thread nD τ) arg8 fullShare pacc
        ∗ (iprop(owns (c : Thread nD τ) arg2 fullShare x3 ∗ owns (c : Thread nD τ) arg3 fullShare x5 ∗ owns (c : Thread nD τ) arg4 fullShare x6
            ∗ owns (c : Thread nD τ) arg5 fullShare (k1_pay3 (k1_pay1 x5 (k1_pay9 x3 x5 x6 pm pm) (k1_pay10 x3 x5 x6 pm) pacc) (k1_pay11 x3 x5 x6 pm pm pl))
            ∗ owns (c : Thread nD τ) arg6 fullShare (k1_pay2 (k1_pay8 x3 x5 x6 pm))
            ∗ owns (c : Thread nD τ) arg7 fullShare (k1_pay11 x3 x5 x6 pm pm pl)
            ∗ owns (c : Thread nD τ) arg8 fullShare (k1_pay1 x5 (k1_pay9 x3 x5 x6 pm pm) (k1_pay10 x3 x5 x6 pm) pacc)) -∗ K ⟨⟩))
      ⊢ wp frame (wpE (defs₀ (F := F)) Variants.none c none) E (cc1__attn_reduce_kernel i arg2 harg2 arg3 harg3 arg4 harg4 arg5 harg5 arg6 harg6 arg7 harg7 arg8 harg8) K := by
  simp only [cc1__attn_reduce_kernel_eq_skeleton]; unfold cc1__attn_reduce_kernel_skel
  unfold owns
  iintro ⟨⟨%f3, %hf3, H3⟩, ⟨%f5, %hf5, H5⟩, ⟨%f6, %hf6, H6⟩, ⟨%di, %fi, -, Hi⟩, ⟨%fm, %hfm, Hm⟩, ⟨%fl, %hfl, Hl⟩, ⟨%fa, %hfa, Ha⟩, Hk⟩
  subst hf3; subst hf5; subst hf6; subst hfm; subst hfl; subst hfa
  sl_exec (disch := first | exact hc0 | exact hc1)
  sl_step
  iapply Hk
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [Hi]
  · iexists _; isplitr
    swap; · iexact Hi
    ipureintro
    sl_unfold_run_names
    refine (rw1_64x2048 _ _ _ _).trans ?_
    repeat (first | rw [View.readCov_cons_toLoadRect] | rw [ra1_64x1] | rw [ra1_64x2048] | rw [ra1_32x64x2048] | rw [ra1_32x64x1])
  isplitl [Hm]
  · iexists _; isplitr
    swap; · iexact Hm
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  isplitl [Hl]
  · iexists _; isplitr
    swap; · iexact Hl
    ipureintro
    sl_unfold_run_names
    refine (rw1_64x1 _ _ _ _).trans ?_
    repeat (first | rw [View.readCov_cons_toLoadRect] | rw [ra1_64x1] | rw [ra1_64x2048] | rw [ra1_32x64x2048] | rw [ra1_32x64x1])
  iexists _; isplitr
  swap; · iexact Ha
  ipureintro
  sl_unfold_run_names
  refine (rw1_64x2048 _ _ _ _).trans ?_
  repeat (first | rw [View.readCov_cons_toLoadRect] | rw [ra1_64x1] | rw [ra1_64x2048] | rw [ra1_32x64x2048] | rw [ra1_32x64x1])

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it
    is not fetched (the hidden-state window, within a batch half) its block index has not moved. One statement
    per input window (the window is a literal so that the configuration reduces). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The streaming state -/

/-- one point's update of the streaming state (m, l, acc) from the state `p` it finds -/
def step1 (c : Dev nD) (t : Fin cfg1.N) (p : Vec F S64x1 .f32 × Vec F S64x1 .f32 × Vec F S64x2048 .f32) : Vec F S64x1 .f32 × Vec F S64x1 .f32 × Vec F S64x2048 .f32 :=
  (k1_pay2 (k1_pay8 (iblk1 V c 0 t) (iblk1 V c 1 t) (iblk1 V c 2 t) p.1),
   k1_pay11 (iblk1 V c 0 t) (iblk1 V c 1 t) (iblk1 V c 2 t) p.1 p.1 p.2.1,
   k1_pay1 (iblk1 V c 1 t) (k1_pay9 (iblk1 V c 0 t) (iblk1 V c 1 t) (iblk1 V c 2 t) p.1 p.1) (k1_pay10 (iblk1 V c 0 t) (iblk1 V c 1 t) (iblk1 V c 2 t) p.1) p.2.2)

/-- the state the body leaves in the three scratch buffers at point n: reset at the first tile of a batch half -/
def st1 (c : Dev nD) : (n : ℕ) → n < cfg1.N → Vec F S64x1 .f32 × Vec F S64x1 .f32 × Vec F S64x2048 .f32
  | 0, hn => step1 V c ⟨0, hn⟩ (k1_pay4, k1_pay5, k1_pay6)
  | n + 1, hn => step1 V c ⟨n + 1, hn⟩ (if (n + 1) % 16 = 0 then (k1_pay4, k1_pay5, k1_pay6) else st1 c n (Nat.lt_of_succ_lt hn))

/-- At the first tile of a batch half the state left is the update of the initial state. -/
theorem st1_reset (c : Dev nD) (t : Fin cfg1.N) (h0 : t.val % 16 = 0) :
    st1 V c t.val t.isLt = step1 V c t (k1_pay4, k1_pay5, k1_pay6) := by
  obtain ⟨n, hn⟩ := t
  cases n with
  | zero => rfl
  | succ n => exact congrArg (step1 V c ⟨n + 1, hn⟩) (if_pos h0)

/-- At any later tile it is the update of the state the point before left. -/
theorem st1_step (c : Dev nD) (t : Fin cfg1.N) (h0 : ¬t.val % 16 = 0) :
    st1 V c t.val t.isLt = step1 V c t (st1 V c (t.val - 1) (Nat.lt_of_le_of_lt (Nat.sub_le _ _) t.isLt)) := by
  obtain ⟨n, hn⟩ := t
  cases n with
  | zero => exact absurd (Nat.zero_mod _) h0
  | succ n => exact congrArg (step1 V c ⟨n + 1, hn⟩) (if_neg h0)

/-- what the body stores into the output block at a point with s = 15 (stated at every t) -/
def content1 (c : Dev nD) (t : Fin cfg1.N) : Vec F S64x2048 .f32 := k1_pay3 (st1 V c t.val t.isLt).2.2 (st1 V c t.val t.isLt).2.1

/-! ## The invariant: the streaming state in the three scratch buffers -/

/-- The scratch operands: whole scoped buffers of the kernel's own, passed beside the windows. -/
abbrev scM1_0 : Memref sig .tc .vmem S64x1 .f32 := Memref.whole cc1_scratch0
abbrev scM1_1 : Memref sig .tc .vmem S64x1 .f32 := Memref.whole cc1_scratch1
abbrev scM1_2 : Memref sig .tc .vmem S64x2048 .f32 := Memref.whole cc1_scratch2

/-- What the launch hands the region, with the three scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

/-- The region's invariant before position `n`: before the first point what the launch hands over (the scratch
    buffers at anything); afterwards the three scratch buffers at the state the point before left, the other
    scoped buffers unopened, and the generator register at some state. -/
def Phi1 (c : Dev nD) : (n : ℕ) → n ≤ cfg1.N → sProp 𝕄
  | 0, _ => Pipeline.ΦA spec1 c
  | n + 1, hn => iprop(iprop(iprop(owns (c : Thread nD τ) scM1_0 fullShare (st1 V c n hn).1 ∗ owns (c : Thread nD τ) scM1_1 fullShare (st1 V c n hn).2.1 ∗ owns (c : Thread nD τ) scM1_2 fullShare (st1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (st1 V c n hn).1 ∗ owns (c : Thread nD τ) scM1_1 fullShare (st1 V c n hn).2.1 ∗ owns (c : Thread nD τ) scM1_2 fullShare (st1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (st1 V c (n - 1) (by omega)).1 ∗ owns (c : Thread nD τ) scM1_1 fullShare (st1 V c (n - 1) (by omega)).2.1 ∗ owns (c : Thread nD τ) scM1_2 fullShare (st1 V c (n - 1) (by omega)).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-! ## The proof data -/

/-- The region's proof data on core `c`: the arrays as found; after the body each input's buffer at its block and
    the output's at the normalised sum of the state the point leaves (consulted only at the last tile of a batch
    half, the one point that writes the block back); the invariant carries the streaming state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => content1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := rfl
theorem owed1 (c : Dev nD) (t : Fin (cfg1.N + 1)) : (dat1 V c).owed t = 0 := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = content1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 4000000 in
/-- The body at any point. The inputs' memrefs hold their blocks; the tile coordinate says which case the point is
    in. At the first tile of a batch half the scratch buffers are handed over at whatever they hold (what the
    launch left, or the previous half's final state) and come back at the update of the initial state; at a later
    tile they are handed over at the state the point before left and come back at its update. Off the last tile
    the output buffer goes through untouched; at the last tile it comes back at the normalised sum of the state
    just left. The core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, after1_0, after1_1, after1_2]
  have hN : t.val < 32 := lt_of_lt_of_eq t.isLt (show cfg1.N = 32 from N_1)
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), st1_reset V c t h0]
    simp only [step1]
    by_cases hz : t.val = 0
    · rw [Phi1_castSucc V c t, Phi1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩⟩
      iapply (sound_kernel1_reset c Set.univ _ hc0 hc1 _ _ _ _ _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_reset c Set.univ _ hc0 hc1 _ _ _ _ _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    by_cases h1 : t.val % 16 = 15
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      unfold content1
      rw [st1_step V c t h0]
      simp only [step1]
      rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_last c Set.univ _ hc0 hc1 _ _ _ _ _ _ _ _ _ _ _ _ _ _ (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1), st1_step V c t h0]
      simp only [step1]
      rw [Phi1_castSucc V c t, Phi1_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply (sound_kernel1_mid c Set.univ _ hc0 hc1 _ _ _ _ _ _ _ _ _ _ _ _ _ _ (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := .rfl

/-- After the last point the invariant gives back what the launch handed over: the scratch buffers' named
    contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Cert.KernelIdeal.Hand

end
-- ==== Proof.R2.lean ====
/-
  The third launch: out = tanh(content · Wc + h' · Wh + b), the output columns split in two halves over a grid of
  two points. Every operand is staged by the pipeline and the body keeps nothing between points, so the
  region's invariant is only the scoped buffers it never names and the generator register.

  Stated for any contents `V` of the core's buffers at the region's entry: each window's block at a point,
  what the body leaves in the output block (its one store, of the payload of the five input blocks), the
  body's triple, the proof data and the body obligation at every point.
-/
import proofs.«424716_j51917564674095_3_alg».proof.Proof.Gen.KernelIdeal.Launch
import proofs.«424716_j51917564674095_3_alg».proof.Proof.Gen.KernelIdeal.Skeleton
import proofs.«424716_j51917564674095_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it
    is not fetched its block index has not moved. One statement per input window (the window is a literal so
    that the configuration reduces). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole output block as a rectangle: the body's one store covers it. -/
abbrev r2_5 : Rect S128x1024 := Rect.unit (s := S128x1024) ![0, 0] S128x1024.size inb_S128x1024_S128x1024_0_0

/-- The whole of each input block as a rectangle: the body loads each input whole. -/
abbrev r2_a : Rect S128x2048 := Rect.unit (s := S128x2048) ![0, 0] S128x2048.size inb_S128x2048_S128x2048_0_0
abbrev r2_b : Rect S2048x1024 := Rect.unit (s := S2048x1024) ![0, 0] S2048x1024.size inb_S2048x1024_S2048x1024_0_0
abbrev r2_c : Rect S1024 := Rect.unit (s := S1024) ![0] S1024.size inb_S1024_S1024_0

/-- The output block after the body: its one store, of the payload of the five input blocks (each loaded whole). -/
def out2_5 (x0 x1 : Vec F S128x2048 .f32) (x2 x3 : Vec F S2048x1024 .f32) (x4 : Vec F S1024 .f32) : Vec F S128x1024 .f32 :=
  View.canon [⟨r2_5, k2_pay1 (View.ld x0 r2_a) (View.ld x1 r2_a) (View.ld x2 r2_b) (View.ld x3 r2_b) (View.ld x4 r2_c)⟩]

theorem cover2_5 (p0 : Vec F S128x1024 .f32) (y : S128x1024.Idx) :
    ∃ pc ∈ ([⟨r2_5, p0⟩] : List (View.Piece (Elt F) S128x1024 .f32)), y ∈ pc.1.set :=
  View.cover_of_tiled [⟨r2_5, p0⟩] S128x1024.size (by rfl) y

/-! ## The body's triple -/

set_option maxHeartbeats 1000000 in
/-- On whole staging memrefs, the inputs' at contents `xW` and the output's at anything, the body runs to the
    inputs' as they were and the output's at `out2_5` of them. -/
theorem sound_kernel2 (c : Dev nD) (E : Set ℕ) (i : grid2.Coords)
    (arg1 : Memref sig .tc .vmem S128x2048 .f32) (harg1 : arg1.IsWhole) (arg2 : Memref sig .tc .vmem S128x2048 .f32) (harg2 : arg2.IsWhole)
    (arg3 : Memref sig .tc .vmem S2048x1024 .f32) (harg3 : arg3.IsWhole) (arg4 : Memref sig .tc .vmem S2048x1024 .f32) (harg4 : arg4.IsWhole)
    (arg5 : Memref sig .tc .vmem S1024 .f32) (harg5 : arg5.IsWhole) (arg6 : Memref sig .tc .vmem S128x1024 .f32) (harg6 : arg6.IsWhole)
    (x0 x1 : Vec F S128x2048 .f32) (x2 x3 : Vec F S2048x1024 .f32) (x4 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__final_kernel i arg1 harg1 arg2 harg2 arg3 harg3 arg4 harg4 arg5 harg5 arg6 harg6) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 (F := F) _)

/-! ## The proof data -/

/-- The region's proof data on core `c`: the arrays as found; after the body each input's buffer at its block and
    the output's at `out2_5` of the input blocks; the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := rfl
theorem owed2 (c : Dev nD) (t : Fin (cfg2.N + 1)) : (dat2 V c).owed t = 0 := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

end Cert.KernelIdeal.Hand

end
-- ==== Proof.Run.lean ====
/-
  The whole program: five segments — the host lines before the first launch, the LSTM launch, the attention
  launch, the host lines slicing and transposing attn_W, the final launch — run in order from the launch memory.
  The contents of the core's buffers at each boundary are a fold through @main: a host stretch applies its
  operations, a launch replaces its output array by what its write-backs leave and keeps everything else.
  Every weakly fair execution terminates with every unscoped buffer at the last boundary's contents; read at
  the arguments that is the frame, read at the result it is the value the launches computed.
-/
import proofs.«424716_j51917564674095_3_alg».proof.Proof.Gen.KernelIdeal.Launch
import proofs.«424716_j51917564674095_3_alg».proof.Proof.Gen.KernelIdeal.Skeleton
import proofs.«424716_j51917564674095_3_alg».proof.Proof.Gen.KernelIdeal.Points
import proofs.«424716_j51917564674095_3_alg».proof.Proof.Gen.KernelIdeal.Regions
import proofs.«424716_j51917564674095_3_alg».proof.Proof.R0
import proofs.«424716_j51917564674095_3_alg».proof.Proof.R1
import proofs.«424716_j51917564674095_3_alg».proof.Proof.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host lines before the first launch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Only the region's output array changes: an input window's array is never written, and the other buffers bypass it. -/
theorem W2_keep (c : Dev nD) (b : Ref sig .tc) (hb : b ≠ main_v9) : W2 m ρ c (Proc.devRef .tc b) = W1 m ρ c (Proc.devRef .tc b) := by
  by_cases h : ∃ w, Pipeline.arrRef spec0 w = b
  · obtain ⟨w, rfl⟩ := h
    have hin : ∀ w : Fin cfg0.W, Pipeline.arrRef spec0 w ≠ main_v9 → (cfg0.win w).isOut = false := by decide
    exact (W2_arr m ρ c w).trans (((dat0 (V1 m ρ) c).arrAt_in w (hin w hb) _).trans (A_eq0 (V1 m ρ) c w))
  · exact W2_of_ne m ρ c b fun w e => h ⟨w, e⟩

/-- After region 1: its arrays at what the write-backs leave, every other buffer as the region found it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Only the region's output array changes: an input window's array is never written, and the other buffers bypass it. -/
theorem W3_keep (c : Dev nD) (b : Ref sig .tc) (hb : b ≠ main_v10) : W3 m ρ c (Proc.devRef .tc b) = W2 m ρ c (Proc.devRef .tc b) := by
  by_cases h : ∃ w, Pipeline.arrRef spec1 w = b
  · obtain ⟨w, rfl⟩ := h
    have hin : ∀ w : Fin cfg1.W, Pipeline.arrRef spec1 w ≠ main_v10 → (cfg1.win w).isOut = false := by decide
    exact (W3_arr m ρ c w).trans (((dat1 (V2 m ρ) c).arrAt_in w (hin w hb) _).trans (A_eq1 (V2 m ρ) c w))
  · exact W3_of_ne m ρ c b fun w e => h ⟨w, e⟩

/-- After the host lines between the second and the third launch. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2: its arrays at what the write-backs leave, every other buffer as the region found it. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Only the region's output array changes: an input window's array is never written, and the other buffers bypass it. -/
theorem W5_keep (c : Dev nD) (b : Ref sig .tc) (hb : b ≠ main_v15) : W5 m ρ c (Proc.devRef .tc b) = W4 m ρ c (Proc.devRef .tc b) := by
  by_cases h : ∃ w, Pipeline.arrRef spec2 w = b
  · obtain ⟨w, rfl⟩ := h
    have hin : ∀ w : Fin cfg2.W, Pipeline.arrRef spec2 w ≠ main_v15 → (cfg2.win w).isOut = false := by decide
    exact (W5_arr m ρ c w).trans (((dat2 (V4 m ρ) c).arrAt_in w (hin w hb) _).trans (A_eq2 (V4 m ρ) c w))
  · exact W5_of_ne m ρ c b fun w e => h ⟨w, e⟩

/-- A buffer that no host line writes and that is no launch's output ends as launched. -/
theorem W5_kept (c : Dev nD) (b : Ref sig .tc) (h9 : b ≠ main_v9) (h10 : b ≠ main_v10) (h15 : b ≠ main_v15)
    (h0 : b ∉ hostOps0_W) (h2 : b ∉ hostOps2_W) : W5 m ρ c (Proc.devRef .tc b) = m ((c : Thread nD τ).loc b) :=
  calc W5 m ρ c (Proc.devRef .tc b)
    _ = W4 m ρ c (Proc.devRef .tc b) := W5_keep m ρ c b h15
    _ = W3 m ρ c (Proc.devRef .tc b) := StableHlo.after_of_writes_sub hostOps2 _ hostOps2_writes h2
    _ = W2 m ρ c (Proc.devRef .tc b) := W3_keep m ρ c b h10
    _ = W1 m ρ c (Proc.devRef .tc b) := W2_keep m ρ c b h9
    _ = W0 m ρ c (Proc.devRef .tc b) := StableHlo.after_of_writes_sub hostOps0 _ hostOps0_writes h0
    _ = m ((c : Thread nD τ).loc b) := rfl

/-! ## The proof data family and the thread state -/

/-- Every launch's proof data, each at its region's entry contents (a literal match on the launch). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Region 0 over the thread state: entered with every unscoped buffer at `W1`, left with them at `W2`. Its arrays
    are split out of the unscoped buffers on entry and put back, at what the write-backs leave, on exit; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h1.trans (hin0 (V1 m ρ) c)
  hout c := by
    rw [Pipeline.ownSems0_none]
    have h1 : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers on entry and put back, at what the write-backs leave, on exit; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (hin1 (V2 m ρ) c)
  hout c := by
    rw [Pipeline.ownSems0_none]
    have h1 : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its arrays
    are split out of the unscoped buffers on entry and put back, at what the write-backs leave, on exit; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun c t => owed2 (V4 m ρ) c t
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q2 (V4 m ρ) c w) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h1.trans (hin2 (V4 m ρ) c)
  hout c := by
    rw [Pipeline.ownSems0_none]
    have h1 : (Pipeline.ΦA spec2 c : sProp 𝕄)
        ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V4 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q2 (V4 m ρ) c w)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with the
    result buffer at what the third launch's write-backs leave and every argument array as launched. -/
theorem run : θ_run defs (onTc (τ := τ) (main (F := F))) ⟨m, fun _ => 0, ρ⟩ (fun r => ∀ c : Dev nD,
      r.2.mem ((c.tc : Thread nD τ).loc main_v15) = (dat2 (V4 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v15 (by decide))).trans (W5_arr m ρ c 5),
       (h c _ (mem_uc main_arg0 (by decide))).trans (W5_kept m ρ c main_arg0 (by decide) (by decide) (by decide) (by decide) (by decide)),
       (h c _ (mem_uc main_arg1 (by decide))).trans (W5_kept m ρ c main_arg1 (by decide) (by decide) (by decide) (by decide) (by decide)),
       (h c _ (mem_uc main_arg2 (by decide))).trans (W5_kept m ρ c main_arg2 (by decide) (by decide) (by decide) (by decide) (by decide)),
       (h c _ (mem_uc main_arg3 (by decide))).trans (W5_kept m ρ c main_arg3 (by decide) (by decide) (by decide) (by decide) (by decide)),
       (h c _ (mem_uc main_arg4 (by decide))).trans (W5_kept m ρ c main_arg4 (by decide) (by decide) (by decide) (by decide) (by decide)),
       (h c _ (mem_uc main_arg5 (by decide))).trans (W5_kept m ρ c main_arg5 (by decide) (by decide) (by decide) (by decide) (by decide)),
       (h c _ (mem_uc main_arg6 (by decide))).trans (W5_kept m ρ c main_arg6 (by decide) (by decide) (by decide) (by decide) (by decide)),
       (h c _ (mem_uc main_arg7 (by decide))).trans (W5_kept m ρ c main_arg7 (by decide) (by decide) (by decide) (by decide) (by decide)),
       (h c _ (mem_uc main_arg8 (by decide))).trans (W5_kept m ρ c main_arg8 (by decide) (by decide) (by decide) (by decide) (by decide)),
       (h c _ (mem_uc main_arg9 (by decide))).trans (W5_kept m ρ c main_arg9 (by decide) (by decide) (by decide) (by decide) (by decide)),
       (h c _ (mem_uc main_arg10 (by decide))).trans (W5_kept m ρ c main_arg10 (by decide) (by decide) (by decide) (by decide) (by decide)),
       (h c _ (mem_uc main_arg11 (by decide))).trans (W5_kept m ρ c main_arg11 (by decide) (by decide) (by decide) (by decide) (by decide))⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.KernelIdeal.Hand

end
-- ==== Proof.Spec.lean ====
/-
  The mathematics of the decoder step, index by index over the extended reals, with no program in sight.
  One LSTM cell (gates in the order i, f, g, o along the 8192 columns), a masked dot-score attention over
  512 source positions, and a final affine map of [content, h'] under tanh.

  The attention weights are written twice. `refContent` is the textbook softmax: subtract the column
  maximum, exponentiate, normalise, average the source rows. `onContent` is the same average computed in
  sixteen tiles of thirty-two positions with a running maximum, a running normaliser and a running
  weighted sum, each rescaled by exp(m_old - m_new) when the maximum moves (the streaming softmax).
-/
import Idealize.ShloMosaic.PureOps.Ideal
import Mathlib.Algebra.BigOperators.Fin
import Idealize.ShloMosaic.Lib.ValueIdx

noncomputable section

namespace Cert.Spec

open Idealize.ShloMosaic

/-- Column `n` of gate `j` (0 = i, 1 = f, 2 = g, 3 = o) among the 8192 gate columns. -/
def col (j : Fin 4) (n : Fin 2048) : Fin 8192 := ⟨j.val * 2048 + n.val, by have := j.isLt; have := n.isLt; omega⟩

/-- The gates before activation: x·W_ihᵀ + b_ih + h·W_hhᵀ + b_hh, summed in that order. -/
def gate (x hx : Fin 128 → Fin 2048 → EReal) (Wih Whh : Fin 8192 → Fin 2048 → EReal) (bih bhh : Fin 8192 → EReal)
    (b : Fin 128) (n : Fin 8192) : EReal :=
  (∑ k : Fin 2048, x b k * Wih n k) + bih n + (∑ k : Fin 2048, hx b k * Whh n k) + bhh n

/-- The new hidden state o · tanh(f · c + i · g). -/
def hnew (g : Fin 128 → Fin 8192 → EReal) (cx : Fin 128 → Fin 2048 → EReal) (b : Fin 128) (n : Fin 2048) : EReal :=
  Ideal.logistic (g b (col 3 n))
    * Ideal.tanh (Ideal.logistic (g b (col 1 n)) * cx b n + Ideal.logistic (g b (col 0 n)) * Ideal.tanh (g b (col 2 n)))

/-- The score of source position `s` for batch row `b`. -/
def score (h' : Fin 128 → Fin 2048 → EReal) (ew : Fin 512 → Fin 128 → Fin 2048 → EReal) (s : Fin 512) (b : Fin 128) : EReal :=
  ∑ k : Fin 2048, h' b k * ew s b k

/-- The fill value of masked positions, -1e9 as a float32. -/
def NEG : EReal := Ideal.ofBits .f32 0xCE6E6B28#32

/-- Scores with the masked positions (mask word 0) filled. -/
def masked (sc : Fin 512 → Fin 128 → EReal) (mask : Fin 512 → Fin 128 → BitVec 32) (s : Fin 512) (b : Fin 128) : EReal :=
  if mask s b = 0#32 then NEG else sc s b

/-! ## One batch row's attention: `ms s` the masked score of position `s`, `ew s k` the source rows -/

/-- The column maximum as the reference takes it: a max-fold from -∞, then a max with -∞. -/
def Mx (ms : Fin 512 → EReal) : EReal := max ⊥ ((Finset.univ : Finset (Fin 512)).fold max ⊥ ms)

/-- The textbook softmax average of the source rows. -/
def refContent (ms : Fin 512 → EReal) (ew : Fin 512 → Fin 2048 → EReal) (k : Fin 2048) : EReal :=
  ∑ s : Fin 512, Ideal.div (Ideal.exp (ms s - Mx ms)) (∑ s' : Fin 512, Ideal.exp (ms s' - Mx ms)) * ew s k

/-- Position `t` of tile `j`. -/
def sidx (j : Fin 16) (t : Fin 32) : Fin 512 := ⟨32 * j.val + t.val, by have := j.isLt; have := t.isLt; omega⟩

/-- The streaming state: running maximum, running normaliser, running weighted sum. -/
structure OnSt where
  m : EReal
  l : EReal
  acc : Fin 2048 → EReal

/-- Before the first tile. -/
def onInit : OnSt := ⟨NEG, 0, fun _ => 0⟩

/-- One tile: the maximum moves to m' = max m (tile max), the old sums are rescaled by exp(m - m'). -/
def onStep (ms : Fin 512 → EReal) (ew : Fin 512 → Fin 2048 → EReal) (j : Fin 16) (st : OnSt) : OnSt :=
  let m' := max st.m ((Finset.univ : Finset (Fin 32)).fold max ⊥ fun t => ms (sidx j t))
  { m := m'
    l := Ideal.exp (st.m - m') * st.l + ∑ t : Fin 32, Ideal.exp (ms (sidx j t) - m')
    acc := fun k => Ideal.exp (st.m - m') * st.acc k + ∑ t : Fin 32, Ideal.exp (ms (sidx j t) - m') * ew (sidx j t) k }

/-- The state after the first `n` tiles. -/
def onRun (ms : Fin 512 → EReal) (ew : Fin 512 → Fin 2048 → EReal) : ℕ → OnSt
  | 0 => onInit
  | n + 1 => if h : n < 16 then onStep ms ew ⟨n, h⟩ (onRun ms ew n) else onRun ms ew n

/-- The streamed average: weighted sum over normaliser after all sixteen tiles. -/
def onContent (ms : Fin 512 → EReal) (ew : Fin 512 → Fin 2048 → EReal) (k : Fin 2048) : EReal :=
  Ideal.div ((onRun ms ew 16).acc k) ((onRun ms ew 16).l)

/-! ## The output -/

/-- [content, h'] against the rows of attn_W, plus the bias, under tanh: the contraction over all 4096 columns. -/
def outCat (C h' : Fin 128 → Fin 2048 → EReal) (attnW : Fin 2048 → Fin 4096 → EReal) (attnb : Fin 2048 → EReal)
    (b : Fin 128) (n : Fin 2048) : EReal :=
  Ideal.tanh ((∑ k : Fin 4096, (if h : k.val < 2048 then C b ⟨k.val, h⟩ else h' b ⟨k.val - 2048, by have := k.isLt; omega⟩) * attnW n k)
    + attnb n)

/-- The same with the contraction split at column 2048. -/
def outSplit (C h' : Fin 128 → Fin 2048 → EReal) (attnW : Fin 2048 → Fin 4096 → EReal) (attnb : Fin 2048 → EReal)
    (b : Fin 128) (n : Fin 2048) : EReal :=
  Ideal.tanh (((∑ k : Fin 2048, C b k * attnW n ⟨k.val, by have := k.isLt; omega⟩)
      + ∑ k : Fin 2048, h' b k * attnW n ⟨2048 + k.val, by have := k.isLt; omega⟩)
    + attnb n)

/-! ## The whole step as one function of the argument arrays

The arrays come as functions of a shape's index; `ix1`, `ix2`, `ix3` build an index from coordinates. `x` is the
embedded input word (the gathered rows of the embedding table), taken as given. -/

open Idealize.ShloMosaic.ValueIdx in
/-- The attention output tanh([content, h'] · attn_Wᵀ + attn_b) with the textbook softmax, at index `i`. -/
def G (x hx cx : (⟨2, ![128, 2048]⟩ : Shape).Idx → EReal) (ew : (⟨3, ![512, 128, 2048]⟩ : Shape).Idx → EReal)
    (mask : (⟨3, ![512, 128, 1]⟩ : Shape).Idx → BitVec 32) (Wih Whh : (⟨2, ![8192, 2048]⟩ : Shape).Idx → EReal)
    (bih bhh : (⟨1, ![8192]⟩ : Shape).Idx → EReal) (attnW : (⟨2, ![2048, 4096]⟩ : Shape).Idx → EReal)
    (attnb : (⟨1, ![2048]⟩ : Shape).Idx → EReal) : (⟨2, ![128, 2048]⟩ : Shape).Idx → EReal :=
  let H : Fin 128 → Fin 2048 → EReal :=
    hnew (gate (fun b k => x (ix2 b k)) (fun b k => hx (ix2 b k)) (fun n k => Wih (ix2 n k)) (fun n k => Whh (ix2 n k))
      (fun n => bih (ix1 n)) (fun n => bhh (ix1 n))) (fun b k => cx (ix2 b k))
  let E : Fin 512 → Fin 128 → Fin 2048 → EReal := fun s b k => ew (ix3 s b k)
  let ms : Fin 512 → Fin 128 → EReal := masked (score H E) (fun s b => mask (ix3 s b 0))
  fun i => outCat (fun b k => refContent (fun s => ms s b) (fun s k => E s b k) k) H (fun n k => attnW (ix2 n k)) (fun n => attnb (ix1 n)) (i 0) (i 1)

end Cert.Spec

end
-- ==== Proof.KSpec.lean ====
/-
  The first two launches' results as functions of whole arrays: the LSTM cell's new hidden state from the
  embedded word, the old state, the transposed weights and the biases; and the streamed attention average
  from the hidden state, the source rows and the mask. Each reads the specification at an index.
-/
import proofs.«424716_j51917564674095_3_alg».proof.KernelIdeal
import proofs.«424716_j51917564674095_3_alg».proof.Proof.Spec
import Idealize.ShloMosaic.Lib.ValueIdx

noncomputable section

namespace Cert.KernelIdeal.Hand

open Cert.KernelIdeal Idealize.ShloMosaic Idealize.ShloMosaic.ValueIdx

/-- h' = o · tanh(f · c + i · g) with the gates x·W_ihᵀ + b_ih + h·W_hhᵀ + b_hh; `wihT`, `whhT` are the weights
    already transposed to [2048, 8192]. -/
def lstmOut (x hx cx : Vec Ideal S128x2048 .f32) (wihT whhT : Vec Ideal S2048x8192 .f32) (bih bhh : Vec Ideal S8192 .f32) :
    Vec Ideal S128x2048 .f32 := fun i =>
  Cert.Spec.hnew (Cert.Spec.gate (fun b k => x (ix2 b k)) (fun b k => hx (ix2 b k)) (fun n k => wihT (ix2 k n)) (fun n k => whhT (ix2 k n))
    (fun n => bih (ix1 n)) (fun n => bhh (ix1 n))) (fun b k => cx (ix2 b k)) (i 0) (i 1)

theorem lstmOut_apply (x hx cx : Vec Ideal S128x2048 .f32) (wihT whhT : Vec Ideal S2048x8192 .f32) (bih bhh : Vec Ideal S8192 .f32)
    (b : Fin 128) (n : Fin 2048) :
    lstmOut x hx cx wihT whhT bih bhh (ix2 b n)
      = Cert.Spec.hnew (Cert.Spec.gate (fun b k => x (ix2 b k)) (fun b k => hx (ix2 b k)) (fun n k => wihT (ix2 k n)) (fun n k => whhT (ix2 k n))
          (fun n => bih (ix1 n)) (fun n => bhh (ix1 n))) (fun b k => cx (ix2 b k)) b n := rfl

/-- The streamed softmax average of the source rows, per batch row, scores h' · rows with masked positions filled. -/
def attnOut (h : Vec Ideal S128x2048 .f32) (ew : Vec Ideal S512x128x2048 .f32) (mask : IVec S512x128x1 32) :
    Vec Ideal S128x2048 .f32 := fun i =>
  Cert.Spec.onContent
    (fun s => Cert.Spec.masked (Cert.Spec.score (fun b k => h (ix2 b k)) (fun s b k => ew (ix3 s b k))) (fun s b => mask (ix3 s b 0)) s (i 0))
    (fun s k => ew (ix3 s (i 0) k)) (i 1)

theorem attnOut_apply (h : Vec Ideal S128x2048 .f32) (ew : Vec Ideal S512x128x2048 .f32) (mask : IVec S512x128x1 32) (b : Fin 128) (n : Fin 2048) :
    attnOut h ew mask (ix2 b n)
      = Cert.Spec.onContent
          (fun s => Cert.Spec.masked (Cert.Spec.score (fun b k => h (ix2 b k)) (fun s b k => ew (ix3 s b k))) (fun s b => mask (ix3 s b 0)) s b)
          (fun s k => ew (ix3 s b k)) n := rfl

end Cert.KernelIdeal.Hand

end
-- ==== Proof.V0.lean ====
/-
  The first launch's output array, index by index, at the ideal values: after the write-backs of the two
  last-gate points the array holds, at (b, n), the new hidden state o · tanh(f · c + i · g) of the four gates of
  hidden column n, each gate the contraction of x and h with the weights' rows plus the two biases.

  The road: the body's two payloads read at an index (a matmul into the zero accumulator is the sum over the
  inner position; a bias is broadcast along the rows; the slabs' leading unit axis is dropped); each window's block
  read off its array through the printed index maps in closed form (the weights' and biases' column block is
  2·gate + half, the cell state's and the output's is the half); the four gates of a half sit in the four slabs at
  the half's last-gate point, whose weight columns are the specification's gate columns of the output's hidden
  column; and the two last-gate points' blocks cover the output array.
-/
import proofs.«424716_j51917564674095_3_alg».proof.Proof.R0
import proofs.«424716_j51917564674095_3_alg».proof.Proof.Spec
import proofs.«424716_j51917564674095_3_alg».proof.Proof.KSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

-- the TensorCore's buffer contents when the region is entered, at the ideal values
variable (V : (c : Dev nD) → (b : Ref sig .tc) → Buf (Elt Ideal) ((c : Thread nD τ).loc b))

/-! ## The two matmuls' operand indices -/

theorem v0_lhs_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem v0_lhs_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem v0_rhs_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem v0_rhs_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- A [128, 2048] × [2048, 1024] product into the zero accumulator, at (p, q): the sum over the 2048 inner
    positions of the operands' products. -/
theorem v0_mm_apply (a : FVec Ideal S128x2048 .f32) (b : FVec Ideal S2048x1024 .f32) (p : Fin 128) (q : Fin 1024) :
    matmul dot_S128x2048_S2048x1024_S128x1024_1_0_0_1_n_n none a b (constant (F := Ideal) S128x1024 .f32 0x00000000#32) (ix2 p q)
      = ∑ k : Fin 2048, a (ix2 p k) * b (ix2 k q) := by
  simp only [matmul]
  rw [Ideal.matmul_constant_zero_apply, ← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 p q) ((ValueIdx.contrEquiv1 dot_S128x2048_S2048x1024_S128x1024_1_0_0_1_n_n 2048 rfl rfl).symm k) = ix2 p k := funext fun a => Fin.ext (by
    match a with
    | ⟨0, _⟩ => exact v0_lhs_0 _ _
    | ⟨1, _⟩ => exact (v0_lhs_1 _ _).trans hk)
  have er : dot_S128x2048_S2048x1024_S128x1024_1_0_0_1_n_n.rhsIdx (ix2 p q) ((ValueIdx.contrEquiv1 dot_S128x2048_S2048x1024_S128x1024_1_0_0_1_n_n 2048 rfl rfl).symm k) = ix2 k q := funext fun a => Fin.ext (by
    match a with
    | ⟨0, _⟩ => exact (v0_rhs_0 _ _).trans hk
    | ⟨1, _⟩ => exact v0_rhs_1 _ _)
  rw [el, er]

/-! ## The body's two payloads at an index -/

/-- The gate before activation at (p, q), from the six loaded blocks: x·W + b + h·W' + b', summed in that order. -/
def v0_pre (x0 x1 : FVec Ideal S128x2048 .f32) (x2 x3 : FVec Ideal S2048x1024 .f32) (x4 x5 : FVec Ideal S1024 .f32)
    (p : Fin 128) (q : Fin 1024) : EReal :=
  (∑ k : Fin 2048, x0 (ix2 p k) * x2 (ix2 k q)) + x4 (ix1 q) + (∑ k : Fin 2048, x1 (ix2 p k) * x3 (ix2 k q)) + x5 (ix1 q)

/-- The activated gate the body stores, at (0, p, q): tanh of the gate at the coordinates of gate 2, the logistic
    function of it elsewhere. -/
theorem v0_pay1_apply (i : grid0.Coords) (x0 x1 : FVec Ideal S128x2048 .f32) (x2 x3 : FVec Ideal S2048x1024 .f32) (x4 x5 : FVec Ideal S1024 .f32)
    (u : Fin 1) (p : Fin 128) (q : Fin 1024) :
    k0_pay1 (F := Ideal) i x0 x1 x2 x3 x4 x5 (ix3 u p q)
      = Scalar.select (Scalar.cmpi .eq (BitVec.ofNat 32 (i 1).val) 2#32) (Ideal.tanh (v0_pre x0 x1 x2 x3 x4 x5 p q)) (Ideal.logistic (v0_pre x0 x1 x2 x3 x4 x5 p q)) := by
  unfold k0_pay1
  dsimp only
  refine (shapeCast_ab_1ab_apply _ shapeCasts_S128x1024_S1x128x1024 u p q).trans ?_
  have hpre : addf (addf (addf (matmul dot_S128x2048_S2048x1024_S128x1024_1_0_0_1_n_n none (shapeCast S128x2048 x0 shapeCasts_S128x2048_S128x2048) (shapeCast S2048x1024 x2 shapeCasts_S2048x1024_S2048x1024) (constant (F := Ideal) S128x1024 .f32 0x00000000#32))
        (broadcastTo S128x1024 (shapeCast S1x1024 x4 shapeCasts_S1024_S1x1024) broadcasts_S1x1024_S128x1024))
        (matmul dot_S128x2048_S2048x1024_S128x1024_1_0_0_1_n_n none x1 (shapeCast S2048x1024 x3 shapeCasts_S2048x1024_S2048x1024) (constant (F := Ideal) S128x1024 .f32 0x00000000#32)))
        (broadcastTo S128x1024 (shapeCast S1x1024 x5 shapeCasts_S1024_S1x1024) broadcasts_S1x1024_S128x1024) (ix2 p q)
      = v0_pre x0 x1 x2 x3 x4 x5 p q := by
    rw [addf_apply, addf_apply, addf_apply, shapeCast_self, shapeCast_self, shapeCast_self, v0_mm_apply, v0_mm_apply]
    rw [broadcastTo_1b_ab_apply _ broadcasts_S1x1024_S128x1024 p q, broadcastTo_1b_ab_apply _ broadcasts_S1x1024_S128x1024 p q,
      shapeCast_a_1a_apply _ shapeCasts_S1024_S1x1024 0 q, shapeCast_a_1a_apply _ shapeCasts_S1024_S1x1024 0 q]
    rfl
  rcases BitVec.eq_zero_or_eq_one (Scalar.cmpi .eq (BitVec.ofNat 32 (i 1).val) 2#32) with h0 | h1
  · rw [h0, select_zero, select_zero]
    show FloatOps.logistic (_ : Ideal .f32) = _
    rw [Ideal.logistic_def]
    exact congrArg Ideal.logistic hpre
  · rw [h1, select_one, select_one]
    show FloatOps.tanh (_ : Ideal .f32) = _
    rw [Ideal.tanh_def]
    exact congrArg Ideal.tanh hpre

/-- The new hidden state the body stores at the last gate, at (p, q): o · tanh(f · c + i · g) of the four slabs'
    and the cell state's elements there. -/
theorem v0_pay2_apply (v29 v31 v33 v35 : FVec Ideal S1x128x1024 .f32) (v37 : FVec Ideal S128x1024 .f32) (p : Fin 128) (q : Fin 1024) :
    k0_pay2 (F := Ideal) v29 v31 v33 v35 v37 (ix2 p q)
      = v35 (ix3 (0 : Fin 1) p q) * Ideal.tanh (v31 (ix3 (0 : Fin 1) p q) * v37 (ix2 p q) + v29 (ix3 (0 : Fin 1) p q) * v33 (ix3 (0 : Fin 1) p q)) := by
  unfold k0_pay2
  rw [mulf_apply, shapeCast_1ab_ab_apply _ shapeCasts_S1x128x1024_S128x1024 p q]
  show _ * FloatOps.tanh (_ : Ideal .f32) = _
  rw [Ideal.tanh_def, addf_apply, mulf_apply, mulf_apply, shapeCast_1ab_ab_apply _ shapeCasts_S1x128x1024_S128x1024 p q,
    shapeCast_1ab_ab_apply _ shapeCasts_S1x128x1024_S128x1024 p q, shapeCast_1ab_ab_apply _ shapeCasts_S1x128x1024_S128x1024 p q]

/-! ## The printed index maps over the grid, and the windows' blocks read off their arrays -/

/-- The block indices in closed form — decided over the grid: x and h whole; the two weights and the two biases at
    column block 2·gate + half; the cell state and the output at column block half. -/
theorem v0_idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 2 * (t.val % 4) + t.val / 4
    ∧ win0_3.index t (0 : Fin 2) = 0 ∧ win0_3.index t (1 : Fin 2) = 2 * (t.val % 4) + t.val / 4
    ∧ win0_4.index t (0 : Fin 1) = 2 * (t.val % 4) + t.val / 4
    ∧ win0_5.index t (0 : Fin 1) = 2 * (t.val % 4) + t.val / 4
    ∧ win0_6.index t (0 : Fin 2) = 0 ∧ win0_6.index t (1 : Fin 2) = t.val / 4
    ∧ win0_7.index t (0 : Fin 2) = 0 ∧ win0_7.index t (1 : Fin 2) = t.val / 4 :=
  (by decide +kernel : ∀ t : Fin grid0.N, _)

/-- The gate column, among the 8192, of column `q` of the weight and bias blocks at point `t`. -/
def v0_wcol (t : Fin cfg0.N) (q : Fin 1024) : Fin 8192 :=
  ⟨(2 * (t.val % 4) + t.val / 4) * 1024 + q.val, by have := t.isLt; have := q.isLt; have : cfg0.N = 8 := N_0; omega⟩

/-- The hidden column, among the 2048, of column `q` of the cell-state and output blocks at point `t`. -/
def v0_hcol (t : Fin cfg0.N) (q : Fin 1024) : Fin 2048 :=
  ⟨(t.val / 4) * 1024 + q.val, by have := t.isLt; have := q.isLt; have : cfg0.N = 8 := N_0; omega⟩

theorem v0_blk_0 (c : Dev nD) (t : Fin cfg0.N) (p : Fin 128) (k : Fin 2048) : iblk0 V c 0 t (ix2 p k) = V c main_v6 (ix2 p k) := by
  show V c main_v6 (((cfg0.win 0).blk t).view.emb (ix2 p k)) = V c main_v6 (ix2 p k)
  obtain ⟨e0, e1, -⟩ := v0_idx_facts t
  refine congrArg (V c main_v6) (funext fun a => Fin.ext ?_)
  match a with
  | ⟨0, _⟩ => show win0_0.index t (0 : Fin 2) * 128 + 1 * p.val = p.val; omega
  | ⟨1, _⟩ => show win0_0.index t (1 : Fin 2) * 2048 + 1 * k.val = k.val; omega

theorem v0_blk_1 (c : Dev nD) (t : Fin cfg0.N) (p : Fin 128) (k : Fin 2048) : iblk0 V c 1 t (ix2 p k) = V c main_arg1 (ix2 p k) := by
  show V c main_arg1 (((cfg0.win 1).blk t).view.emb (ix2 p k)) = V c main_arg1 (ix2 p k)
  obtain ⟨-, -, e0, e1, -⟩ := v0_idx_facts t
  refine congrArg (V c main_arg1) (funext fun a => Fin.ext ?_)
  match a with
  | ⟨0, _⟩ => show win0_1.index t (0 : Fin 2) * 128 + 1 * p.val = p.val; omega
  | ⟨1, _⟩ => show win0_1.index t (1 : Fin 2) * 2048 + 1 * k.val = k.val; omega

theorem v0_blk_2 (c : Dev nD) (t : Fin cfg0.N) (k : Fin 2048) (q : Fin 1024) : iblk0 V c 2 t (ix2 k q) = V c main_v7 (ix2 k (v0_wcol t q)) := by
  show V c main_v7 (((cfg0.win 2).blk t).view.emb (ix2 k q)) = V c main_v7 (ix2 k (v0_wcol t q))
  obtain ⟨-, -, -, -, e0, e1, -⟩ := v0_idx_facts t
  refine congrArg (V c main_v7) (funext fun a => Fin.ext ?_)
  match a with
  | ⟨0, _⟩ => show win0_2.index t (0 : Fin 2) * 2048 + 1 * k.val = k.val; omega
  | ⟨1, _⟩ => show win0_2.index t (1 : Fin 2) * 1024 + 1 * q.val = (2 * (t.val % 4) + t.val / 4) * 1024 + q.val; omega

theorem v0_blk_3 (c : Dev nD) (t : Fin cfg0.N) (k : Fin 2048) (q : Fin 1024) : iblk0 V c 3 t (ix2 k q) = V c main_v8 (ix2 k (v0_wcol t q)) := by
  show V c main_v8 (((cfg0.win 3).blk t).view.emb (ix2 k q)) = V c main_v8 (ix2 k (v0_wcol t q))
  obtain ⟨-, -, -, -, -, -, e0, e1, -⟩ := v0_idx_facts t
  refine congrArg (V c main_v8) (funext fun a => Fin.ext ?_)
  match a with
  | ⟨0, _⟩ => show win0_3.index t (0 : Fin 2) * 2048 + 1 * k.val = k.val; omega
  | ⟨1, _⟩ => show win0_3.index t (1 : Fin 2) * 1024 + 1 * q.val = (2 * (t.val % 4) + t.val / 4) * 1024 + q.val; omega

theorem v0_blk_4 (c : Dev nD) (t : Fin cfg0.N) (q : Fin 1024) : iblk0 V c 4 t (ix1 q) = V c main_arg8 (ix1 (v0_wcol t q)) := by
  show V c main_arg8 (((cfg0.win 4).blk t).view.emb (ix1 q)) = V c main_arg8 (ix1 (v0_wcol t q))
  obtain ⟨-, -, -, -, -, -, -, -, e0, -⟩ := v0_idx_facts t
  refine congrArg (V c main_arg8) (funext fun a => Fin.ext ?_)
  match a with
  | ⟨0, _⟩ => show win0_4.index t (0 : Fin 1) * 1024 + 1 * q.val = (2 * (t.val % 4) + t.val / 4) * 1024 + q.val; omega

theorem v0_blk_5 (c : Dev nD) (t : Fin cfg0.N) (q : Fin 1024) : iblk0 V c 5 t (ix1 q) = V c main_arg9 (ix1 (v0_wcol t q)) := by
  show V c main_arg9 (((cfg0.win 5).blk t).view.emb (ix1 q)) = V c main_arg9 (ix1 (v0_wcol t q))
  obtain ⟨-, -, -, -, -, -, -, -, -, e0, -⟩ := v0_idx_facts t
  refine congrArg (V c main_arg9) (funext fun a => Fin.ext ?_)
  match a with
  | ⟨0, _⟩ => show win0_5.index t (0 : Fin 1) * 1024 + 1 * q.val = (2 * (t.val % 4) + t.val / 4) * 1024 + q.val; omega

theorem v0_blk_6 (c : Dev nD) (t : Fin cfg0.N) (p : Fin 128) (q : Fin 1024) : iblk0 V c 6 t (ix2 p q) = V c main_arg2 (ix2 p (v0_hcol t q)) := by
  show V c main_arg2 (((cfg0.win 6).blk t).view.emb (ix2 p q)) = V c main_arg2 (ix2 p (v0_hcol t q))
  obtain ⟨-, -, -, -, -, -, -, -, -, -, e0, e1, -⟩ := v0_idx_facts t
  refine congrArg (V c main_arg2) (funext fun a => Fin.ext ?_)
  match a with
  | ⟨0, _⟩ => show win0_6.index t (0 : Fin 2) * 128 + 1 * p.val = p.val; omega
  | ⟨1, _⟩ => show win0_6.index t (1 : Fin 2) * 1024 + 1 * q.val = (t.val / 4) * 1024 + q.val; omega

/-! ## The stored gate and the stored hidden state at an index, over the arrays -/

theorem v0_zeros1 : (![0] : Fin 1 → ℕ) = fun _ => 0 := by funext a; fin_cases a; rfl

/-- The gates before activation over the arrays as the region finds them: the specification's `gate` of x, h, the
    transposed weights read back by (column, row), and the two biases. -/
abbrev v0_gate (c : Dev nD) : Fin 128 → Fin 8192 → EReal :=
  Cert.Spec.gate (fun b k => V c main_v6 (ix2 b k)) (fun b k => V c main_arg1 (ix2 b k)) (fun n k => V c main_v7 (ix2 k n))
    (fun n k => V c main_v8 (ix2 k n)) (fun n => V c main_arg8 (ix1 n)) (fun n => V c main_arg9 (ix1 n))

/-- The comparison "gate coordinate = 2" over the grid — decided. -/
theorem v0_hsel : ∀ t : Fin cfg0.N, Scalar.cmpi .eq (BitVec.ofNat 32 ((grid0.coords t) 1).val) 2#32 = if t.val % 4 = 2 then 1#1 else 0#1 :=
  (by decide +kernel : ∀ t : Fin grid0.N, Scalar.cmpi .eq (BitVec.ofNat 32 ((grid0.coords t) 1).val) 2#32 = if t.val % 4 = 2 then 1#1 else 0#1)

/-- The activated gate over variables: the payload of the six blocks loaded whole. -/
theorem v0_act_var (i : grid0.Coords) (X0 X1 : FVec Ideal S128x2048 .f32) (X2 X3 : FVec Ideal S2048x1024 .f32) (X4 X5 : FVec Ideal S1024 .f32)
    (u : Fin 1) (p : Fin 128) (q : Fin 1024) :
    k0_pay1 (F := Ideal) i (View.ld X0 r0_a) (View.ld X1 r0_a) (View.ld X2 r0_b) (View.ld X3 r0_b) (View.ld X4 r0_c) (View.ld X5 r0_c) (ix3 u p q)
      = Scalar.select (Scalar.cmpi .eq (BitVec.ofNat 32 (i 1).val) 2#32) (Ideal.tanh (v0_pre X0 X1 X2 X3 X4 X5 p q)) (Ideal.logistic (v0_pre X0 X1 X2 X3 X4 X5 p q)) := by
  simp only [View.ld_unit_zero (S := S128x2048) zeros0_2, View.ld_unit_zero (S := S2048x1024) zeros0_2, View.ld_unit_zero (S := S1024) v0_zeros1]
  exact v0_pay1_apply i X0 X1 X2 X3 X4 X5 u p q

/-- The gate before activation of point `t`'s blocks at (p, q) is the specification's at row p and the block's
    gate column. -/
theorem v0_pre_blocks (c : Dev nD) (t : Fin cfg0.N) (p : Fin 128) (q : Fin 1024) :
    v0_pre (iblk0 V c 0 t) (iblk0 V c 1 t) (iblk0 V c 2 t) (iblk0 V c 3 t) (iblk0 V c 4 t) (iblk0 V c 5 t) p q = v0_gate V c p (v0_wcol t q) := by
  unfold v0_pre v0_gate Cert.Spec.gate
  simp only [v0_blk_0 V c t, v0_blk_1 V c t, v0_blk_2 V c t, v0_blk_3 V c t, v0_blk_4 V c t, v0_blk_5 V c t]

/-- What point `t` stores into its slab, at (0, p, q): the activated gate of the specification's gate at row p and
    the block's gate column — tanh at a point of gate 2, -/
theorem v0_act_tanh (c : Dev nD) (t : Fin cfg0.N) (h : t.val % 4 = 2) (u : Fin 1) (p : Fin 128) (q : Fin 1024) :
    act0 V c t (ix3 u p q) = Ideal.tanh (v0_gate V c p (v0_wcol t q)) := by
  unfold act0
  refine (v0_act_var (grid0.coords t) (iblk0 V c 0 t) (iblk0 V c 1 t) (iblk0 V c 2 t) (iblk0 V c 3 t) (iblk0 V c 4 t) (iblk0 V c 5 t) u p q).trans ?_
  rw [v0_pre_blocks V c t p q, v0_hsel t, if_pos h, select_one]

/-- the logistic function at the points of the other gates. -/
theorem v0_act_logistic (c : Dev nD) (t : Fin cfg0.N) (h : t.val % 4 ≠ 2) (u : Fin 1) (p : Fin 128) (q : Fin 1024) :
    act0 V c t (ix3 u p q) = Ideal.logistic (v0_gate V c p (v0_wcol t q)) := by
  unfold act0
  refine (v0_act_var (grid0.coords t) (iblk0 V c 0 t) (iblk0 V c 1 t) (iblk0 V c 2 t) (iblk0 V c 3 t) (iblk0 V c 4 t) (iblk0 V c 5 t) u p q).trans ?_
  rw [v0_pre_blocks V c t p q, v0_hsel t, if_neg h, select_zero]

theorem v0_pt_mod (t : Fin cfg0.N) (k : Fin 4) : (pt0 t k).val % 4 = k.val := by
  show (4 * (t.val / 4) + k.val) % 4 = k.val
  have := k.isLt; omega

theorem v0_pt_div (t : Fin cfg0.N) (k : Fin 4) : (pt0 t k).val / 4 = t.val / 4 := by
  show (4 * (t.val / 4) + k.val) / 4 = t.val / 4
  have := k.isLt; omega

/-- The weight column of gate `k`'s point in `t`'s half is the specification's column of gate `k` at `t`'s hidden
    column. -/
theorem v0_wcol_pt (t : Fin cfg0.N) (k : Fin 4) (q : Fin 1024) : v0_wcol (pt0 t k) q = Cert.Spec.col k (v0_hcol t q) :=
  Fin.ext (by
    show (2 * ((pt0 t k).val % 4) + (pt0 t k).val / 4) * 1024 + q.val = k.val * 2048 + ((t.val / 4) * 1024 + q.val)
    rw [v0_pt_mod, v0_pt_div]; omega)

/-- What a point of the last gate stores into the output block, at (p, q): the specification's new hidden state at
    row p and the block's hidden column. -/
theorem v0_hnew_apply (c : Dev nD) (t : Fin cfg0.N) (p : Fin 128) (q : Fin 1024) :
    hnew0 V c t (ix2 p q) = Cert.Spec.hnew (v0_gate V c) (fun b k => V c main_arg2 (ix2 b k)) p (v0_hcol t q) := by
  unfold hnew0
  rw [View.ld_unit_zero (S := S128x1024) zeros0_2]
  refine (v0_pay2_apply (act0 V c (pt0 t 0)) (act0 V c (pt0 t 1)) (act0 V c (pt0 t 2)) (act0 V c (pt0 t 3)) (iblk0 V c 6 t) p q).trans ?_
  rw [v0_act_logistic V c (pt0 t 0) (by rw [v0_pt_mod]; decide) 0 p q, v0_act_logistic V c (pt0 t 1) (by rw [v0_pt_mod]; decide) 0 p q,
    v0_act_tanh V c (pt0 t 2) (by rw [v0_pt_mod]; rfl) 0 p q, v0_act_logistic V c (pt0 t 3) (by rw [v0_pt_mod]; decide) 0 p q,
    v0_blk_6 V c t p q, v0_wcol_pt, v0_wcol_pt, v0_wcol_pt, v0_wcol_pt]
  rfl

/-! ## From the blocks to the array -/

/-- An index of the output array is in point `t`'s block iff each coordinate is in the block's range on its axis. -/
theorem v0_mem_blk (t : Fin cfg0.N) (i : S128x2048.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v9).slice (win0_7.rect t)).set ↔ _
  rw [View.set_slice_whole, Rect.mem_set_unit]
  exact Iff.rfl

/-- What a point of the last gate writes back is its block of the LSTM cell's result over the arrays. -/
theorem v0_flushed_eq (c : Dev nD) (t : Fin cfg0.N) :
    (dat0 V c).flushed 7 t = ((cfg0.win 7).blk t).view.read (Elt Ideal)
      (lstmOut (V c main_v6) (V c main_arg1) (V c main_arg2) (V c main_v7) (V c main_v8) (V c main_arg8) (V c main_arg9)) := by
  show (cfg0.win 7).cut (grid0.coords t) ((dat0 V c).after 7 t) = _
  rw [after0_7]
  funext j
  obtain ⟨p, q, rfl⟩ : ∃ (p : Fin 128) (q : Fin 1024), j = ix2 p q := ⟨j 0, j 1, eq_ix2 j⟩
  show hnew0 V c t (ix2 p q) = lstmOut (V c main_v6) (V c main_arg1) (V c main_arg2) (V c main_v7) (V c main_v8) (V c main_arg8) (V c main_arg9) (((cfg0.win 7).blk t).view.emb (ix2 p q))
  have hemb : ((cfg0.win 7).blk t).view.emb (ix2 p q) = ix2 p (v0_hcol t q) := by
    obtain ⟨-, -, -, -, -, -, -, -, -, -, -, -, e0, e1⟩ := v0_idx_facts t
    funext a; apply Fin.ext
    match a with
    | ⟨0, _⟩ => show win0_7.index t (0 : Fin 2) * 128 + 1 * p.val = p.val; omega
    | ⟨1, _⟩ => show win0_7.index t (1 : Fin 2) * 1024 + 1 * q.val = (t.val / 4) * 1024 + q.val; omega
  rw [hemb, lstmOut_apply]
  exact v0_hnew_apply V c t p q

/-- Every index of the output array is in the block of the last-gate point of its half. -/
theorem v0_cover (i : S128x2048.Idx) : ∃ t : Fin cfg0.N, (cfg0.win 7).flush t = true ∧ i ∈ ((cfg0.win 7).blk t).view.set := by
  have hi0 : (i 0).val < 128 := idx2_lt0 i
  have hi1 : (i 1).val < 2048 := idx2_lt1 i
  have hN : cfg0.N = 8 := N_0
  let t : Fin cfg0.N := ⟨4 * ((i 1).val / 1024) + 3, by omega⟩
  have htv : t.val = 4 * ((i 1).val / 1024) + 3 := rfl
  refine ⟨t, (flush0_7 t).mpr (by rw [htv]; omega), ?_⟩
  rw [v0_mem_blk]
  obtain ⟨-, -, -, -, -, -, -, -, -, -, -, -, e0, e1⟩ := v0_idx_facts t
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- THE OUTPUT ARRAY of the first launch after all its write-backs: the LSTM cell's result over the arrays as the
    region finds them. -/
theorem v9_eq (c : Dev nD) : (dat0 V c).arrAt 7 cfg0.N = lstmOut (V c main_v6) (V c main_arg1) (V c main_arg2) (V c main_v7) (V c main_v8) (V c main_arg8) (V c main_arg9) :=
  (dat0 V c).arrAt_eq_of_cover 7 _ (fun t _ => v0_flushed_eq V c t) v0_cover

end Cert.KernelIdeal.Hand

end
-- ==== Proof.V1.lean ====
/-
  The second launch's output array, index by index. The attention-reduction body keeps, per batch row, a running
  maximum m of the masked scores, a running normaliser l and a running weighted sum acc of the source rows, and
  updates them tile by tile (32 source positions at a time, 16 tiles): m' = max m (tile max), l' = exp(m − m')·l +
  Σ exp(score − m'), acc' = exp(m − m')·acc + Σ exp(score − m')·row. That is, term for term, one step of the
  specification's streaming softmax; so after the last tile of a batch half the stored block acc / l is the
  specification's streamed average of each of its batch rows, and the two flushing points' blocks cover the array.

  Read at the exact values: each layout operation and reduction of the body at an index, each payload at an index,
  the update as a step of the specification's state on every block row, the state after each point by induction on
  the point, the flushed block, the cover, and the array after the run.
-/
import proofs.«424716_j51917564674095_3_alg».proof.Proof.R1
import proofs.«424716_j51917564674095_3_alg».proof.Proof.Spec
import proofs.«424716_j51917564674095_3_alg».proof.Proof.KSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## Layout operations of the body, read at an index -/

section Layout
variable {α : Type}

/-- A block with a unit axis added in front reads the block. -/
theorem v1_cast_64x2048_lead (x : S64x2048.Idx → α) (h : S64x2048.ShapeCasts S1x64x2048) (u : Fin 1) (r : Fin 64) (k : Fin 2048) :
    shapeCast S1x64x2048 x h (ix3 u r k) = x (ix2 r k) := shapeCast_ab_1ab_apply x h u r k
theorem v1_cast_64x1_lead (x : S64x1.Idx → α) (h : S64x1.ShapeCasts S1x64x1) (u : Fin 1) (r : Fin 64) (w : Fin 1) :
    shapeCast S1x64x1 x h (ix3 u r w) = x (ix2 r w) := shapeCast_ab_1ab_apply x h u r w

/-- A unit axis added behind: the scores of a tile, one per (position, row). -/
theorem v1_cast_32x64_trail (x : S32x64.Idx → α) (h : S32x64.ShapeCasts S32x64x1) (p : Fin 32) (r : Fin 64) (w : Fin 1) :
    shapeCast S32x64x1 x h (ix3 p r w) = x (ix2 p r) :=
  shapeCast_apply x h _ _ (by
    have hw : w.val = 0 := by omega
    rw [Shape.rowMajor_val_three, Shape.rowMajor_val_two]
    show p.val * 64 + r.val = (p.val * 64 + r.val) * 1 + w.val
    omega)

/-- One block repeated along a new leading axis of 32. -/
theorem v1_bcast_1x64x2048 (v : S1x64x2048.Idx → α) (h : S1x64x2048.Broadcasts S32x64x2048) (p : Fin 32) (r : Fin 64) (k : Fin 2048) :
    broadcastTo S32x64x2048 v h (ix3 p r k) = v (ix3 (0 : Fin 1) r k) := by
  refine broadcastTo_apply v h (ix3 p r k) (ix3 (0 : Fin 1) r k) fun ax => ?_
  match ax with
  | ⟨0, _⟩ => rfl
  | ⟨1, _⟩ => rfl
  | ⟨2, _⟩ => rfl
theorem v1_bcast_1x64x1 (v : S1x64x1.Idx → α) (h : S1x64x1.Broadcasts S32x64x1) (p : Fin 32) (r : Fin 64) (w : Fin 1) :
    broadcastTo S32x64x1 v h (ix3 p r w) = v (ix3 (0 : Fin 1) r w) := by
  refine broadcastTo_apply v h (ix3 p r w) (ix3 (0 : Fin 1) r w) fun ax => ?_
  match ax with
  | ⟨0, _⟩ => rfl
  | ⟨1, _⟩ => rfl
  | ⟨2, _⟩ =>
    have hw : w.val = 0 := by omega
    exact hw

/-- A column repeated along the lanes. -/
theorem v1_bcast_64x1 (v : S64x1.Idx → α) (h : S64x1.Broadcasts S64x2048) (r : Fin 64) (k : Fin 2048) :
    broadcastTo S64x2048 v h (ix2 r k) = v (ix2 r (0 : Fin 1)) := by
  refine broadcastTo_apply v h (ix2 r k) (ix2 r (0 : Fin 1)) fun ax => ?_
  match ax with
  | ⟨0, _⟩ => rfl
  | ⟨1, _⟩ => rfl
theorem v1_bcast_32x64x1 (v : S32x64x1.Idx → α) (h : S32x64x1.Broadcasts S32x64x2048) (p : Fin 32) (r : Fin 64) (k : Fin 2048) :
    broadcastTo S32x64x2048 v h (ix3 p r k) = v (ix3 p r (0 : Fin 1)) := by
  refine broadcastTo_apply v h (ix3 p r k) (ix3 p r (0 : Fin 1)) fun ax => ?_
  match ax with
  | ⟨0, _⟩ => rfl
  | ⟨1, _⟩ => rfl
  | ⟨2, _⟩ => rfl

end Layout

/-! ## The body's reductions at the exact values -/

/-- The lane sum of a tile: over the 2048 lanes. -/
theorem v1_sum_lanes (src : FVec Ideal S32x64x2048 .f32) (h : S32x64x2048.Reduces [2] S32x64) (hφ : FKind.Formats .f32)
    (hacc : (0x00000000#32 : BitVec 32) = FKind.add.neutral .f32 hφ) (p : Fin 32) (r : Fin 64) :
    multiReduction .add [2] S32x64 src 0x00000000#32 h hφ hacc (ix2 p r) = ∑ k : Fin 2048, src (ix3 p r k) := by
  refine (Ideal.multiReduction_add_single src 0x00000000#32 h hφ hacc (ix2 p r)).trans ?_
  refine Finset.sum_congr rfl fun k _ => congrArg src (funext fun a => Fin.ext ?_)
  match a with
  | ⟨0, _⟩ => rfl
  | ⟨1, _⟩ => rfl
  | ⟨2, _⟩ => rfl

/-- The sum over a tile's 32 positions, of a column and of a block. -/
theorem v1_sum_pos_col (src : FVec Ideal S32x64x1 .f32) (h : S32x64x1.Reduces [0] S64x1) (hφ : FKind.Formats .f32)
    (hacc : (0x00000000#32 : BitVec 32) = FKind.add.neutral .f32 hφ) (r : Fin 64) (w : Fin 1) :
    multiReduction .add [0] S64x1 src 0x00000000#32 h hφ hacc (ix2 r w) = ∑ p : Fin 32, src (ix3 p r w) := by
  refine (Ideal.multiReduction_add_single src 0x00000000#32 h hφ hacc (ix2 r w)).trans ?_
  refine Finset.sum_congr rfl fun p _ => congrArg src (funext fun a => Fin.ext ?_)
  match a with
  | ⟨0, _⟩ => rfl
  | ⟨1, _⟩ => rfl
  | ⟨2, _⟩ => rfl
theorem v1_sum_pos_blk (src : FVec Ideal S32x64x2048 .f32) (h : S32x64x2048.Reduces [0] S64x2048) (hφ : FKind.Formats .f32)
    (hacc : (0x00000000#32 : BitVec 32) = FKind.add.neutral .f32 hφ) (r : Fin 64) (k : Fin 2048) :
    multiReduction .add [0] S64x2048 src 0x00000000#32 h hφ hacc (ix2 r k) = ∑ p : Fin 32, src (ix3 p r k) := by
  refine (Ideal.multiReduction_add_single src 0x00000000#32 h hφ hacc (ix2 r k)).trans ?_
  refine Finset.sum_congr rfl fun p _ => congrArg src (funext fun a => Fin.ext ?_)
  match a with
  | ⟨0, _⟩ => rfl
  | ⟨1, _⟩ => rfl
  | ⟨2, _⟩ => rfl

/-- The word 0xFF800000 is −∞. -/
theorem v1_ofBits_neg_inf_f32 : Ideal.ofBits .f32 0xFF800000#32 = (⊥ : EReal) := by simp [Ideal.ofBits, Ideal.ieee]

/-- The maximum over a tile's 32 positions, from −∞. -/
theorem v1_max_pos_col (src : FVec Ideal S32x64x1 .f32) (h : S32x64x1.Reduces [0] S64x1) (hφ : FKind.Formats .f32)
    (hacc : (0xFF800000#32 : BitVec 32) = FKind.maximumf.neutral .f32 hφ) (r : Fin 64) (w : Fin 1) :
    multiReduction .maximumf [0] S64x1 src 0xFF800000#32 h hφ hacc (ix2 r w)
      = (Finset.univ : Finset (Fin 32)).fold max ⊥ fun p => src (ix3 p r w) := by
  refine (Ideal.multiReduction_maximumf_single src 0xFF800000#32 h hφ hacc (ix2 r w)).trans ?_
  rw [Ideal.ofBits_def, v1_ofBits_neg_inf_f32]
  refine congrArg (Finset.fold max ⊥ · Finset.univ) (funext fun p => congrArg src (funext fun a => Fin.ext ?_))
  match a with
  | ⟨0, _⟩ => rfl
  | ⟨1, _⟩ => rfl
  | ⟨2, _⟩ => rfl

/-! ## The body's payloads at an index, at the exact values -/

/-- A select on "the mask word is zero". -/
theorem v1_select_eq (a : BitVec 32) (X Y : EReal) : Scalar.select (IntOp.cmpi .eq a 0#32) X Y = if a = 0#32 then X else Y := by
  unfold Scalar.select IntOp.cmpi
  by_cases h : a = 0#32
  · subst h; simp
  · rw [if_neg h]
    have hb : (a == 0#32) = false := by simpa using h
    rw [hb]; simp

section Pay
variable (x3 : Vec Ideal S64x2048 .f32) (x5 : Vec Ideal S32x64x2048 .f32) (x6 : IVec S32x64x1 32)

/-- The raw score of position `p` of the tile for row `r`: the lane sum of rows · h'. -/
theorem v1_score_apply (h1 : S64x2048.ShapeCasts S64x2048) (h2 : S64x2048.ShapeCasts S1x64x2048) (h3 : S1x64x2048.Broadcasts S32x64x2048)
    (h4 : S32x64x2048.Reduces [2] S32x64) (hφ : FKind.Formats .f32) (hacc : (0x00000000#32 : BitVec 32) = FKind.add.neutral .f32 hφ)
    (h5 : S32x64.ShapeCasts S32x64x1) (p : Fin 32) (r : Fin 64) (w : Fin 1) :
    shapeCast S32x64x1 (multiReduction (F := Ideal) .add [2] S32x64 (mulf (F := Ideal) x5 (broadcastTo S32x64x2048 (shapeCast S1x64x2048 (shapeCast S64x2048 x3 h1) h2) h3))
        0x00000000#32 h4 hφ hacc) h5 (ix3 p r w)
      = ∑ k : Fin 2048, x5 (ix3 p r k) * x3 (ix2 r k) := by
  refine (v1_cast_32x64_trail _ h5 p r w).trans ((v1_sum_lanes _ h4 hφ hacc p r).trans (Finset.sum_congr rfl fun k _ => ?_))
  show x5 (ix3 p r k) * broadcastTo S32x64x2048 (shapeCast S1x64x2048 (shapeCast S64x2048 x3 h1) h2) h3 (ix3 p r k) = _
  exact congrArg (x5 (ix3 p r k) * ·) ((v1_bcast_1x64x2048 _ h3 p r k).trans ((v1_cast_64x2048_lead _ h2 0 r k).trans
    (congrFun (shapeCast_self x3 h1) (ix2 r k))))

/-- The masked score: the fill value where the mask word is zero. -/
theorem v1_pay7_apply (p : Fin 32) (r : Fin 64) (w : Fin 1) :
    k1_pay7 x3 x5 x6 (ix3 p r w)
      = if x6 (ix3 p r w) = 0#32 then Cert.Spec.NEG else ∑ k : Fin 2048, x5 (ix3 p r k) * x3 (ix2 r k) := by
  unfold k1_pay7
  refine Eq.trans ?_ (v1_select_eq (x6 (ix3 p r w)) Cert.Spec.NEG _)
  exact congrArg (Scalar.select (IntOp.cmpi .eq (x6 (ix3 p r w)) 0#32) Cert.Spec.NEG) (v1_score_apply x3 x5 _ _ _ _ _ _ _ p r w)

/-- The new running maximum: the old one against the tile's. -/
theorem v1_pay8_apply (v17 : Vec Ideal S64x1 .f32) (r : Fin 64) (w : Fin 1) :
    k1_pay8 x3 x5 x6 v17 (ix2 r w)
      = max (v17 (ix2 r w)) ((Finset.univ : Finset (Fin 32)).fold max ⊥ fun p => k1_pay7 x3 x5 x6 (ix3 p r w)) := by
  unfold k1_pay8
  exact congrArg (max (v17 (ix2 r w))) (v1_max_pos_col (k1_pay7 x3 x5 x6) _ _ _ r w)

/-- The rescaling factor of the old sums. -/
theorem v1_pay9_apply (v17 v19 : Vec Ideal S64x1 .f32) (r : Fin 64) (w : Fin 1) :
    k1_pay9 x3 x5 x6 v17 v19 (ix2 r w) = Ideal.exp (v19 (ix2 r w) - k1_pay8 x3 x5 x6 v17 (ix2 r w)) := rfl

/-- The tile's weights against the new maximum. -/
theorem v1_pay10_apply (v17 : Vec Ideal S64x1 .f32) (p : Fin 32) (r : Fin 64) (w : Fin 1) :
    k1_pay10 x3 x5 x6 v17 (ix3 p r w)
      = Ideal.exp (k1_pay7 x3 x5 x6 (ix3 p r w) - k1_pay8 x3 x5 x6 v17 (ix2 r w)) := by
  unfold k1_pay10
  exact congrArg (fun z => Ideal.exp (k1_pay7 x3 x5 x6 (ix3 p r w) - z))
    ((v1_bcast_1x64x1 _ _ p r w).trans (v1_cast_64x1_lead _ _ 0 r w))

/-- The new normaliser. -/
theorem v1_pay11_apply (v17 v19 v26 : Vec Ideal S64x1 .f32) (r : Fin 64) (w : Fin 1) :
    k1_pay11 x3 x5 x6 v17 v19 v26 (ix2 r w)
      = k1_pay9 x3 x5 x6 v17 v19 (ix2 r w) * v26 (ix2 r w) + ∑ p : Fin 32, k1_pay10 x3 x5 x6 v17 (ix3 p r w) := by
  unfold k1_pay11
  refine (congrFun (shapeCast_self _ _) (ix2 r w)).trans ?_
  exact congrArg (k1_pay9 x3 x5 x6 v17 v19 (ix2 r w) * v26 (ix2 r w) + ·) (v1_sum_pos_col (k1_pay10 x3 x5 x6 v17) _ _ _ r w)

/-- The new weighted sum. -/
theorem v1_pay1_apply (v21 : FVec Ideal S64x1 .f32) (v25 : FVec Ideal S32x64x1 .f32) (v33 : Vec Ideal S64x2048 .f32) (r : Fin 64) (k : Fin 2048) :
    k1_pay1 x5 v21 v25 v33 (ix2 r k)
      = v21 (ix2 r 0) * v33 (ix2 r k) + ∑ p : Fin 32, v25 (ix3 p r 0) * x5 (ix3 p r k) := by
  unfold k1_pay1
  refine (congrFun (shapeCast_self _ _) (ix2 r k)).trans ?_
  refine congrArg₂ (· + ·) (congrArg (· * v33 (ix2 r k)) (v1_bcast_64x1 v21 _ r k)) ?_
  exact (v1_sum_pos_blk _ _ _ _ r k).trans (Finset.sum_congr rfl fun p _ => congrArg (· * x5 (ix3 p r k)) (v1_bcast_32x64x1 v25 _ p r k))

end Pay

/-- The stored maximum is the maximum. -/
theorem v1_pay2_eq (v18 : FVec Ideal S64x1 .f32) : k1_pay2 v18 = v18 := shapeCast_self v18 _

/-- The epilogue's quotient. -/
theorem v1_pay3_apply (v49 : Vec Ideal S64x2048 .f32) (v50 : Vec Ideal S64x1 .f32) (r : Fin 64) (k : Fin 2048) :
    k1_pay3 v49 v50 (ix2 r k) = Ideal.div (v49 (ix2 r k)) (v50 (ix2 r 0)) := by
  unfold k1_pay3
  exact congrArg (Ideal.div (v49 (ix2 r k))) (v1_bcast_64x1 v50 _ r k)

/-- The initial state: the fill value, zero, zero. -/
theorem v1_pay4_apply (r : Fin 64) (w : Fin 1) : k1_pay4 (F := Ideal) (ix2 r w) = Cert.Spec.NEG := by
  unfold k1_pay4
  exact congrFun (shapeCast_self _ _) (ix2 r w)
theorem v1_pay5_apply (r : Fin 64) (w : Fin 1) : k1_pay5 (F := Ideal) (ix2 r w) = 0 := by
  unfold k1_pay5
  exact (congrFun (shapeCast_self _ _) (ix2 r w)).trans Ideal.ofBits_zero_f32
theorem v1_pay6_apply (r : Fin 64) (k : Fin 2048) : k1_pay6 (F := Ideal) (ix2 r k) = 0 := by
  unfold k1_pay6
  exact (congrFun (shapeCast_self _ _) (ix2 r k)).trans Ideal.ofBits_zero_f32

/-! ## One row of the state against the specification's streaming state -/

/-- Row `r` of a state held in the three scratch buffers is the specification's streaming state `st`. -/
def v1_Row (p : Vec Ideal S64x1 .f32 × Vec Ideal S64x1 .f32 × Vec Ideal S64x2048 .f32) (r : Fin 64) (st : Cert.Spec.OnSt) : Prop :=
  p.1 (ix2 r 0) = st.m ∧ p.2.1 (ix2 r 0) = st.l ∧ ∀ k : Fin 2048, p.2.2 (ix2 r k) = st.acc k

/-- The initial state's rows are the specification's initial state. -/
theorem v1_row_init (r : Fin 64) : v1_Row (k1_pay4 (F := Ideal), k1_pay5 (F := Ideal), k1_pay6 (F := Ideal)) r Cert.Spec.onInit :=
  ⟨v1_pay4_apply r 0, v1_pay5_apply r 0, fun k => v1_pay6_apply r k⟩

/-- One update of the state is one step of the specification's, row by row: given that the tile's masked scores
    and source rows on row `r` are the specification's on tile `j`. -/
theorem v1_row_step (x3 : Vec Ideal S64x2048 .f32) (x5 : Vec Ideal S32x64x2048 .f32) (x6 : IVec S32x64x1 32)
    (ms : Fin 512 → EReal) (ew : Fin 512 → Fin 2048 → EReal) (j : Fin 16) (r : Fin 64)
    (hms : ∀ p : Fin 32, k1_pay7 x3 x5 x6 (ix3 p r 0) = ms (Cert.Spec.sidx j p))
    (hew : ∀ (p : Fin 32) (k : Fin 2048), x5 (ix3 p r k) = ew (Cert.Spec.sidx j p) k)
    (p : Vec Ideal S64x1 .f32 × Vec Ideal S64x1 .f32 × Vec Ideal S64x2048 .f32) (st : Cert.Spec.OnSt) (h : v1_Row p r st) :
    v1_Row (k1_pay2 (k1_pay8 x3 x5 x6 p.1), k1_pay11 x3 x5 x6 p.1 p.1 p.2.1,
      k1_pay1 x5 (k1_pay9 x3 x5 x6 p.1 p.1) (k1_pay10 x3 x5 x6 p.1) p.2.2) r (Cert.Spec.onStep ms ew j st) := by
  obtain ⟨hm, hl, ha⟩ := h
  have hmax : k1_pay8 x3 x5 x6 p.1 (ix2 r 0)
      = max st.m ((Finset.univ : Finset (Fin 32)).fold max ⊥ fun t => ms (Cert.Spec.sidx j t)) := by
    rw [v1_pay8_apply, hm]
    exact congrArg (max st.m) (congrArg (Finset.fold max ⊥ · Finset.univ) (funext hms))
  have h9 : k1_pay9 x3 x5 x6 p.1 p.1 (ix2 r 0)
      = Ideal.exp (st.m - max st.m ((Finset.univ : Finset (Fin 32)).fold max ⊥ fun t => ms (Cert.Spec.sidx j t))) := by
    rw [v1_pay9_apply, hm, hmax]
  have h10 : ∀ t : Fin 32, k1_pay10 x3 x5 x6 p.1 (ix3 t r 0)
      = Ideal.exp (ms (Cert.Spec.sidx j t) - max st.m ((Finset.univ : Finset (Fin 32)).fold max ⊥ fun t => ms (Cert.Spec.sidx j t))) :=
    fun t => by rw [v1_pay10_apply, hms, hmax]
  refine ⟨?_, ?_, fun k => ?_⟩
  · show k1_pay2 (k1_pay8 x3 x5 x6 p.1) (ix2 r 0) = _
    rw [v1_pay2_eq, hmax]; rfl
  · show k1_pay11 x3 x5 x6 p.1 p.1 p.2.1 (ix2 r 0) = _
    rw [v1_pay11_apply, h9, hl]
    simp only [h10]; rfl
  · show k1_pay1 x5 (k1_pay9 x3 x5 x6 p.1 p.1) (k1_pay10 x3 x5 x6 p.1) p.2.2 (ix2 r k) = _
    rw [v1_pay1_apply, h9, ha]
    simp only [h10, hew]; rfl

/-! ## The blocks of a point, read off the arrays -/

-- the TensorCore's buffer contents when the region is entered
variable (V : (c : Dev nD) → (b : Ref sig .tc) → Buf (Elt Ideal) ((c : Thread nD τ).loc b))

/-- The three input arrays and the point's three input blocks, at their literal types. -/
abbrev v1_arrH (c : Dev nD) : Vec Ideal S128x2048 .f32 := V c main_v9
abbrev v1_arrE (c : Dev nD) : Vec Ideal S512x128x2048 .f32 := V c main_arg3
abbrev v1_arrM (c : Dev nD) : IVec S512x128x1 32 := V c main_arg4
abbrev v1_blkH (c : Dev nD) (t : Fin cfg1.N) : Vec Ideal S64x2048 .f32 := iblk1 V c 0 t
abbrev v1_blkE (c : Dev nD) (t : Fin cfg1.N) : Vec Ideal S32x64x2048 .f32 := iblk1 V c 1 t
abbrev v1_blkM (c : Dev nD) (t : Fin cfg1.N) : IVec S32x64x1 32 := iblk1 V c 2 t

theorem v1_tlt (t : Fin cfg1.N) : t.val < 32 := lt_of_lt_of_eq t.isLt (show cfg1.N = 32 from N_1)

/-- The point's tile, its batch row for block row `r`, its source position for block position `p`. -/
def v1_tile (t : Fin cfg1.N) : Fin 16 := ⟨t.val % 16, Nat.mod_lt _ (by decide)⟩
def v1_row (t : Fin cfg1.N) (r : Fin 64) : Fin 128 := ⟨64 * (t.val / 16) + r.val, by have := v1_tlt t; have := r.isLt; omega⟩

/-- The printed index maps in closed form over the grid: batch half t / 16, tile t % 16. -/
theorem v1_idx : ∀ t : Fin cfg1.N,
    win1_0.index t (0 : Fin 2) = t.val / 16 ∧ win1_0.index t (1 : Fin 2) = 0
    ∧ win1_1.index t (0 : Fin 3) = t.val % 16 ∧ win1_1.index t (1 : Fin 3) = t.val / 16 ∧ win1_1.index t (2 : Fin 3) = 0
    ∧ win1_2.index t (0 : Fin 3) = t.val % 16 ∧ win1_2.index t (1 : Fin 3) = t.val / 16 ∧ win1_2.index t (2 : Fin 3) = 0
    ∧ win1_3.index t (0 : Fin 2) = t.val / 16 ∧ win1_3.index t (1 : Fin 2) = 0 :=
  (by decide +kernel : ∀ t : Fin grid1.N, _)

theorem v1_blkH_apply (c : Dev nD) (t : Fin cfg1.N) (r : Fin 64) (k : Fin 2048) :
    v1_blkH V c t (ix2 r k) = v1_arrH V c (ix2 (v1_row t r) k) := by
  obtain ⟨e0, e1, -⟩ := v1_idx t
  show V c main_v9 (((cfg1.win 0).blk t).view.emb (ix2 r k)) = V c main_v9 (ix2 (v1_row t r) k)
  refine congrArg (V c main_v9) (funext fun a => Fin.ext ?_)
  match a with
  | ⟨0, _⟩ => show win1_0.index t (0 : Fin 2) * 64 + 1 * r.val = 64 * (t.val / 16) + r.val; omega
  | ⟨1, _⟩ => show win1_0.index t (1 : Fin 2) * 2048 + 1 * k.val = k.val; omega

theorem v1_blkE_apply (c : Dev nD) (t : Fin cfg1.N) (p : Fin 32) (r : Fin 64) (k : Fin 2048) :
    v1_blkE V c t (ix3 p r k) = v1_arrE V c (ix3 (Cert.Spec.sidx (v1_tile t) p) (v1_row t r) k) := by
  obtain ⟨-, -, e0, e1, e2, -⟩ := v1_idx t
  show V c main_arg3 (((cfg1.win 1).blk t).view.emb (ix3 p r k)) = V c main_arg3 (ix3 (Cert.Spec.sidx (v1_tile t) p) (v1_row t r) k)
  refine congrArg (V c main_arg3) (funext fun a => Fin.ext ?_)
  match a with
  | ⟨0, _⟩ => show win1_1.index t (0 : Fin 3) * 32 + 1 * p.val = 32 * (t.val % 16) + p.val; omega
  | ⟨1, _⟩ => show win1_1.index t (1 : Fin 3) * 64 + 1 * r.val = 64 * (t.val / 16) + r.val; omega
  | ⟨2, _⟩ => show win1_1.index t (2 : Fin 3) * 2048 + 1 * k.val = k.val; omega

theorem v1_blkM_apply (c : Dev nD) (t : Fin cfg1.N) (p : Fin 32) (r : Fin 64) (w : Fin 1) :
    v1_blkM V c t (ix3 p r w) = v1_arrM V c (ix3 (Cert.Spec.sidx (v1_tile t) p) (v1_row t r) 0) := by
  obtain ⟨-, -, -, -, -, e0, e1, e2, -⟩ := v1_idx t
  show V c main_arg4 (((cfg1.win 2).blk t).view.emb (ix3 p r w)) = V c main_arg4 (ix3 (Cert.Spec.sidx (v1_tile t) p) (v1_row t r) 0)
  refine congrArg (V c main_arg4) (funext fun a => Fin.ext ?_)
  match a with
  | ⟨0, _⟩ => show win1_2.index t (0 : Fin 3) * 32 + 1 * p.val = 32 * (t.val % 16) + p.val; omega
  | ⟨1, _⟩ => show win1_2.index t (1 : Fin 3) * 64 + 1 * r.val = 64 * (t.val / 16) + r.val; omega
  | ⟨2, _⟩ => show win1_2.index t (2 : Fin 3) * 1 + 1 * w.val = 0; omega

/-! ## The state after each point -/

/-- Batch row `b`'s masked scores and source rows, as the specification takes them. -/
def v1_ms (c : Dev nD) (b : Fin 128) : Fin 512 → EReal := fun s =>
  Cert.Spec.masked (Cert.Spec.score (fun b k => v1_arrH V c (ix2 b k)) (fun s b k => v1_arrE V c (ix3 s b k)))
    (fun s b => v1_arrM V c (ix3 s b 0)) s b
def v1_ew (c : Dev nD) (b : Fin 128) : Fin 512 → Fin 2048 → EReal := fun s k => v1_arrE V c (ix3 s b k)

/-- The point's masked scores on block row `r` are batch row `v1_row t r`'s on the point's tile: the kernel
    multiplies rows · h' where the specification has h' · rows. -/
theorem v1_point_ms (c : Dev nD) (t : Fin cfg1.N) (r : Fin 64) (p : Fin 32) :
    k1_pay7 (v1_blkH V c t) (v1_blkE V c t) (v1_blkM V c t) (ix3 p r 0) = v1_ms V c (v1_row t r) (Cert.Spec.sidx (v1_tile t) p) := by
  rw [v1_pay7_apply, v1_blkM_apply]
  unfold v1_ms Cert.Spec.masked Cert.Spec.score
  refine if_congr Iff.rfl rfl (Finset.sum_congr rfl fun k _ => ?_)
  rw [v1_blkE_apply, v1_blkH_apply, mul_comm]

/-- One point's update is one step of the specification's streaming state, on every block row. -/
theorem v1_point_step (c : Dev nD) (t : Fin cfg1.N) (r : Fin 64)
    (p : Vec Ideal S64x1 .f32 × Vec Ideal S64x1 .f32 × Vec Ideal S64x2048 .f32) (st : Cert.Spec.OnSt) (h : v1_Row p r st) :
    v1_Row (step1 V c t p) r (Cert.Spec.onStep (v1_ms V c (v1_row t r)) (v1_ew V c (v1_row t r)) (v1_tile t) st) := by
  unfold step1
  exact v1_row_step (v1_blkH V c t) (v1_blkE V c t) (v1_blkM V c t) (v1_ms V c (v1_row t r)) (v1_ew V c (v1_row t r)) (v1_tile t) r
    (v1_point_ms V c t r) (fun p k => v1_blkE_apply V c t p r k) p st h

/-- After the point at position `n`, tile `n % 16` of its batch half, every block row of the state is the
    specification's streaming state after `n % 16 + 1` tiles of that batch row. By induction on the position:
    a batch half's first point starts from the initial state, every other from what the point before left, in
    the same batch half. -/
theorem v1_state (c : Dev nD) : ∀ (n : ℕ) (hn : n < cfg1.N) (r : Fin 64),
    v1_Row (st1 V c n hn) r (Cert.Spec.onRun (v1_ms V c (v1_row ⟨n, hn⟩ r)) (v1_ew V c (v1_row ⟨n, hn⟩ r)) (n % 16 + 1))
  | 0, hn, r => by
    have e : Cert.Spec.onRun (v1_ms V c (v1_row ⟨0, hn⟩ r)) (v1_ew V c (v1_row ⟨0, hn⟩ r)) (0 % 16 + 1)
        = Cert.Spec.onStep (v1_ms V c (v1_row ⟨0, hn⟩ r)) (v1_ew V c (v1_row ⟨0, hn⟩ r)) (v1_tile ⟨0, hn⟩) Cert.Spec.onInit := rfl
    rw [e]
    exact v1_point_step V c ⟨0, hn⟩ r _ _ (v1_row_init r)
  | n + 1, hn, r => by
    have hN : n + 1 < 32 := v1_tlt ⟨n + 1, hn⟩
    by_cases h0 : (n + 1) % 16 = 0
    · rw [show st1 V c (n + 1) hn = step1 V c ⟨n + 1, hn⟩ (k1_pay4 (F := Ideal), k1_pay5 (F := Ideal), k1_pay6 (F := Ideal)) from st1_reset V c ⟨n + 1, hn⟩ h0, h0]
      have e : Cert.Spec.onRun (v1_ms V c (v1_row ⟨n + 1, hn⟩ r)) (v1_ew V c (v1_row ⟨n + 1, hn⟩ r)) (0 + 1)
          = Cert.Spec.onStep (v1_ms V c (v1_row ⟨n + 1, hn⟩ r)) (v1_ew V c (v1_row ⟨n + 1, hn⟩ r)) ⟨0, by decide⟩ Cert.Spec.onInit := rfl
      rw [e, show (⟨0, by decide⟩ : Fin 16) = v1_tile ⟨n + 1, hn⟩ from Fin.ext h0.symm]
      exact v1_point_step V c ⟨n + 1, hn⟩ r _ _ (v1_row_init r)
    · have ih := v1_state c n (Nat.lt_of_succ_lt hn) r
      have hrow : v1_row ⟨n, Nat.lt_of_succ_lt hn⟩ r = v1_row ⟨n + 1, hn⟩ r := Fin.ext (by
        show 64 * (n / 16) + r.val = 64 * ((n + 1) / 16) + r.val
        omega)
      have hmod : (n + 1) % 16 = n % 16 + 1 := by omega
      rw [hrow] at ih
      rw [show st1 V c (n + 1) hn = step1 V c ⟨n + 1, hn⟩ (st1 V c n (Nat.lt_of_succ_lt hn)) from st1_step V c ⟨n + 1, hn⟩ h0]
      have e : Cert.Spec.onRun (v1_ms V c (v1_row ⟨n + 1, hn⟩ r)) (v1_ew V c (v1_row ⟨n + 1, hn⟩ r)) ((n + 1) % 16 + 1)
          = Cert.Spec.onStep (v1_ms V c (v1_row ⟨n + 1, hn⟩ r)) (v1_ew V c (v1_row ⟨n + 1, hn⟩ r)) (v1_tile ⟨n + 1, hn⟩)
              (Cert.Spec.onRun (v1_ms V c (v1_row ⟨n + 1, hn⟩ r)) (v1_ew V c (v1_row ⟨n + 1, hn⟩ r)) (n % 16 + 1)) := by
        rw [← hmod]
        exact dif_pos (Nat.mod_lt _ (by decide))
      rw [e]
      exact v1_point_step V c ⟨n + 1, hn⟩ r _ _ ih

/-! ## What the last tile of a batch half writes back, and the array after the run -/

/-- At the last tile of a batch half the stored block is, row by row, the specification's streamed average of
    that batch row: the state is the specification's after all sixteen tiles. -/
theorem v1_content_apply (c : Dev nD) (t : Fin cfg1.N) (ht : t.val % 16 = 15) (r : Fin 64) (k : Fin 2048) :
    content1 V c t (ix2 r k) = attnOut (v1_arrH V c) (v1_arrE V c) (v1_arrM V c) (ix2 (v1_row t r) k) := by
  obtain ⟨hm, hl, ha⟩ := v1_state V c t.val t.isLt r
  rw [ht] at hl ha
  rw [attnOut_apply]
  unfold content1
  rw [v1_pay3_apply, ha, hl]
  rfl

/-- The same with the batch row and column read off the block's place in the array. -/
theorem v1_block_eq (c : Dev nD) (t : Fin cfg1.N) (ht : t.val % 16 = 15) (j : S64x2048.Idx) :
    content1 V c t j = attnOut (v1_arrH V c) (v1_arrE V c) (v1_arrM V c) (((cfg1.win 3).blk t).view.emb j) := by
  obtain ⟨r, k, rfl⟩ : ∃ (r : Fin 64) (k : Fin 2048), j = ix2 r k := ⟨j 0, j 1, eq_ix2 j⟩
  obtain ⟨-, -, -, -, -, -, -, -, e0, e1⟩ := v1_idx t
  refine (v1_content_apply V c t ht r k).trans (congrArg (attnOut (v1_arrH V c) (v1_arrE V c) (v1_arrM V c)) (funext fun a => Fin.ext ?_))
  match a with
  | ⟨0, _⟩ => show 64 * (t.val / 16) + r.val = win1_3.index t (0 : Fin 2) * 64 + 1 * r.val; omega
  | ⟨1, _⟩ => show k.val = win1_3.index t (1 : Fin 2) * 2048 + 1 * k.val; omega

/-- WHAT A FLUSHING POINT WRITES BACK is its block of the streamed average of the arrays as the region finds them. -/
theorem v1_flushed_eq (c : Dev nD) (t : Fin cfg1.N) (hf : (cfg1.win 3).flush t = true) :
    (dat1 V c).flushed 3 t = ((cfg1.win 3).blk t).view.read (Elt Ideal) (attnOut (v1_arrH V c) (v1_arrE V c) (v1_arrM V c)) := by
  have ht : t.val % 16 = 15 := (flush1_3 t).mp hf
  show (cfg1.win 3).cut (grid1.coords t) ((dat1 V c).after 3 t) = _
  rw [after1_3]
  funext j
  exact v1_block_eq V c t ht j

/-- An index of the output array is in point `t`'s block iff each coordinate is in the block's range on its axis. -/
theorem v1_mem_blk (t : Fin cfg1.N) (i : S128x2048.Idx) :
    i ∈ ((cfg1.win 3).blk t).view.set ↔ ∀ a : Fin 2, win1_3.index t a * S64x2048.size a ≤ (i a).val ∧ (i a).val < win1_3.index t a * S64x2048.size a + S64x2048.size a := by
  show i ∈ ((View.whole main_v10).slice (win1_3.rect t)).set ↔ _
  rw [View.set_slice_whole, Rect.mem_set_unit]
  exact Iff.rfl

/-- The two flushing points' blocks cover the array: rows 0–63 by the last tile of the first batch half, rows
    64–127 by the last tile of the second. -/
theorem v1_cover (i : S128x2048.Idx) :
    ∃ t : Fin cfg1.N, (cfg1.win 3).flush t = true ∧ i ∈ ((cfg1.win 3).blk t).view.set := by
  have hi0 : (i 0).val < 128 := (i 0).isLt
  have hi1 : (i 1).val < 2048 := (i 1).isLt
  have hN : cfg1.N = 32 := N_1
  let t : Fin cfg1.N := ⟨16 * ((i 0).val / 64) + 15, by rw [hN]; omega⟩
  have htv : t.val = 16 * ((i 0).val / 64) + 15 := rfl
  obtain ⟨-, -, -, -, -, -, -, -, e0, e1⟩ := v1_idx t
  refine ⟨t, (flush1_3 t).mpr (by rw [htv]; omega), ?_⟩
  rw [v1_mem_blk]
  intro a
  match a with
  | ⟨0, _⟩ => show win1_3.index t (0 : Fin 2) * 64 ≤ (i 0).val ∧ (i 0).val < win1_3.index t (0 : Fin 2) * 64 + 64; omega
  | ⟨1, _⟩ => show win1_3.index t (1 : Fin 2) * 2048 ≤ (i 1).val ∧ (i 1).val < win1_3.index t (1 : Fin 2) * 2048 + 2048; omega

/-- THE OUTPUT ARRAY after all write-backs: the streamed attention average of the hidden state, the source rows and
    the mask as the region finds them. -/
theorem v10_eq (c : Dev nD) : (dat1 V c).arrAt 3 cfg1.N = attnOut (V c main_v9) (V c main_arg3) (V c main_arg4) :=
  (dat1 V c).arrAt_eq_of_cover 3 (attnOut (v1_arrH V c) (v1_arrE V c) (v1_arrM V c)) (fun t hf => v1_flushed_eq V c t hf) (v1_cover)

end Cert.KernelIdeal.Hand

end
-- ==== Proof.V2.lean ====
/-
  The value of the third launch: out = tanh(content · Wc + h' · Wh + b) at the extended reals, where every
  operation is exact. The output's 2048 columns are written in two halves of 1024, one per grid point; the two
  left operands are staged whole at both points, the two weight matrices and the bias by the same column half
  as the output.

  First the body's payload at an index: a contraction over the one shared axis into the zero accumulator is the
  plain sum of products; the bias row, given a unit leading axis and repeated down the 128 rows, reads the bias
  at the column; addition and tanh act entry by entry. Then each window's block as a part of its array (a
  block's coordinate is the block index times the block's extent plus the coordinate inside the block), what a
  grid point writes back as that point's block of ONE function of the arrays, the two halves covering every
  column, and so the whole output array as that function.
-/
import proofs.«424716_j51917564674095_3_alg».proof.Proof.R2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The contraction at an index -/

/-- Row axis of the left operand: it is not contracted, so it carries the result's row. -/
theorem lhs_mm_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
/-- Column axis of the left operand: the one contracted axis, so it carries the summation index. -/
theorem lhs_mm_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
/-- Row axis of the right operand: the one contracted axis, so it carries the summation index. -/
theorem rhs_mm_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
/-- Column axis of the right operand: it is not contracted, so it carries the result's column. -/
theorem rhs_mm_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- A [128, 2048] by [2048, 1024] product into the zero accumulator, at row `p` and column `q`, is the sum over
    the shared axis of the left operand's row `p` times the right operand's column `q`. -/
theorem mm_apply (x : FVec Ideal S128x2048 .f32) (w : FVec Ideal S2048x1024 .f32) (p : Fin 128) (q : Fin 1024) :
    FloatOps.matmul dot_S128x2048_S2048x1024_S128x1024_1_0_0_1_n_n none x w (constant (F := Ideal) S128x1024 .f32 0x00000000#32) (ix2 p q)
      = ∑ k : Fin 2048, x (ix2 p k) * w (ix2 k q) := by
  rw [Ideal.matmul_constant_zero_apply, ← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 p q) ((ValueIdx.contrEquiv1 dot_S128x2048_S2048x1024_S128x1024_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S128x2048_S2048x1024_S128x1024_1_0_0_1_n_n.rhsIdx (ix2 p q) ((ValueIdx.contrEquiv1 dot_S128x2048_S2048x1024_S128x1024_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-! ## The bias row at an index -/

/-- The bias, given a unit leading axis and repeated down the rows, reads at `(p, q)` the bias at `q`. -/
theorem bias_apply (b : FVec Ideal S1024 .f32) (p : Fin 128) (q : Fin 1024) :
    broadcastTo S128x1024 (shapeCast S1x1024 b shapeCasts_S1024_S1x1024) broadcasts_S1x1024_S128x1024 (ix2 p q) = b (ix1 q) :=
  (broadcastTo_1b_ab_apply _ broadcasts_S1x1024_S128x1024 p q).trans (shapeCast_a_1a_apply b shapeCasts_S1024_S1x1024 0 q)

/-! ## The payload at an index -/

/-- What the body stores, at row `p` and column `q` of the block: tanh of the two products' sum plus the bias. -/
theorem pay_apply (x0 x1 : Vec Ideal S128x2048 .f32) (x2 x3 : Vec Ideal S2048x1024 .f32) (x4 : Vec Ideal S1024 .f32)
    (p : Fin 128) (q : Fin 1024) :
    k2_pay1 x0 x1 x2 x3 x4 (ix2 p q)
      = Ideal.tanh (((∑ k : Fin 2048, x0 (ix2 p k) * x2 (ix2 k q)) + ∑ k : Fin 2048, x1 (ix2 p k) * x3 (ix2 k q)) + x4 (ix1 q)) := by
  unfold k2_pay1
  simp only [shapeCast_self]
  show Ideal.tanh ((FloatOps.matmul dot_S128x2048_S2048x1024_S128x1024_1_0_0_1_n_n none x0 x2 (constant (F := Ideal) S128x1024 .f32 0x00000000#32) (ix2 p q)
      + FloatOps.matmul dot_S128x2048_S2048x1024_S128x1024_1_0_0_1_n_n none x1 x3 (constant (F := Ideal) S128x1024 .f32 0x00000000#32) (ix2 p q))
      + broadcastTo S128x1024 (shapeCast S1x1024 x4 shapeCasts_S1024_S1x1024) broadcasts_S1x1024_S128x1024 (ix2 p q)) = _
  rw [mm_apply, mm_apply, bias_apply]

/-! ## The result as one function of the arrays -/

/-- tanh(x · Wc + h · Wh + b), entry by entry: at row `i 0` and column `i 1`, tanh of the sum over the shared axis of
    `x`'s row times `Wc`'s column, plus the same for `h` and `Wh`, plus the bias at the column. -/
def finalOut (x h : Vec Ideal S128x2048 .f32) (wc wh : Vec Ideal S2048x2048 .f32) (b : Vec Ideal S2048 .f32) :
    Vec Ideal S128x2048 .f32 := fun i =>
  Ideal.tanh (((∑ k : Fin 2048, x (ix2 (i 0) k) * wc (ix2 k (i 1)))
      + ∑ k : Fin 2048, h (ix2 (i 0) k) * wh (ix2 k (i 1)))
    + b (ix1 (i 1)))

/-- The same at a row `p` and a column `n` given as numbers below 128 and 2048. -/
theorem finalOut_apply (x h : Vec Ideal S128x2048 .f32) (wc wh : Vec Ideal S2048x2048 .f32) (b : Vec Ideal S2048 .f32)
    (p : Fin 128) (n : Fin 2048) :
    finalOut x h wc wh b (ix2 p n)
      = Ideal.tanh (((∑ k : Fin 2048, x (ix2 p k) * wc (ix2 k n)) + ∑ k : Fin 2048, h (ix2 p k) * wh (ix2 k n)) + b (ix1 n)) := rfl

/-! ## What the body leaves in the output block, at an index -/

theorem zero2 : (![0, 0] : Fin 2 → Nat) = fun _ => 0 := funext fun a => by fin_cases a <;> rfl
theorem zero1 : (![0] : Fin 1 → Nat) = fun _ => 0 := funext fun a => by fin_cases a <;> rfl

/-- The body's one store covers the block and each load reads its whole input, so the block after the body is
    the payload of the five input blocks. -/
theorem out_apply (x0 x1 : Vec Ideal S128x2048 .f32) (x2 x3 : Vec Ideal S2048x1024 .f32) (x4 : Vec Ideal S1024 .f32)
    (p : Fin 128) (q : Fin 1024) :
    out2_5 x0 x1 x2 x3 x4 (ix2 p q)
      = Ideal.tanh (((∑ k : Fin 2048, x0 (ix2 p k) * x2 (ix2 k q)) + ∑ k : Fin 2048, x1 (ix2 p k) * x3 (ix2 k q)) + x4 (ix1 q)) := by
  unfold out2_5
  rw [View.canon_unit_zero zero2]
  simp only [View.ld_unit_zero (S := S128x2048) zero2, View.ld_unit_zero (S := S2048x1024) zero2, View.ld_unit_zero (S := S1024) zero1]
  exact pay_apply x0 x1 x2 x3 x4 p q

/-! ## Each window's block as a part of its array -/

variable (V : (c : Dev nD) → (b : Ref sig .tc) → Buf (Elt Ideal) ((c : Thread nD τ).loc b))

/-- The five arrays the launch reads, and the five blocks of them at a grid point, at their literal types. -/
abbrev arrX (c : Dev nD) : Vec Ideal S128x2048 .f32 := V c main_v10
abbrev arrH (c : Dev nD) : Vec Ideal S128x2048 .f32 := V c main_v9
abbrev arrWc (c : Dev nD) : Vec Ideal S2048x2048 .f32 := V c main_v12
abbrev arrWh (c : Dev nD) : Vec Ideal S2048x2048 .f32 := V c main_v14
abbrev arrB (c : Dev nD) : Vec Ideal S2048 .f32 := V c main_arg11
abbrev blkX (c : Dev nD) (t : Fin cfg2.N) : Vec Ideal S128x2048 .f32 := iblk2 V c 0 t
abbrev blkH (c : Dev nD) (t : Fin cfg2.N) : Vec Ideal S128x2048 .f32 := iblk2 V c 1 t
abbrev blkWc (c : Dev nD) (t : Fin cfg2.N) : Vec Ideal S2048x1024 .f32 := iblk2 V c 2 t
abbrev blkWh (c : Dev nD) (t : Fin cfg2.N) : Vec Ideal S2048x1024 .f32 := iblk2 V c 3 t
abbrev blkB (c : Dev nD) (t : Fin cfg2.N) : Vec Ideal S1024 .f32 := iblk2 V c 4 t

/-- The index maps over the two grid points: the two left operands always sit at block (0, 0); the two weight
    matrices, the bias and the output sit at the column block whose number is the grid point's. -/
theorem block_index : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_4.index t (0 : Fin 1) = t.val
    ∧ win2_5.index t (0 : Fin 2) = 0 ∧ win2_5.index t (1 : Fin 2) = t.val :=
  (by decide +kernel : ∀ t : Fin grid2.N, _)

/-- The first left operand's block is the whole array. -/
theorem blkX_apply (c : Dev nD) (t : Fin cfg2.N) (p : Fin 128) (k : Fin 2048) :
    blkX V c t (ix2 p k) = arrX V c (ix2 p k) := by
  obtain ⟨e0, e1, -⟩ := block_index t
  show V c main_v10 (((cfg2.win 0).blk t).view.emb (ix2 p k)) = V c main_v10 (ix2 p k)
  refine congrArg (V c main_v10) (funext fun a => Fin.ext ?_)
  match a with
  | ⟨0, _⟩ => show win2_0.index t (0 : Fin 2) * 128 + 1 * p.val = p.val; rw [e0]; omega
  | ⟨1, _⟩ => show win2_0.index t (1 : Fin 2) * 2048 + 1 * k.val = k.val; rw [e1]; omega

/-- The second left operand's block is the whole array. -/
theorem blkH_apply (c : Dev nD) (t : Fin cfg2.N) (p : Fin 128) (k : Fin 2048) :
    blkH V c t (ix2 p k) = arrH V c (ix2 p k) := by
  obtain ⟨-, -, e0, e1, -⟩ := block_index t
  show V c main_v9 (((cfg2.win 1).blk t).view.emb (ix2 p k)) = V c main_v9 (ix2 p k)
  refine congrArg (V c main_v9) (funext fun a => Fin.ext ?_)
  match a with
  | ⟨0, _⟩ => show win2_1.index t (0 : Fin 2) * 128 + 1 * p.val = p.val; rw [e0]; omega
  | ⟨1, _⟩ => show win2_1.index t (1 : Fin 2) * 2048 + 1 * k.val = k.val; rw [e1]; omega

/-- The first weight matrix's block at point `t` is its columns `1024 t … 1024 t + 1023`. -/
theorem blkWc_apply (c : Dev nD) (t : Fin cfg2.N) (k : Fin 2048) (q : Fin 1024) (hq : 1024 * t.val + q.val < 2048) :
    blkWc V c t (ix2 k q) = arrWc V c (ix2 k (⟨1024 * t.val + q.val, hq⟩ : Fin 2048)) := by
  obtain ⟨-, -, -, -, e0, e1, -⟩ := block_index t
  show V c main_v12 (((cfg2.win 2).blk t).view.emb (ix2 k q)) = V c main_v12 (ix2 k (⟨1024 * t.val + q.val, hq⟩ : Fin 2048))
  refine congrArg (V c main_v12) (funext fun a => Fin.ext ?_)
  match a with
  | ⟨0, _⟩ => show win2_2.index t (0 : Fin 2) * 2048 + 1 * k.val = k.val; rw [e0]; omega
  | ⟨1, _⟩ => show win2_2.index t (1 : Fin 2) * 1024 + 1 * q.val = 1024 * t.val + q.val; rw [e1]; omega

/-- The second weight matrix's block at point `t` is its columns `1024 t … 1024 t + 1023`. -/
theorem blkWh_apply (c : Dev nD) (t : Fin cfg2.N) (k : Fin 2048) (q : Fin 1024) (hq : 1024 * t.val + q.val < 2048) :
    blkWh V c t (ix2 k q) = arrWh V c (ix2 k (⟨1024 * t.val + q.val, hq⟩ : Fin 2048)) := by
  obtain ⟨-, -, -, -, -, -, e0, e1, -⟩ := block_index t
  show V c main_v14 (((cfg2.win 3).blk t).view.emb (ix2 k q)) = V c main_v14 (ix2 k (⟨1024 * t.val + q.val, hq⟩ : Fin 2048))
  refine congrArg (V c main_v14) (funext fun a => Fin.ext ?_)
  match a with
  | ⟨0, _⟩ => show win2_3.index t (0 : Fin 2) * 2048 + 1 * k.val = k.val; rw [e0]; omega
  | ⟨1, _⟩ => show win2_3.index t (1 : Fin 2) * 1024 + 1 * q.val = 1024 * t.val + q.val; rw [e1]; omega

/-- The bias's block at point `t` is its entries `1024 t … 1024 t + 1023`. -/
theorem blkB_apply (c : Dev nD) (t : Fin cfg2.N) (q : Fin 1024) (hq : 1024 * t.val + q.val < 2048) :
    blkB V c t (ix1 q) = arrB V c (ix1 (⟨1024 * t.val + q.val, hq⟩ : Fin 2048)) := by
  obtain ⟨-, -, -, -, -, -, -, -, e0, -⟩ := block_index t
  show V c main_arg11 (((cfg2.win 4).blk t).view.emb (ix1 q)) = V c main_arg11 (ix1 (⟨1024 * t.val + q.val, hq⟩ : Fin 2048))
  refine congrArg (V c main_arg11) (funext fun a => Fin.ext ?_)
  match a with
  | ⟨0, _⟩ => show win2_4.index t (0 : Fin 1) * 1024 + 1 * q.val = 1024 * t.val + q.val; rw [e0]; omega

/-! ## What a grid point writes back -/

/-- Entry `(p, q)` of the block that point `t` leaves is entry `(p, 1024 t + q)` of the result: the left operands'
    rows are whole, and the weights' columns and the bias's entries are the ones the output's column names. -/
theorem point_eq (c : Dev nD) (t : Fin cfg2.N) (p : Fin 128) (q : Fin 1024) (hq : 1024 * t.val + q.val < 2048) :
    out2_5 (blkX V c t) (blkH V c t) (blkWc V c t) (blkWh V c t) (blkB V c t) (ix2 p q)
      = finalOut (arrX V c) (arrH V c) (arrWc V c) (arrWh V c) (arrB V c) (ix2 p (⟨1024 * t.val + q.val, hq⟩ : Fin 2048)) := by
  refine (out_apply (blkX V c t) (blkH V c t) (blkWc V c t) (blkWh V c t) (blkB V c t) p q).trans ?_
  refine Eq.trans ?_ (finalOut_apply (arrX V c) (arrH V c) (arrWc V c) (arrWh V c) (arrB V c) p ⟨1024 * t.val + q.val, hq⟩).symm
  refine congrArg Ideal.tanh ?_
  refine congrArg₂ (· + ·) (congrArg₂ (· + ·) (Finset.sum_congr rfl fun k _ => ?_) (Finset.sum_congr rfl fun k _ => ?_)) ?_
  · exact congrArg₂ (· * ·) (blkX_apply V c t p k) (blkWc_apply V c t k q hq)
  · exact congrArg₂ (· * ·) (blkH_apply V c t p k) (blkWh_apply V c t k q hq)
  · exact blkB_apply V c t q hq

/-- What point `t` writes back is block `t` of the result. -/
theorem flushed_eq (c : Dev nD) (t : Fin cfg2.N) :
    (dat2 V c).flushed 5 t
      = ((cfg2.win 5).blk t).view.read (Elt Ideal) (finalOut (arrX V c) (arrH V c) (arrWc V c) (arrWh V c) (arrB V c)) := by
  show (cfg2.win 5).cut (grid2.coords t) ((dat2 V c).after 5 t) = _
  rw [after2_5]
  funext j
  have h0 : (j 0).val < 128 := (j 0).isLt
  have h1 : (j 1).val < 1024 := (j 1).isLt
  have ht : t.val < 2 := t.isLt
  have hq : 1024 * t.val + (j 1).val < 2048 := by omega
  obtain ⟨-, -, -, -, -, -, -, -, -, e0, e1⟩ := block_index t
  have ej : (cfg2.win 5).xinj (grid2.coords t) j = ix2 (⟨(j 0).val, h0⟩ : Fin 128) (⟨(j 1).val, h1⟩ : Fin 1024) :=
    funext fun a => by
      match a with
      | ⟨0, _⟩ => rfl
      | ⟨1, _⟩ => rfl
  have ek : ((cfg2.win 5).blk t).view.emb j = ix2 (⟨(j 0).val, h0⟩ : Fin 128) (⟨1024 * t.val + (j 1).val, hq⟩ : Fin 2048) :=
    funext fun a => Fin.ext (by
      match a with
      | ⟨0, _⟩ => show win2_5.index t (0 : Fin 2) * 128 + 1 * (j 0).val = (j 0).val; rw [e0]; omega
      | ⟨1, _⟩ => show win2_5.index t (1 : Fin 2) * 1024 + 1 * (j 1).val = 1024 * t.val + (j 1).val; rw [e1]; omega)
  show out2_5 (blkX V c t) (blkH V c t) (blkWc V c t) (blkWh V c t) (blkB V c t) ((cfg2.win 5).xinj (grid2.coords t) j)
    = finalOut (arrX V c) (arrH V c) (arrWc V c) (arrWh V c) (arrB V c) (((cfg2.win 5).blk t).view.emb j)
  refine ((congrArg (out2_5 (blkX V c t) (blkH V c t) (blkWc V c t) (blkWh V c t) (blkB V c t)) ej).trans ?_).trans
    (congrArg (finalOut (arrX V c) (arrH V c) (arrWc V c) (arrWh V c) (arrB V c)) ek).symm
  exact point_eq V c t ⟨(j 0).val, h0⟩ ⟨(j 1).val, h1⟩ hq

/-! ## The two halves cover every column -/

/-- An index of the output array is in point `t`'s block iff each coordinate is in the block's range on its axis. -/
theorem mem_out_blk (t : Fin cfg2.N) (i : S128x2048.Idx) :
    i ∈ ((cfg2.win 5).blk t).view.set ↔ ∀ a : Fin 2, win2_5.index t a * S128x1024.size a ≤ (i a).val
      ∧ (i a).val < win2_5.index t a * S128x1024.size a + S128x1024.size a := by
  show i ∈ ((View.whole main_v15).slice (win2_5.rect t)).set ↔ _
  rw [View.set_slice_whole, Rect.mem_set_unit]
  exact Iff.rfl

/-- Column `n` is in the half numbered `n / 1024`, and every point writes back. -/
theorem out_cover (i : S128x2048.Idx) :
    ∃ t : Fin cfg2.N, (cfg2.win 5).flush t = true ∧ i ∈ ((cfg2.win 5).blk t).view.set := by
  have hi0 : (i 0).val < 128 := (i 0).isLt
  have hi1 : (i 1).val < 2048 := (i 1).isLt
  have hN : (i 1).val / 1024 < cfg2.N := by show (i 1).val / 1024 < 2; omega
  obtain ⟨-, -, -, -, -, -, -, -, -, e0, e1⟩ := block_index ⟨(i 1).val / 1024, hN⟩
  refine ⟨⟨(i 1).val / 1024, hN⟩, flush2_5 _, ?_⟩
  rw [mem_out_blk]
  intro a
  match a with
  | ⟨0, _⟩ =>
    show win2_5.index ⟨(i 1).val / 1024, hN⟩ (0 : Fin 2) * 128 ≤ (i 0).val
      ∧ (i 0).val < win2_5.index ⟨(i 1).val / 1024, hN⟩ (0 : Fin 2) * 128 + 128
    rw [e0]; omega
  | ⟨1, _⟩ =>
    show win2_5.index ⟨(i 1).val / 1024, hN⟩ (1 : Fin 2) * 1024 ≤ (i 1).val
      ∧ (i 1).val < win2_5.index ⟨(i 1).val / 1024, hN⟩ (1 : Fin 2) * 1024 + 1024
    rw [e1]; show (i 1).val / 1024 * 1024 ≤ (i 1).val ∧ (i 1).val < (i 1).val / 1024 * 1024 + 1024; omega

/-! ## The output array after the launch -/

/-- After the launch the output array holds tanh(content · Wc + h' · Wh + b), entry by entry, of the arrays as
    the launch finds them. -/
theorem v15_eq (c : Dev nD) :
    (dat2 V c).arrAt 5 cfg2.N = finalOut (V c main_v10) (V c main_v9) (V c main_v12) (V c main_v14) (V c main_arg11) :=
  (dat2 V c).arrAt_eq_of_cover 5 (finalOut (arrX V c) (arrH V c) (arrWc V c) (arrWh V c) (arrB V c))
    (fun t _ => flushed_eq V c t) out_cover

end Cert.KernelIdeal.Hand

end
-- ==== Proof.HostReads.lean ====
/-
  What the host operations before and between the kernel's regions leave in their result arrays, read at an index.

  Two transposes of the gate weights, the embedding gather behind its index clamp, and the two halves of the output
  weight, each sliced out along the columns and transposed. A transposed array at (k, n) is the operand at (n, k); a
  column slice starting at column c, at (n, k), is the operand at (n, c + k). Nothing here depends on the contents:
  the statements hold for every valuation of the buffers and every float model.
-/
import proofs.«424716_j51917564674095_3_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- An [a, b] array transposed to [b, a] reads, at (k, n), the operand at (n, k). -/
theorem transpose2_apply {a b : Nat} {α : Type} (x : (⟨2, ![a, b]⟩ : Shape).Idx → α)
    (h : (⟨2, ![a, b]⟩ : Shape).Transposes [1, 0] ⟨2, ![b, a]⟩) (k : Fin b) (n : Fin a) :
    transpose (⟨2, ![b, a]⟩ : Shape) [1, 0] x h (ix2 k n) = x (ix2 n k) :=
  transpose_apply [1, 0] x h (ix2 k n) (ix2 n k) (fun d => match d with
    | ⟨0, _⟩ => rfl
    | ⟨1, _⟩ => rfl)

/-- Columns 0..2047 of a [2048, 4096] array, at (n, k), are the array at (n, k). -/
theorem slice_lo_apply {α : Type} (x : S2048x4096.Idx → α) (h : S2048x4096.Slices ![0, 0] S2048x2048) (n k : Fin 2048) :
    extractStridedSlice S2048x2048 ![0, 0] x h (ix2 n k) = x (ix2 n ⟨k.val, by have := k.isLt; omega⟩) :=
  extractStridedSlice_apply ![0, 0] x h (ix2 n k) (ix2 n ⟨k.val, by have := k.isLt; omega⟩) (fun d => match d with
    | ⟨0, _⟩ => by show n.val = 0 + n.val; omega
    | ⟨1, _⟩ => by show k.val = 0 + k.val; omega)

/-- Columns 2048..4095 of a [2048, 4096] array, at (n, k), are the array at (n, 2048 + k). -/
theorem slice_hi_apply {α : Type} (x : S2048x4096.Idx → α) (h : S2048x4096.Slices ![0, 2048] S2048x2048) (n k : Fin 2048) :
    extractStridedSlice S2048x2048 ![0, 2048] x h (ix2 n k) = x (ix2 n ⟨2048 + k.val, by have := k.isLt; omega⟩) :=
  extractStridedSlice_apply ![0, 2048] x h (ix2 n k) (ix2 n ⟨2048 + k.val, by have := k.isLt; omega⟩) (fun d => match d with
    | ⟨0, _⟩ => by show n.val = 0 + n.val; omega
    | ⟨1, _⟩ => by show 2048 + k.val = 2048 + k.val; rfl)

/-- The first gate weight transposed: entry (k, n) is entry (n, k) of the argument. -/
theorem host0_v7 (W : Valuation τ sig (Elt F)) (k : Fin 2048) (n : Fin 8192) :
    (StableHlo.after hostOps0 W (Proc.devRef .tc main_v7) : S2048x8192.Idx → F .f32) (ix2 k n)
      = (W (Proc.devRef .tc main_arg6) : S8192x2048.Idx → F .f32) (ix2 n k) := by
  have e : (StableHlo.after hostOps0 W (Proc.devRef .tc main_v7) : S2048x8192.Idx → F .f32)
      = transpose S2048x8192 [1, 0] (W (Proc.devRef .tc main_arg6) : S8192x2048.Idx → F .f32)
          transposes_S8192x2048_S2048x8192_1_0 := by
    after_results
  rw [e]
  exact transpose2_apply _ _ k n

/-- The second gate weight transposed: entry (k, n) is entry (n, k) of the argument. -/
theorem host0_v8 (W : Valuation τ sig (Elt F)) (k : Fin 2048) (n : Fin 8192) :
    (StableHlo.after hostOps0 W (Proc.devRef .tc main_v8) : S2048x8192.Idx → F .f32) (ix2 k n)
      = (W (Proc.devRef .tc main_arg7) : S8192x2048.Idx → F .f32) (ix2 n k) := by
  have e : (StableHlo.after hostOps0 W (Proc.devRef .tc main_v8) : S2048x8192.Idx → F .f32)
      = transpose S2048x8192 [1, 0] (W (Proc.devRef .tc main_arg7) : S8192x2048.Idx → F .f32)
          transposes_S8192x2048_S2048x8192_1_0 := by
    after_results
  rw [e]
  exact transpose2_apply _ _ k n

/-- The embedded input word: the gather of the embedding table at the clamped indices (an index below zero has the
    table's row count added), as one term over the arguments. -/
theorem host0_v6 (W : Valuation τ sig (Elt F)) :
    StableHlo.after hostOps0 W (Proc.devRef .tc main_v6)
      = Host.gather gather_S32000x2048_S128x1_S128x2048_1_0_n_n_0_1_12048 (W (Proc.devRef .tc main_arg5))
          (broadcastInDim S128x1 ![0] bcast_S128_S128x1_0
            (select (cmpi .slt (W (Proc.devRef .tc main_arg0)) (broadcastInDim S128 ![] bcast_S_S128 (constantI S_ 32 0#32)))
              (addi (W (Proc.devRef .tc main_arg0)) (broadcastInDim S128 ![] bcast_S_S128 (constantI S_ 32 32000#32)))
              (W (Proc.devRef .tc main_arg0)))) := by
  after_results

/-- The left half of the output weight, transposed: entry (k, n) is entry (n, k) of the argument. -/
theorem host2_v12 (W : Valuation τ sig (Elt F)) (k n : Fin 2048) :
    (StableHlo.after hostOps2 W (Proc.devRef .tc main_v12) : S2048x2048.Idx → F .f32) (ix2 k n)
      = (W (Proc.devRef .tc main_arg10) : S2048x4096.Idx → F .f32) (ix2 n ⟨k.val, by have := k.isLt; omega⟩) := by
  have e : (StableHlo.after hostOps2 W (Proc.devRef .tc main_v12) : S2048x2048.Idx → F .f32)
      = transpose S2048x2048 [1, 0]
          (extractStridedSlice S2048x2048 ![0, 0] (W (Proc.devRef .tc main_arg10) : S2048x4096.Idx → F .f32)
            slices_S2048x4096_S2048x2048_0_0)
          transposes_S2048x2048_S2048x2048_1_0 := by
    after_results
  rw [e]
  exact (transpose2_apply _ _ k n).trans (slice_lo_apply _ _ n k)

/-- The right half of the output weight, transposed: entry (k, n) is entry (n, 2048 + k) of the argument. -/
theorem host2_v14 (W : Valuation τ sig (Elt F)) (k n : Fin 2048) :
    (StableHlo.after hostOps2 W (Proc.devRef .tc main_v14) : S2048x2048.Idx → F .f32) (ix2 k n)
      = (W (Proc.devRef .tc main_arg10) : S2048x4096.Idx → F .f32) (ix2 n ⟨2048 + k.val, by have := k.isLt; omega⟩) := by
  have e : (StableHlo.after hostOps2 W (Proc.devRef .tc main_v14) : S2048x2048.Idx → F .f32)
      = transpose S2048x2048 [1, 0]
          (extractStridedSlice S2048x2048 ![0, 2048] (W (Proc.devRef .tc main_arg10) : S2048x4096.Idx → F .f32)
            slices_S2048x4096_S2048x2048_0_2048)
          transposes_S2048x2048_S2048x2048_1_0 := by
    after_results
  rw [e]
  exact (transpose2_apply _ _ k n).trans (slice_hi_apply _ _ n k)

end Cert.KernelIdeal.Hand

end
-- ==== Proof.Softmax.lean ====
/-
  The streaming softmax equals the textbook softmax, over the extended reals, when every score and
  every source entry is a real number.

  Both sides become quotients of real sums. After j tiles the streaming state is, for SOME real m,
  (m, Σ_{s in the first j tiles} exp(x s - m), Σ_{s in the first j tiles} exp(x s - m) · w s k):
  a step to a new real maximum m' multiplies the old sums by exp(m - m'), which turns each
  exp(x s - m) into exp(x s - m'). A quotient (Σ e_s w_s) / (Σ e_s) with e_s = exp(x s - M) does not
  depend on the real M, since changing M multiplies numerator and denominator by the same positive
  factor. So the streaming maximum never has to be compared with the reference's maximum.
-/
import proofs.«424716_j51917564674095_3_alg».proof.Proof.Spec
import Mathlib.Data.Finset.Fold
import Mathlib.Data.Fintype.BigOperators
import Mathlib.Data.EReal.Operations
import Mathlib.Analysis.SpecialFunctions.Exp
import Mathlib.Tactic.FieldSimp
import Mathlib.Tactic.Ring

noncomputable section

namespace Cert.Spec

open Idealize.ShloMosaic

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fill value is a finite float: its exponent field is not all ones. -/
theorem NEG_real : ∃ r : ℝ, NEG = (r : EReal) := by
  unfold NEG Ideal.ofBits Ideal.ieee
  dsimp only
  rw [if_neg (by simp)]
  split_ifs <;> exact ⟨_, rfl⟩

/-! ## Sums over the first tiles -/

/-- The sum of `f` over tile `j` (zero beyond the sixteenth tile). -/
def tileSum (f : Fin 512 → ℝ) (j : ℕ) : ℝ :=
  if h : j < 16 then ∑ t : Fin 32, f (sidx ⟨j, h⟩ t) else 0

/-- The sum of `f` over the first `n` tiles. -/
def pre (f : Fin 512 → ℝ) (n : ℕ) : ℝ := ∑ j ∈ Finset.range n, tileSum f j

theorem pre_zero (f : Fin 512 → ℝ) : pre f 0 = 0 := by simp [pre]

theorem pre_succ (f : Fin 512 → ℝ) (n : ℕ) (h : n < 16) :
    pre f (n + 1) = pre f n + ∑ t : Fin 32, f (sidx ⟨n, h⟩ t) := by
  rw [pre, Finset.sum_range_succ, tileSum, dif_pos h]; rfl

theorem pre_mul (c : ℝ) (f : Fin 512 → ℝ) (n : ℕ) : c * pre f n = pre (fun s => c * f s) n := by
  unfold pre
  rw [Finset.mul_sum]
  refine Finset.sum_congr rfl fun j _ => ?_
  unfold tileSum
  split_ifs with h
  · rw [Finset.mul_sum]
  · rw [mul_zero]

/-- A position is a tile and a place in the tile. -/
def tileEquiv : Fin 16 × Fin 32 ≃ Fin 512 where
  toFun p := sidx p.1 p.2
  invFun s := (⟨s.val / 32, by have := s.isLt; omega⟩, ⟨s.val % 32, Nat.mod_lt _ (by norm_num)⟩)
  left_inv := by
    rintro ⟨j, t⟩
    have hj := j.isLt
    have ht := t.isLt
    refine Prod.ext (Fin.ext ?_) (Fin.ext ?_)
    · show (32 * j.val + t.val) / 32 = j.val
      omega
    · show (32 * j.val + t.val) % 32 = t.val
      omega
  right_inv := by
    intro s
    refine Fin.ext ?_
    show 32 * (s.val / 32) + s.val % 32 = s.val
    omega

/-- All sixteen tiles together are all 512 positions. -/
theorem pre_sixteen (f : Fin 512 → ℝ) : pre f 16 = ∑ s : Fin 512, f s := by
  rw [pre, Finset.sum_range (fun j => tileSum f j), ← Equiv.sum_comp tileEquiv f, Fintype.sum_prod_type]
  refine Finset.sum_congr rfl fun j _ => ?_
  rw [tileSum, dif_pos j.isLt]
  rfl

/-- Moving the maximum from m to m' rescales the running normaliser. -/
theorem pre_step_l (x : Fin 512 → ℝ) (m m' : ℝ) (j : ℕ) (h : j < 16) :
    Real.exp (m - m') * pre (fun s => Real.exp (x s - m)) j
        + ∑ t : Fin 32, Real.exp (x (sidx ⟨j, h⟩ t) - m')
      = pre (fun s => Real.exp (x s - m')) (j + 1) := by
  rw [pre_succ _ _ h, pre_mul]
  congr 2
  funext s
  rw [← Real.exp_add]
  congr 1
  ring

/-- Moving the maximum from m to m' rescales the running weighted sum. -/
theorem pre_step_acc (x g : Fin 512 → ℝ) (m m' : ℝ) (j : ℕ) (h : j < 16) :
    Real.exp (m - m') * pre (fun s => Real.exp (x s - m) * g s) j
        + ∑ t : Fin 32, Real.exp (x (sidx ⟨j, h⟩ t) - m') * g (sidx ⟨j, h⟩ t)
      = pre (fun s => Real.exp (x s - m') * g s) (j + 1) := by
  rw [pre_succ _ _ h, pre_mul]
  congr 2
  funext s
  rw [← mul_assoc, ← Real.exp_add]
  congr 2
  ring

/-! ## The maxima are real -/

/-- A max-fold from -∞ over finitely many reals stays below +∞. -/
theorem fold_lt_top {ι : Type*} (s : Finset ι) (f : ι → ℝ) :
    s.fold max (⊥ : EReal) (fun i => (f i : EReal)) < ⊤ :=
  (Finset.fold_max_lt _).2 ⟨bot_lt_top, fun i _ => EReal.coe_lt_top _⟩

/-- The max of a real with a max-fold over reals is a real. -/
theorem max_fold_real {ι : Type*} (m : ℝ) (s : Finset ι) (f : ι → ℝ) :
    ∃ m' : ℝ, max (m : EReal) (s.fold max (⊥ : EReal) (fun i => (f i : EReal))) = (m' : EReal) := by
  have h1 : max (m : EReal) (s.fold max (⊥ : EReal) (fun i => (f i : EReal))) ≠ ⊤ :=
    ne_of_lt (max_lt (EReal.coe_lt_top m) (fold_lt_top s f))
  have h2 : max (m : EReal) (s.fold max (⊥ : EReal) (fun i => (f i : EReal))) ≠ ⊥ :=
    ne_of_gt (lt_of_lt_of_le (EReal.bot_lt_coe m) (le_max_left _ _))
  exact ⟨_, (EReal.coe_toReal h1 h2).symm⟩

/-- The reference's column maximum of real scores is a real: at least the first score, below +∞. -/
theorem Mx_real (x : Fin 512 → ℝ) : ∃ M : ℝ, Mx (fun s => (x s : EReal)) = (M : EReal) := by
  unfold Mx
  rw [max_eq_right bot_le]
  have h1 : (Finset.univ : Finset (Fin 512)).fold max (⊥ : EReal) (fun s => (x s : EReal)) ≠ ⊤ :=
    ne_of_lt (fold_lt_top _ x)
  have h2 : (Finset.univ : Finset (Fin 512)).fold max (⊥ : EReal) (fun s => (x s : EReal)) ≠ ⊥ :=
    ne_of_gt (lt_of_lt_of_le (EReal.bot_lt_coe (x 0))
      ((Finset.le_fold_max _).2 (Or.inr ⟨0, Finset.mem_univ _, le_rfl⟩)))
  exact ⟨_, (EReal.coe_toReal h1 h2).symm⟩

/-! ## The streaming state -/

/-- One tile on a real state with a real new maximum: the new state in real terms. -/
theorem step_eq (x : Fin 512 → ℝ) (w : Fin 512 → Fin 2048 → ℝ) (j : Fin 16) (st : OnSt)
    (m l : ℝ) (a : Fin 2048 → ℝ) (m' : ℝ)
    (hm : st.m = (m : EReal)) (hl : st.l = (l : EReal)) (ha : ∀ k, st.acc k = (a k : EReal))
    (hm' : max (m : EReal) ((Finset.univ : Finset (Fin 32)).fold max (⊥ : EReal)
        (fun t => (x (sidx j t) : EReal))) = (m' : EReal)) :
    (onStep (fun s => (x s : EReal)) (fun s k => (w s k : EReal)) j st).m = (m' : EReal)
    ∧ (onStep (fun s => (x s : EReal)) (fun s k => (w s k : EReal)) j st).l
        = ((Real.exp (m - m') * l + ∑ t : Fin 32, Real.exp (x (sidx j t) - m') : ℝ) : EReal)
    ∧ ∀ k, (onStep (fun s => (x s : EReal)) (fun s k => (w s k : EReal)) j st).acc k
        = ((Real.exp (m - m') * a k
            + ∑ t : Fin 32, Real.exp (x (sidx j t) - m') * w (sidx j t) k : ℝ) : EReal) := by
  simp only [onStep, hm, hl, ha, hm']
  refine ⟨trivial, ?_, fun k => ?_⟩
  · rw [EReal.coe_add, EReal.coe_mul, coe_sum]
    simp only [← EReal.coe_sub, Ideal.exp_coe]
  · rw [EReal.coe_add, EReal.coe_mul, coe_sum]
    simp only [← EReal.coe_sub, Ideal.exp_coe, EReal.coe_mul]

/-- After j tiles the state is, for some real m, the sums of exp(x s - m) over those tiles. -/
theorem run_inv (x : Fin 512 → ℝ) (w : Fin 512 → Fin 2048 → ℝ) (j : ℕ) (hj : j ≤ 16) :
    ∃ m : ℝ, (onRun (fun s => (x s : EReal)) (fun s k => (w s k : EReal)) j).m = (m : EReal)
      ∧ (onRun (fun s => (x s : EReal)) (fun s k => (w s k : EReal)) j).l
          = ((pre (fun s => Real.exp (x s - m)) j : ℝ) : EReal)
      ∧ ∀ k, (onRun (fun s => (x s : EReal)) (fun s k => (w s k : EReal)) j).acc k
          = ((pre (fun s => Real.exp (x s - m) * w s k) j : ℝ) : EReal) := by
  induction j with
  | zero =>
    obtain ⟨n, hn⟩ := NEG_real
    refine ⟨n, hn, ?_, fun k => ?_⟩
    · rw [pre_zero]; rfl
    · rw [pre_zero]; rfl
  | succ j ih =>
    have hlt : j < 16 := hj
    obtain ⟨m, hm, hl, hacc⟩ := ih (Nat.le_of_lt hlt)
    obtain ⟨m', hm'⟩ := max_fold_real m Finset.univ (fun t : Fin 32 => x (sidx ⟨j, hlt⟩ t))
    obtain ⟨e1, e2, e3⟩ := step_eq x w ⟨j, hlt⟩ _ m _ _ m' hm hl hacc hm'
    simp only [onRun, dif_pos hlt]
    refine ⟨m', e1, ?_, fun k => ?_⟩
    · rw [e2, pre_step_l x m m' j hlt]
    · rw [e3 k, pre_step_acc x (fun s => w s k) m m' j hlt]

/-! ## The two averages agree -/

/-- The weighted average with weights exp(x s - M) does not depend on the real M. -/
theorem avg_shift (x g : Fin 512 → ℝ) (m M : ℝ) :
    (∑ s, Real.exp (x s - m) * g s) * (1 / ∑ s, Real.exp (x s - m))
      = ∑ s, Real.exp (x s - M) * (1 / ∑ s', Real.exp (x s' - M)) * g s := by
  have hc : ∀ s, Real.exp (x s - M) = Real.exp (m - M) * Real.exp (x s - m) := by
    intro s
    rw [← Real.exp_add]
    congr 1
    ring
  have hL : 0 < ∑ s, Real.exp (x s - m) :=
    Finset.sum_pos (fun s _ => Real.exp_pos _) ⟨0, Finset.mem_univ _⟩
  have hcp : 0 < Real.exp (m - M) := Real.exp_pos _
  simp only [hc]
  rw [← Finset.mul_sum, Finset.sum_mul]
  refine Finset.sum_congr rfl fun s _ => ?_
  field_simp

theorem online_eq (ms : Fin 512 → EReal) (ew : Fin 512 → Fin 2048 → EReal)
    (hms : ∀ s, ∃ r : ℝ, ms s = (r : EReal)) (hew : ∀ s k, ∃ r : ℝ, ew s k = (r : EReal)) (k : Fin 2048) :
    onContent ms ew k = refContent ms ew k := by
  choose x hx using hms
  choose w hw using hew
  obtain rfl : ms = fun s => (x s : EReal) := funext hx
  obtain rfl : ew = fun s k => (w s k : EReal) := funext fun s => funext fun k => hw s k
  obtain ⟨m, -, hl, hacc⟩ := run_inv x w 16 le_rfl
  obtain ⟨M, hM⟩ := Mx_real x
  have hLm : 0 < ∑ s, Real.exp (x s - m) :=
    Finset.sum_pos (fun s _ => Real.exp_pos _) ⟨0, Finset.mem_univ _⟩
  have hLM : 0 < ∑ s, Real.exp (x s - M) :=
    Finset.sum_pos (fun s _ => Real.exp_pos _) ⟨0, Finset.mem_univ _⟩
  unfold onContent refContent
  rw [hl, hacc k, hM, pre_sixteen, pre_sixteen, Ideal.div_coe hLm.ne', ← EReal.coe_mul,
    avg_shift x (fun s => w s k) m M, coe_sum]
  refine Finset.sum_congr rfl fun s _ => ?_
  rw [EReal.coe_mul, EReal.coe_mul, ← Ideal.div_coe hLM.ne', coe_sum]
  rfl

end Cert.Spec

end
-- ==== Proof.Reals.lean ====
/-
  Finiteness of the quantities of the decoder step, and the split of the final contraction.

  The activations tanh and logistic take every extended real, the two infinities included, to a real
  number; so the new hidden state is real whatever the gates and the cell state are, the scores are real
  once the source rows are, and filling masked positions with a real constant keeps them real. The last
  statement says that a sum over 4096 = 2048 + 2048 columns is the sum over the first 2048 plus the sum
  over the last 2048, which holds in any commutative monoid and so needs no finiteness.
-/
import proofs.«424716_j51917564674095_3_alg».proof.Proof.Spec
import Mathlib.Algebra.BigOperators.Fin
import Mathlib.Data.EReal.Basic
import Mathlib.Data.EReal.Operations

noncomputable section

namespace Cert.Spec

open Idealize.ShloMosaic

/-- The coercion ℝ → EReal is additive and sends 0 to 0, so it commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- tanh is -1 at -∞, 1 at +∞ and the real tanh in between: always a real number. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- The logistic function is 0 at -∞, 1 at +∞ and 1 / (1 + e⁻ʳ) in between: always a real number. -/
theorem logistic_real (x : EReal) : ∃ r : ℝ, Ideal.logistic x = (r : EReal) := by
  induction x using EReal.rec with
  | bot => exact ⟨0, by rw [Ideal.logistic_bot, EReal.coe_zero]⟩
  | coe r => exact ⟨(1 + Real.exp (-r))⁻¹, Ideal.logistic_coe r⟩
  | top => exact ⟨1, by rw [Ideal.logistic_top, EReal.coe_one]⟩

/-- The new hidden state is a logistic value times a tanh value: a product of two reals. -/
theorem hnew_real (g : Fin 128 → Fin 8192 → EReal) (cx : Fin 128 → Fin 2048 → EReal) (b : Fin 128) (n : Fin 2048) :
    ∃ r : ℝ, hnew g cx b n = (r : EReal) := by
  obtain ⟨r₁, h₁⟩ := logistic_real (g b (col 3 n))
  obtain ⟨r₂, h₂⟩ := tanh_real
    (Ideal.logistic (g b (col 1 n)) * cx b n + Ideal.logistic (g b (col 0 n)) * Ideal.tanh (g b (col 2 n)))
  exact ⟨r₁ * r₂, by rw [hnew, h₁, h₂, EReal.coe_mul]⟩

/-- A score is a finite sum of products of reals. -/
theorem score_real (h' : Fin 128 → Fin 2048 → EReal) (ew : Fin 512 → Fin 128 → Fin 2048 → EReal)
    (hh : ∀ b k, ∃ r : ℝ, h' b k = (r : EReal)) (hew : ∀ s b k, ∃ r : ℝ, ew s b k = (r : EReal))
    (s : Fin 512) (b : Fin 128) : ∃ r : ℝ, score h' ew s b = (r : EReal) := by
  choose f hf using hh
  choose e he using hew
  refine ⟨∑ k : Fin 2048, f b k * e s b k, ?_⟩
  rw [score, coe_finset_sum]
  refine Finset.sum_congr rfl fun k _ => ?_
  rw [hf, he, EReal.coe_mul]

/-- A masked score is either the fill value or the score itself: real once both are. -/
theorem masked_real (sc : Fin 512 → Fin 128 → EReal) (mask : Fin 512 → Fin 128 → BitVec 32)
    (hN : ∃ r : ℝ, NEG = (r : EReal)) (hsc : ∀ s b, ∃ r : ℝ, sc s b = (r : EReal))
    (s : Fin 512) (b : Fin 128) : ∃ r : ℝ, masked sc mask s b = (r : EReal) := by
  unfold masked
  split_ifs
  · exact hN
  · exact hsc s b

/-- A sum over 4096 columns is the sum over columns 0..2047 plus the sum over columns 2048..4095. -/
theorem sum_split (F : Fin 4096 → EReal) :
    ∑ k : Fin 4096, F k
      = (∑ k : Fin 2048, F ⟨k.val, by have := k.isLt; omega⟩)
        + ∑ k : Fin 2048, F ⟨2048 + k.val, by have := k.isLt; omega⟩ :=
  Fin.sum_univ_add (a := 2048) (b := 2048) F

/-- The contraction of [content, h'] against a row of attn_W splits at column 2048: on the first half the
    concatenation reads the content, on the second half it reads h' at the column minus 2048. -/
theorem outSplit_eq (C h' : Fin 128 → Fin 2048 → EReal) (attnW : Fin 2048 → Fin 4096 → EReal)
    (attnb : Fin 2048 → EReal) (b : Fin 128) (n : Fin 2048) :
    outSplit C h' attnW attnb b n = outCat C h' attnW attnb b n := by
  unfold outSplit outCat
  rw [sum_split]
  refine congrArg Ideal.tanh (congrArg (fun z => z + attnb n) (congrArg₂ (fun y z => y + z) ?_ ?_))
  · refine Finset.sum_congr rfl fun k _ => ?_
    rw [dif_pos k.isLt]
  · refine Finset.sum_congr rfl fun k _ => ?_
    have hk : ¬ (2048 + k.val < 2048) := by omega
    rw [dif_neg hk]
    have hidx : ∀ hlt : 2048 + k.val - 2048 < 2048, (⟨2048 + k.val - 2048, hlt⟩ : Fin 2048) = k :=
      fun _ => Fin.ext (Nat.add_sub_cancel_left (n := 2048) (m := k.val))
    rw [hidx]

end Cert.Spec

end
-- ==== Proof.KVal.lean ====
/-
  The kernel program's result as the specification function of the argument arrays.
  The buffers' contents at the boundaries are walked back to the launch memory: the hidden state is the first
  launch's output, the content the second's over that hidden state, the result the third's over both; the
  transposed weights read at an index are the arguments' entries with the coordinates exchanged. The streamed
  softmax of the second launch equals the textbook one because every score is a finite real (a logistic times a
  tanh is bounded, and the source rows are finite by the precondition), and the two half contractions of the
  third launch are the one contraction over the concatenated columns.
-/
import proofs.«424716_j51917564674095_3_alg».proof.Proof.Run
import proofs.«424716_j51917564674095_3_alg».proof.Proof.V0
import proofs.«424716_j51917564674095_3_alg».proof.Proof.V1
import proofs.«424716_j51917564674095_3_alg».proof.Proof.V2
import proofs.«424716_j51917564674095_3_alg».proof.Proof.HostReads
import proofs.«424716_j51917564674095_3_alg».proof.Proof.Softmax
import proofs.«424716_j51917564674095_3_alg».proof.Proof.Reals

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays at their literal types -/

abbrev aHx (c : Dev nD) : Vec Ideal S128x2048 .f32 := m ((c : Thread nD τ).loc main_arg1)
abbrev aCx (c : Dev nD) : Vec Ideal S128x2048 .f32 := m ((c : Thread nD τ).loc main_arg2)
abbrev aEw (c : Dev nD) : Vec Ideal S512x128x2048 .f32 := m ((c : Thread nD τ).loc main_arg3)
abbrev aMask (c : Dev nD) : IVec S512x128x1 32 := m ((c : Thread nD τ).loc main_arg4)
abbrev aWih (c : Dev nD) : Vec Ideal S8192x2048 .f32 := m ((c : Thread nD τ).loc main_arg6)
abbrev aWhh (c : Dev nD) : Vec Ideal S8192x2048 .f32 := m ((c : Thread nD τ).loc main_arg7)
abbrev aBih (c : Dev nD) : Vec Ideal S8192 .f32 := m ((c : Thread nD τ).loc main_arg8)
abbrev aBhh (c : Dev nD) : Vec Ideal S8192 .f32 := m ((c : Thread nD τ).loc main_arg9)
abbrev aAw (c : Dev nD) : Vec Ideal S2048x4096 .f32 := m ((c : Thread nD τ).loc main_arg10)
abbrev aAb (c : Dev nD) : Vec Ideal S2048 .f32 := m ((c : Thread nD τ).loc main_arg11)
/-- The embedded input word: the gathered rows of the embedding table, as the host lines before the first launch leave them. -/
abbrev aX (c : Dev nD) : Vec Ideal S128x2048 .f32 := W1 m ρ c (Proc.devRef .tc main_v6)

/-! ## The boundaries walked back -/

theorem W1_of (c : Dev nD) (b : Ref sig .tc) (h0 : b ∉ hostOps0_W) :
    W1 m ρ c (Proc.devRef .tc b) = m ((c : Thread nD τ).loc b) :=
  StableHlo.after_of_writes_sub hostOps0 _ hostOps0_writes h0
theorem W2_of (c : Dev nD) (b : Ref sig .tc) (h9 : b ≠ main_v9) (h0 : b ∉ hostOps0_W) :
    W2 m ρ c (Proc.devRef .tc b) = m ((c : Thread nD τ).loc b) :=
  (W2_keep m ρ c b h9).trans (W1_of m ρ c b h0)
theorem W3_of (c : Dev nD) (b : Ref sig .tc) (h9 : b ≠ main_v9) (h10 : b ≠ main_v10) (h0 : b ∉ hostOps0_W) :
    W3 m ρ c (Proc.devRef .tc b) = m ((c : Thread nD τ).loc b) :=
  (W3_keep m ρ c b h10).trans (W2_of m ρ c b h9 h0)
theorem W4_of (c : Dev nD) (b : Ref sig .tc) (h2 : b ∉ hostOps2_W) :
    W4 m ρ c (Proc.devRef .tc b) = W3 m ρ c (Proc.devRef .tc b) :=
  StableHlo.after_of_writes_sub hostOps2 _ hostOps2_writes h2

/-- The hidden state h' as a whole array. -/
def Hk (c : Dev nD) : Vec Ideal S128x2048 .f32 :=
  lstmOut (aX m ρ c) (aHx m c) (aCx m c) (V1 m ρ c main_v7) (V1 m ρ c main_v8) (aBih m c) (aBhh m c)

theorem W2_v9_eq (c : Dev nD) : (W2 m ρ c (Proc.devRef .tc main_v9) : Vec Ideal S128x2048 .f32) = Hk m ρ c := by
  have h := (W2_arr m ρ c 7).trans (v9_eq (V1 m ρ) c)
  refine h.trans ?_
  unfold Hk
  rw [show (V1 m ρ c main_arg1 : Vec Ideal S128x2048 .f32) = aHx m c from W1_of m ρ c main_arg1 (by decide),
    show (V1 m ρ c main_arg2 : Vec Ideal S128x2048 .f32) = aCx m c from W1_of m ρ c main_arg2 (by decide),
    show (V1 m ρ c main_arg8 : Vec Ideal S8192 .f32) = aBih m c from W1_of m ρ c main_arg8 (by decide),
    show (V1 m ρ c main_arg9 : Vec Ideal S8192 .f32) = aBhh m c from W1_of m ρ c main_arg9 (by decide)]

/-- h' at an index is the specification's hidden state over the argument arrays. -/
theorem Hk_apply (c : Dev nD) (b : Fin 128) (k : Fin 2048) :
    Hk m ρ c (ix2 b k)
      = Cert.Spec.hnew (Cert.Spec.gate (fun b k => aX m ρ c (ix2 b k)) (fun b k => aHx m c (ix2 b k)) (fun n k => aWih m c (ix2 n k))
          (fun n k => aWhh m c (ix2 n k)) (fun n => aBih m c (ix1 n)) (fun n => aBhh m c (ix1 n))) (fun b k => aCx m c (ix2 b k)) b k := by
  unfold Hk
  rw [lstmOut_apply]
  have e7 : (fun (n : Fin 8192) (k : Fin 2048) => (V1 m ρ c main_v7 : Vec Ideal S2048x8192 .f32) (ix2 k n)) = fun n k => aWih m c (ix2 n k) :=
    funext fun n => funext fun k => host0_v7 (W0 m ρ c) k n
  have e8 : (fun (n : Fin 8192) (k : Fin 2048) => (V1 m ρ c main_v8 : Vec Ideal S2048x8192 .f32) (ix2 k n)) = fun n k => aWhh m c (ix2 n k) :=
    funext fun n => funext fun k => host0_v8 (W0 m ρ c) k n
  rw [e7, e8]

/-- The content as a whole array: the second launch's output over the hidden state, the source rows and the mask. -/
theorem W3_v10_eq (c : Dev nD) :
    (W3 m ρ c (Proc.devRef .tc main_v10) : Vec Ideal S128x2048 .f32) = attnOut (Hk m ρ c) (aEw m c) (aMask m c) := by
  have h := (W3_arr m ρ c 3).trans (v10_eq (V2 m ρ) c)
  refine h.trans ?_
  rw [show (V2 m ρ c main_v9 : Vec Ideal S128x2048 .f32) = Hk m ρ c from W2_v9_eq m ρ c,
    show (V2 m ρ c main_arg3 : Vec Ideal S512x128x2048 .f32) = aEw m c from W2_of m ρ c main_arg3 (by decide) (by decide),
    show (V2 m ρ c main_arg4 : IVec S512x128x1 32) = aMask m c from W2_of m ρ c main_arg4 (by decide) (by decide)]

/-- Every masked score is a finite real when the source rows are. -/
theorem ms_real (c : Dev nD) (hew : ∀ i, ∃ r : ℝ, aEw m c i = (r : EReal)) (b : Fin 128) (s : Fin 512) :
    ∃ r : ℝ, Cert.Spec.masked (Cert.Spec.score (fun b k => Hk m ρ c (ix2 b k)) (fun s b k => aEw m c (ix3 s b k)))
      (fun s b => aMask m c (ix3 s b 0)) s b = (r : EReal) :=
  Cert.Spec.masked_real _ _ Cert.Spec.NEG_real
    (fun s b => Cert.Spec.score_real _ _ (fun b k => by rw [Hk_apply]; exact Cert.Spec.hnew_real _ _ b k) (fun s b k => hew _) s b) s b

/-- THE KERNEL'S VALUE: the third launch's output array is the specification function of the argument arrays. -/
theorem kval (c : Dev nD) (hew : ∀ i, ∃ r : ℝ, aEw m c i = (r : EReal)) :
    (dat2 (V4 m ρ) c).arrAt 5 cfg2.N
      = Cert.Spec.G (aX m ρ c) (aHx m c) (aCx m c) (aEw m c) (aMask m c) (aWih m c) (aWhh m c) (aBih m c) (aBhh m c) (aAw m c) (aAb m c) := by
  rw [v15_eq]
  have e10 : (V4 m ρ c main_v10 : Vec Ideal S128x2048 .f32) = attnOut (Hk m ρ c) (aEw m c) (aMask m c) :=
    (W4_of m ρ c main_v10 (by decide)).trans (W3_v10_eq m ρ c)
  have e9 : (V4 m ρ c main_v9 : Vec Ideal S128x2048 .f32) = Hk m ρ c :=
    (W4_of m ρ c main_v9 (by decide)).trans ((W3_keep m ρ c main_v9 (by decide)).trans (W2_v9_eq m ρ c))
  have e11 : (V4 m ρ c main_arg11 : Vec Ideal S2048 .f32) = aAb m c :=
    (W4_of m ρ c main_arg11 (by decide)).trans (W3_of m ρ c main_arg11 (by decide) (by decide) (by decide))
  have eAw : (W3 m ρ c (Proc.devRef .tc main_arg10) : Vec Ideal S2048x4096 .f32) = aAw m c :=
    W3_of m ρ c main_arg10 (by decide) (by decide) (by decide)
  have e12 : ∀ k n : Fin 2048, (V4 m ρ c main_v12 : Vec Ideal S2048x2048 .f32) (ix2 k n) = aAw m c (ix2 n ⟨k.val, by have := k.isLt; omega⟩) :=
    fun k n => (host2_v12 (W3 m ρ c) k n).trans (congrFun eAw _)
  have e14 : ∀ k n : Fin 2048, (V4 m ρ c main_v14 : Vec Ideal S2048x2048 .f32) (ix2 k n) = aAw m c (ix2 n ⟨2048 + k.val, by have := k.isLt; omega⟩) :=
    fun k n => (host2_v14 (W3 m ρ c) k n).trans (congrFun eAw _)
  rw [e10, e9, e11]
  funext i
  obtain ⟨p, n, rfl⟩ : ∃ (p : Fin 128) (n : Fin 2048), i = ix2 p n := ⟨i 0, i 1, eq_ix2 i⟩
  rw [finalOut_apply]
  simp only [e12, e14, attnOut_apply, Hk_apply]
  unfold Cert.Spec.G
  dsimp only
  rw [show (ix2 p n : (⟨2, ![128, 2048]⟩ : Shape).Idx) 0 = p from rfl, show (ix2 p n : (⟨2, ![128, 2048]⟩ : Shape).Idx) 1 = n from rfl]
  rw [← Cert.Spec.outSplit_eq]
  unfold Cert.Spec.outSplit
  congr 2
  congr 1
  refine Finset.sum_congr rfl fun k _ => ?_
  congr 1
  exact Cert.Spec.online_eq _ _ (fun s => by
      have := ms_real m ρ c hew p s
      simpa only [Hk_apply] using this) (fun s k => hew _) k

end Cert.KernelIdeal.Hand

end
-- ==== Proof.RefRun.lean ====
/-
  The reference program's run, read back at the stage functions.

  The program is a straight line of 92 host operations. What a buffer holds after the line is the fold of
  the operations' results over the launch contents. The line is cut before its one concatenate: the first
  85 operations end with the attention content (`main_v67`) and have already produced the new hidden state
  (`main_v45`); neither reads a concatenate, so each is, by unfolding the fold, the stage function of the
  arguments. The last seven operations (concatenate, transpose, contraction, two broadcasts of the bias, add,
  tanh) are then read over an arbitrary valuation that holds those two stages and the two last arguments,
  where the concatenate's operands are plain buffer contents.
-/
import proofs.«424716_j51917564674095_3_alg».proof.Proof.RefRunP
import proofs.«424716_j51917564674095_3_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 85 operations: everything up to the attention content `main_v67`, before the concatenate. -/
def opsA : List (HloOp τ sig (Elt F)) :=
  [ nullary main_c (constantI S_ 32 0#32),
    unary main_c main_v0 (broadcastInDim S128 ![] bcast_S_S128 : (⟨S_, .i32⟩ : BufTy).Contents (Elt F) → (⟨S128, .i32⟩ : BufTy).Contents (Elt F)),
    binary main_arg0 main_v0 main_v1 (cmpi .slt : (⟨S128, .i32⟩ : BufTy).Contents (Elt F) → (⟨S128, .i32⟩ : BufTy).Contents (Elt F) → (⟨S128, .i1⟩ : BufTy).Contents (Elt F)),
    nullary main_c_0 (constantI S_ 32 32000#32),
    unary main_c_0 main_v2 (broadcastInDim S128 ![] bcast_S_S128 : (⟨S_, .i32⟩ : BufTy).Contents (Elt F) → (⟨S128, .i32⟩ : BufTy).Contents (Elt F)),
    binary main_arg0 main_v2 main_v3 (addi : (⟨S128, .i32⟩ : BufTy).Contents (Elt F) → (⟨S128, .i32⟩ : BufTy).Contents (Elt F) → (⟨S128, .i32⟩ : BufTy).Contents (Elt F)),
    ternary main_v1 main_v3 main_arg0 main_v4 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v4 main_v5 (broadcastInDim S128x1 ![0] bcast_S128_S128x1_0 : (⟨S128, .i32⟩ : BufTy).Contents (Elt F) → (⟨S128x1, .i32⟩ : BufTy).Contents (Elt F)),
    binary main_arg5 main_v5 main_v6 ((fun x i => Host.gather gather_S32000x2048_S128x1_S128x2048_1_0_n_n_0_1_12048 x i) : (⟨S32000x2048, .f32⟩ : BufTy).Contents (Elt F) → (⟨S128x1, .i32⟩ : BufTy).Contents (Elt F) → (⟨S128x2048, .f32⟩ : BufTy).Contents (Elt F)),
    unary main_arg6 main_v7 ((transpose S2048x8192 [1, 0] · transposes_S8192x2048_S2048x8192_1_0) : (⟨S8192x2048, .f32⟩ : BufTy).Contents (Elt F) → (⟨S2048x8192, .f32⟩ : BufTy).Contents (Elt F)),
    binary main_v6 main_v7 main_v8 ((fun l r => Host.dotGeneral dot_S128x2048_S2048x8192_S128x8192_1_0_0_1_n_n none l r) : (⟨S128x2048, .f32⟩ : BufTy).Contents (Elt F) → (⟨S2048x8192, .f32⟩ : BufTy).Contents (Elt F) → (⟨S128x8192, .f32⟩ : BufTy).Contents (Elt F)),
    unary main_arg8 main_v9 (broadcastInDim S1x8192 ![1] bcast_S8192_S1x8192_1 : (⟨S8192, .f32⟩ : BufTy).Contents (Elt F) → (⟨S1x8192, .f32⟩ : BufTy).Contents (Elt F)),
    unary main_v9 main_v10 (broadcastInDim S128x8192 ![0, 1] bcast_S1x8192_S128x8192_0_1 : (⟨S1x8192, .f32⟩ : BufTy).Contents (Elt F) → (⟨S128x8192, .f32⟩ : BufTy).Contents (Elt F)),
    binary main_v8 main_v10 main_v11 (addf : (⟨S128x8192, .f32⟩ : BufTy).Contents (Elt F) → (⟨S128x8192, .f32⟩ : BufTy).Contents (Elt F) → (⟨S128x8192, .f32⟩ : BufTy).Contents (Elt F)),
    unary main_arg7 main_v12 ((transpose S2048x8192 [1, 0] · transposes_S8192x2048_S2048x8192_1_0) : (⟨S8192x2048, .f32⟩ : BufTy).Contents (Elt F) → (⟨S2048x8192, .f32⟩ : BufTy).Contents (Elt F)),
    binary main_arg1 main_v12 main_v13 ((fun l r => Host.dotGeneral dot_S128x2048_S2048x8192_S128x8192_1_0_0_1_n_n none l r) : (⟨S128x2048, .f32⟩ : BufTy).Contents (Elt F) → (⟨S2048x8192, .f32⟩ : BufTy).Contents (Elt F) → (⟨S128x8192, .f32⟩ : BufTy).Contents (Elt F)),
    binary main_v11 main_v13 main_v14 (addf : (⟨S128x8192, .f32⟩ : BufTy).Contents (Elt F) → (⟨S128x8192, .f32⟩ : BufTy).Contents (Elt F) → (⟨S128x8192, .f32⟩ : BufTy).Contents (Elt F)),
    unary main_arg9 main_v15 (broadcastInDim S1x8192 ![1] bcast_S8192_S1x8192_1 : (⟨S8192, .f32⟩ : BufTy).Contents (Elt F) → (⟨S1x8192, .f32⟩ : BufTy).Contents (Elt F)),
    unary main_v15 main_v16 (broadcastInDim S128x8192 ![0, 1] bcast_S1x8192_S128x8192_0_1 : (⟨S1x8192, .f32⟩ : BufTy).Contents (Elt F) → (⟨S128x8192, .f32⟩ : BufTy).Contents (Elt F)),
    binary main_v14 main_v16 main_v17 (addf : (⟨S128x8192, .f32⟩ : BufTy).Contents (Elt F) → (⟨S128x8192, .f32⟩ : BufTy).Contents (Elt F) → (⟨S128x8192, .f32⟩ : BufTy).Contents (Elt F)),
    unary main_v17 main_v18 ((extractStridedSlice S128x2048 ![0, 0] · slices_S128x8192_S128x2048_0_0) : (⟨S128x8192, .f32⟩ : BufTy).Contents (Elt F) → (⟨S128x2048, .f32⟩ : BufTy).Contents (Elt F)),
    unary main_v17 main_v19 ((extractStridedSlice S128x2048 ![0, 2048] · slices_S128x8192_S128x2048_0_2048) : (⟨S128x8192, .f32⟩ : BufTy).Contents (Elt F) → (⟨S128x2048, .f32⟩ : BufTy).Contents (Elt F)),
    unary main_v17 main_v20 ((extractStridedSlice S128x2048 ![0, 4096] · slices_S128x8192_S128x2048_0_4096) : (⟨S128x8192, .f32⟩ : BufTy).Contents (Elt F) → (⟨S128x2048, .f32⟩ : BufTy).Contents (Elt F)),
    unary main_v17 main_v21 ((extractStridedSlice S128x2048 ![0, 6144] · slices_S128x8192_S128x2048_0_6144) : (⟨S128x8192, .f32⟩ : BufTy).Contents (Elt F) → (⟨S128x2048, .f32⟩ : BufTy).Contents (Elt F)),
    unary main_v18 main_v22 (Host.negf : (⟨S128x2048, .f32⟩ : BufTy).Contents (Elt F) → (⟨S128x2048, .f32⟩ : BufTy).Contents (Elt F)),
    unary main_v22 main_v23 (Host.exp : (⟨S128x2048, .f32⟩ : BufTy).Contents (Elt F) → (⟨S128x2048, .f32⟩ : BufTy).Contents (Elt F)),
    nullary main_cst (constant S_ .f32 0x3F800000#32),
    unary main_cst main_v24 (broadcastInDim S128x2048 ![] bcast_S_S128x2048 : (⟨S_, .f32⟩ : BufTy).Contents (Elt F) → (⟨S128x2048, .f32⟩ : BufTy).Contents (Elt F)),
    binary main_v24 main_v23 main_v25 (addf : (⟨S128x2048, .f32⟩ : BufTy).Contents (Elt F) → (⟨S128x2048, .f32⟩ : BufTy).Contents (Elt F) → (⟨S128x2048, .f32⟩ : BufTy).Contents (Elt F)),
    nullary main_cst_1 (constant S_ .f32 0x3F800000#32),
    unary main_cst_1 main_v26 (broadcastInDim S128x2048 ![] bcast_S_S128x2048 : (⟨S_, .f32⟩ : BufTy).Contents (Elt F) → (⟨S128x2048, .f32⟩ : BufTy).Contents (Elt F)),
    binary main_v26 main_v25 main_v27 (Host.divf : (⟨S128x2048, .f32⟩ : BufTy).Contents (Elt F) → (⟨S128x2048, .f32⟩ : BufTy).Contents (Elt F) → (⟨S128x2048, .f32⟩ : BufTy).Contents (Elt F)),
    unary main_v19 main_v28 (Host.negf : (⟨S128x2048, .f32⟩ : BufTy).Contents (Elt F) → (⟨S128x2048, .f32⟩ : BufTy).Contents (Elt F)),
    unary main_v28 main_v29 (Host.exp : (⟨S128x2048, .f32⟩ : BufTy).Contents (Elt F) → (⟨S128x2048, .f32⟩ : BufTy).Contents (Elt F)),
    nullary main_cst_2 (constant S_ .f32 0x3F800000#32),
    unary main_cst_2 main_v30 (broadcastInDim S128x2048 ![] bcast_S_S128x2048 : (⟨S_, .f32⟩ : BufTy).Contents (Elt F) → (⟨S128x2048, .f32⟩ : BufTy).Contents (Elt F)),
    binary main_v30 main_v29 main_v31 (addf : (⟨S128x2048, .f32⟩ : BufTy).Contents (Elt F) → (⟨S128x2048, .f32⟩ : BufTy).Contents (Elt F) → (⟨S128x2048, .f32⟩ : BufTy).Contents (Elt F)),
    nullary main_cst_3 (constant S_ .f32 0x3F800000#32),
    unary main_cst_3 main_v32 (broadcastInDim S128x2048 ![] bcast_S_S128x2048 : (⟨S_, .f32⟩ : BufTy).Contents (Elt F) → (⟨S128x2048, .f32⟩ : BufTy).Contents (Elt F)),
    binary main_v32 main_v31 main_v33 (Host.divf : (⟨S128x2048, .f32⟩ : BufTy).Contents (Elt F) → (⟨S128x2048, .f32⟩ : BufTy).Contents (Elt F) → (⟨S128x2048, .f32⟩ : BufTy).Contents (Elt F)),
    unary main_v21 main_v34 (Host.negf : (⟨S128x2048, .f32⟩ : BufTy).Contents (Elt F) → (⟨S128x2048, .f32⟩ : BufTy).Contents (Elt F)),
    unary main_v34 main_v35 (Host.exp : (⟨S128x2048, .f32⟩ : BufTy).Contents (Elt F) → (⟨S128x2048, .f32⟩ : BufTy).Contents (Elt F)),
    nullary main_cst_4 (constant S_ .f32 0x3F800000#32),
    unary main_cst_4 main_v36 (broadcastInDim S128x2048 ![] bcast_S_S128x2048 : (⟨S_, .f32⟩ : BufTy).Contents (Elt F) → (⟨S128x2048, .f32⟩ : BufTy).Contents (Elt F)),
    binary main_v36 main_v35 main_v37 (addf : (⟨S128x2048, .f32⟩ : BufTy).Contents (Elt F) → (⟨S128x2048, .f32⟩ : BufTy).Contents (Elt F) → (⟨S128x2048, .f32⟩ : BufTy).Contents (Elt F)),
    nullary main_cst_5 (constant S_ .f32 0x3F800000#32),
    unary main_cst_5 main_v38 (broadcastInDim S128x2048 ![] bcast_S_S128x2048 : (⟨S_, .f32⟩ : BufTy).Contents (Elt F) → (⟨S128x2048, .f32⟩ : BufTy).Contents (Elt F)),
    binary main_v38 main_v37 main_v39 (Host.divf : (⟨S128x2048, .f32⟩ : BufTy).Contents (Elt F) → (⟨S128x2048, .f32⟩ : BufTy).Contents (Elt F) → (⟨S128x2048, .f32⟩ : BufTy).Contents (Elt F)),
    unary main_v20 main_v40 (Host.tanh : (⟨S128x2048, .f32⟩ : BufTy).Contents (Elt F) → (⟨S128x2048, .f32⟩ : BufTy).Contents (Elt F)),
    binary main_v33 main_arg2 main_v41 (mulf : (⟨S128x2048, .f32⟩ : BufTy).Contents (Elt F) → (⟨S128x2048, .f32⟩ : BufTy).Contents (Elt F) → (⟨S128x2048, .f32⟩ : BufTy).Contents (Elt F)),
    binary main_v27 main_v40 main_v42 (mulf : (⟨S128x2048, .f32⟩ : BufTy).Contents (Elt F) → (⟨S128x2048, .f32⟩ : BufTy).Contents (Elt F) → (⟨S128x2048, .f32⟩ : BufTy).Contents (Elt F)),
    binary main_v41 main_v42 main_v43 (addf : (⟨S128x2048, .f32⟩ : BufTy).Contents (Elt F) → (⟨S128x2048, .f32⟩ : BufTy).Contents (Elt F) → (⟨S128x2048, .f32⟩ : BufTy).Contents (Elt F)),
    unary main_v43 main_v44 (Host.tanh : (⟨S128x2048, .f32⟩ : BufTy).Contents (Elt F) → (⟨S128x2048, .f32⟩ : BufTy).Contents (Elt F)),
    binary main_v39 main_v44 main_v45 (mulf : (⟨S128x2048, .f32⟩ : BufTy).Contents (Elt F) → (⟨S128x2048, .f32⟩ : BufTy).Contents (Elt F) → (⟨S128x2048, .f32⟩ : BufTy).Contents (Elt F)),
    unary main_v45 main_v46 (broadcastInDim S1x128x2048 ![1, 2] bcast_S128x2048_S1x128x2048_1_2 : (⟨S128x2048, .f32⟩ : BufTy).Contents (Elt F) → (⟨S1x128x2048, .f32⟩ : BufTy).Contents (Elt F)),
    unary main_v46 main_v47 (broadcastInDim S512x128x2048 ![0, 1, 2] bcast_S1x128x2048_S512x128x2048_0_1_2 : (⟨S1x128x2048, .f32⟩ : BufTy).Contents (Elt F) → (⟨S512x128x2048, .f32⟩ : BufTy).Contents (Elt F)),
    binary main_v47 main_arg3 main_v48 (mulf : (⟨S512x128x2048, .f32⟩ : BufTy).Contents (Elt F) → (⟨S512x128x2048, .f32⟩ : BufTy).Contents (Elt F) → (⟨S512x128x2048, .f32⟩ : BufTy).Contents (Elt F)),
    nullary main_cst_6 (constant S_ .f32 0x00000000#32),
    binary main_v48 main_cst_6 main_v49 ((fun x v => Host.reduceAdd x v reducesTo_S512x128x2048_S512x128_d2 h_S_) : (⟨S512x128x2048, .f32⟩ : BufTy).Contents (Elt F) → (⟨S_, .f32⟩ : BufTy).Contents (Elt F) → (⟨S512x128, .f32⟩ : BufTy).Contents (Elt F)),
    unary main_v49 main_v50 (broadcastInDim S512x128x1 ![0, 1] bcast_S512x128_S512x128x1_0_1 : (⟨S512x128, .f32⟩ : BufTy).Contents (Elt F) → (⟨S512x128x1, .f32⟩ : BufTy).Contents (Elt F)),
    nullary main_c_7 (constantI S_ 32 0#32),
    unary main_c_7 main_v51 (broadcastInDim S512x128x1 ![] bcast_S_S512x128x1 : (⟨S_, .i32⟩ : BufTy).Contents (Elt F) → (⟨S512x128x1, .i32⟩ : BufTy).Contents (Elt F)),
    binary main_arg4 main_v51 main_v52 (cmpi .eq : (⟨S512x128x1, .i32⟩ : BufTy).Contents (Elt F) → (⟨S512x128x1, .i32⟩ : BufTy).Contents (Elt F) → (⟨S512x128x1, .i1⟩ : BufTy).Contents (Elt F)),
    nullary main_cst_8 (constant S_ .f32 0xCE6E6B28#32),
    TRef.unary (TRef.of (T := ⟨S_, .f32⟩) main_cst_8) (TRef.of (T := ⟨S_, .f32⟩) main_call0_v0) id,
    TRef.unary (TRef.of (T := ⟨S_, .f32⟩) main_call0_v0) (TRef.of (T := ⟨S512x128x1, .f32⟩) main_call0_v1) (broadcastInDim S512x128x1 ![] bcast_S_S512x128x1),
    TRef.ternary (TRef.of (T := ⟨S512x128x1, .i1⟩) main_v52) (TRef.of (T := ⟨S512x128x1, .f32⟩) main_call0_v1) (TRef.of (T := ⟨S512x128x1, .f32⟩) main_v50) (TRef.of (T := ⟨S512x128x1, .f32⟩) main_v53) select,
    nullary main_cst_9 (constant S_ .f32 0xFF800000#32),
    binary main_v53 main_cst_9 main_v54 ((fun x v => Host.reduce FloatOps.maximumf x v reducesTo_S512x128x1_S128x1_d0 h_S_) : (⟨S512x128x1, .f32⟩ : BufTy).Contents (Elt F) → (⟨S_, .f32⟩ : BufTy).Contents (Elt F) → (⟨S128x1, .f32⟩ : BufTy).Contents (Elt F)),
    nullary main_cst_10 (constant S_ .f32 0xFF800000#32),
    unary main_cst_10 main_v55 (broadcastInDim S128x1 ![] bcast_S_S128x1 : (⟨S_, .f32⟩ : BufTy).Contents (Elt F) → (⟨S128x1, .f32⟩ : BufTy).Contents (Elt F)),
    binary main_v55 main_v54 main_v56 (maximumf : (⟨S128x1, .f32⟩ : BufTy).Contents (Elt F) → (⟨S128x1, .f32⟩ : BufTy).Contents (Elt F) → (⟨S128x1, .f32⟩ : BufTy).Contents (Elt F)),
    unary main_v56 main_v57 (broadcastInDim S1x128x1 ![1, 2] bcast_S128x1_S1x128x1_1_2 : (⟨S128x1, .f32⟩ : BufTy).Contents (Elt F) → (⟨S1x128x1, .f32⟩ : BufTy).Contents (Elt F)),
    unary main_v57 main_v58 (broadcastInDim S512x128x1 ![0, 1, 2] bcast_S1x128x1_S512x128x1_0_1_2 : (⟨S1x128x1, .f32⟩ : BufTy).Contents (Elt F) → (⟨S512x128x1, .f32⟩ : BufTy).Contents (Elt F)),
    binary main_v53 main_v58 main_v59 (subf : (⟨S512x128x1, .f32⟩ : BufTy).Contents (Elt F) → (⟨S512x128x1, .f32⟩ : BufTy).Contents (Elt F) → (⟨S512x128x1, .f32⟩ : BufTy).Contents (Elt F)),
    unary main_v59 main_v60 (Host.exp : (⟨S512x128x1, .f32⟩ : BufTy).Contents (Elt F) → (⟨S512x128x1, .f32⟩ : BufTy).Contents (Elt F)),
    nullary main_cst_11 (constant S_ .f32 0x00000000#32),
    binary main_v60 main_cst_11 main_v61 ((fun x v => Host.reduceAdd x v reducesTo_S512x128x1_S128x1_d0 h_S_) : (⟨S512x128x1, .f32⟩ : BufTy).Contents (Elt F) → (⟨S_, .f32⟩ : BufTy).Contents (Elt F) → (⟨S128x1, .f32⟩ : BufTy).Contents (Elt F)),
    unary main_v61 main_v62 (broadcastInDim S1x128x1 ![1, 2] bcast_S128x1_S1x128x1_1_2 : (⟨S128x1, .f32⟩ : BufTy).Contents (Elt F) → (⟨S1x128x1, .f32⟩ : BufTy).Contents (Elt F)),
    unary main_v62 main_v63 (broadcastInDim S512x128x1 ![0, 1, 2] bcast_S1x128x1_S512x128x1_0_1_2 : (⟨S1x128x1, .f32⟩ : BufTy).Contents (Elt F) → (⟨S512x128x1, .f32⟩ : BufTy).Contents (Elt F)),
    binary main_v60 main_v63 main_v64 (Host.divf : (⟨S512x128x1, .f32⟩ : BufTy).Contents (Elt F) → (⟨S512x128x1, .f32⟩ : BufTy).Contents (Elt F) → (⟨S512x128x1, .f32⟩ : BufTy).Contents (Elt F)),
    unary main_v64 main_v65 (broadcastInDim S512x128x2048 ![0, 1, 2] bcast_S512x128x1_S512x128x2048_0_1_2 : (⟨S512x128x1, .f32⟩ : BufTy).Contents (Elt F) → (⟨S512x128x2048, .f32⟩ : BufTy).Contents (Elt F)),
    binary main_v65 main_arg3 main_v66 (mulf : (⟨S512x128x2048, .f32⟩ : BufTy).Contents (Elt F) → (⟨S512x128x2048, .f32⟩ : BufTy).Contents (Elt F) → (⟨S512x128x2048, .f32⟩ : BufTy).Contents (Elt F)),
    nullary main_cst_12 (constant S_ .f32 0x00000000#32),
    binary main_v66 main_cst_12 main_v67 ((fun x v => Host.reduceAdd x v reducesTo_S512x128x2048_S128x2048_d0 h_S_) : (⟨S512x128x2048, .f32⟩ : BufTy).Contents (Elt F) → (⟨S_, .f32⟩ : BufTy).Contents (Elt F) → (⟨S128x2048, .f32⟩ : BufTy).Contents (Elt F)) ]

/-- The last seven operations: the concatenate of [content, h'] and the output map under tanh. -/
def opsB : List (HloOp τ sig (Elt F)) :=
  [ binary main_v67 main_v45 main_v68 ((fun a b => concatenate S128x4096 1 [⟨S128x2048, a⟩, ⟨S128x2048, b⟩] concatenates_S128x2048_S128x2048_S128x4096_d1) : (⟨S128x2048, .f32⟩ : BufTy).Contents (Elt F) → (⟨S128x2048, .f32⟩ : BufTy).Contents (Elt F) → (⟨S128x4096, .f32⟩ : BufTy).Contents (Elt F)),
    unary main_arg10 main_v69 ((transpose S4096x2048 [1, 0] · transposes_S2048x4096_S4096x2048_1_0) : (⟨S2048x4096, .f32⟩ : BufTy).Contents (Elt F) → (⟨S4096x2048, .f32⟩ : BufTy).Contents (Elt F)),
    binary main_v68 main_v69 main_v70 ((fun l r => Host.dotGeneral dot_S128x4096_S4096x2048_S128x2048_1_0_0_1_n_n none l r) : (⟨S128x4096, .f32⟩ : BufTy).Contents (Elt F) → (⟨S4096x2048, .f32⟩ : BufTy).Contents (Elt F) → (⟨S128x2048, .f32⟩ : BufTy).Contents (Elt F)),
    unary main_arg11 main_v71 (broadcastInDim S1x2048 ![1] bcast_S2048_S1x2048_1 : (⟨S2048, .f32⟩ : BufTy).Contents (Elt F) → (⟨S1x2048, .f32⟩ : BufTy).Contents (Elt F)),
    unary main_v71 main_v72 (broadcastInDim S128x2048 ![0, 1] bcast_S1x2048_S128x2048_0_1 : (⟨S1x2048, .f32⟩ : BufTy).Contents (Elt F) → (⟨S128x2048, .f32⟩ : BufTy).Contents (Elt F)),
    binary main_v70 main_v72 main_v73 (addf : (⟨S128x2048, .f32⟩ : BufTy).Contents (Elt F) → (⟨S128x2048, .f32⟩ : BufTy).Contents (Elt F) → (⟨S128x2048, .f32⟩ : BufTy).Contents (Elt F)),
    unary main_v73 main_v74 (Host.tanh : (⟨S128x2048, .f32⟩ : BufTy).Contents (Elt F) → (⟨S128x2048, .f32⟩ : BufTy).Contents (Elt F)) ]

/-- Running two lines one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The first 85 operations, read at the four buffers the tail takes over -/

set_option maxRecDepth 8192 in
set_option maxHeartbeats 4000000 in
/-- The new hidden state after the first 85 operations is its stage function of the arguments. -/
theorem opsA_v45 (m : (ℓ : Loc nD τ sig) → Buf (Elt F) ℓ) (c : Dev nD) :
    after (opsA (F := F)) (launchContents m c) (Proc.devRef .tc main_v45)
      = ReadP.val_main_v45 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold opsA
  after_results_simp <;> rfl

set_option maxRecDepth 8192 in
set_option maxHeartbeats 4000000 in
/-- The attention content after the first 85 operations is its stage function of the arguments. -/
theorem opsA_v67 (m : (ℓ : Loc nD τ sig) → Buf (Elt F) ℓ) (c : Dev nD) :
    after (opsA (F := F)) (launchContents m c) (Proc.devRef .tc main_v67)
      = ReadP.val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold opsA
  after_results_simp <;> rfl

set_option maxRecDepth 8192 in
/-- The first 85 operations leave the output weight as launched. -/
theorem opsA_arg10 (m : (ℓ : Loc nD τ sig) → Buf (Elt F) ℓ) (c : Dev nD) :
    after (opsA (F := F)) (launchContents m c) (Proc.devRef .tc main_arg10) = m ((c.tc : Thread nD τ).loc main_arg10) := by
  unfold opsA
  after_results_simp <;> rfl

set_option maxRecDepth 8192 in
/-- The first 85 operations leave the output bias as launched. -/
theorem opsA_arg11 (m : (ℓ : Loc nD τ sig) → Buf (Elt F) ℓ) (c : Dev nD) :
    after (opsA (F := F)) (launchContents m c) (Proc.devRef .tc main_arg11) = m ((c.tc : Thread nD τ).loc main_arg11) := by
  unfold opsA
  after_results_simp <;> rfl

/-! ## The last seven operations over any valuation -/

set_option maxRecDepth 8192 in
/-- From any contents holding the two stages and the two last arguments, the tail ends at the output's stage function. -/
theorem opsB_v74 (V : Valuation τ sig (Elt F))
    (x0 : (⟨S128, .i32⟩ : BufTy).Contents (Elt F)) (x1 x2 : (⟨S128x2048, .f32⟩ : BufTy).Contents (Elt F))
    (x3 : (⟨S512x128x2048, .f32⟩ : BufTy).Contents (Elt F)) (x4 : (⟨S512x128x1, .i32⟩ : BufTy).Contents (Elt F))
    (x5 : (⟨S32000x2048, .f32⟩ : BufTy).Contents (Elt F)) (x6 x7 : (⟨S8192x2048, .f32⟩ : BufTy).Contents (Elt F))
    (x8 x9 : (⟨S8192, .f32⟩ : BufTy).Contents (Elt F)) (x10 : (⟨S2048x4096, .f32⟩ : BufTy).Contents (Elt F))
    (x11 : (⟨S2048, .f32⟩ : BufTy).Contents (Elt F))
    (h67 : V (Proc.devRef .tc main_v67) = ReadP.val_main_v67 (F := F) x0 x1 x2 x3 x4 x5 x6 x7 x8 x9)
    (h45 : V (Proc.devRef .tc main_v45) = ReadP.val_main_v45 (F := F) x0 x1 x2 x5 x6 x7 x8 x9)
    (h10 : V (Proc.devRef .tc main_arg10) = x10) (h11 : V (Proc.devRef .tc main_arg11) = x11) :
    after (opsB (F := F)) V (Proc.devRef .tc main_v74)
      = ReadP.val_main_v74 (F := F) x0 x1 x2 x3 x4 x5 x6 x7 x8 x9 x10 x11 := by
  unfold opsB
  after_results
  rw [h67, h45, h10, h11]
  rfl

/-! ## The whole line -/

set_option maxRecDepth 8192 in
/-- The 92 operations are the first 85 followed by the last seven. -/
theorem ops_split : (ValueP.ops : List (HloOp τ sig (Elt F))) = opsA ++ opsB := rfl

/-- The output buffer after the whole line is the output's stage function of the arguments' launch contents. -/
theorem after_v74 (m : (ℓ : Loc nD τ sig) → Buf (Elt F) ℓ) (c : Dev nD) :
    after (ValueP.ops (F := F)) (launchContents m c) (Proc.devRef .tc main_v74)
      = ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_split, after_app]
  exact opsB_v74 _ _ _ _ _ _ _ _ _ _ _ _ _ (opsA_v67 m c) (opsA_v45 m c) (opsA_arg10 m c) (opsA_arg11 m c)

set_option maxRecDepth 8192 in
set_option maxHeartbeats 36800000 in
/-- On every device, for any float values, from any memory with zero counters: every weakly fair execution of
    @main terminates with the result at the output's stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v74).trans (after_v74 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq ValueP.scopedRefs_eq ValueP.scopedSems_eq defs main (fun _ => ValueP.ops) ValueP.main_eq (fun _ => ValueP.ops_sub) m ρ)

end Cert.ReferenceIdeal.RefRun

end
-- ==== Proof.RefSpec.lean ====
/-
  The reference program, read one operation at a time at the extended reals, is the specification function `G`
  of the embedded input rows and the other argument arrays: the LSTM cell's gates and new hidden state, the masked
  dot scores, their column maximum, the textbook softmax average of the source rows, and the final affine map of
  [content, h'] under tanh. Each lemma below reads ONE named intermediate of the program at an index built from its
  coordinates and identifies it with the matching piece of the specification.
-/
import proofs.«424716_j51917564674095_3_alg».proof.Proof.RefReadP
import proofs.«424716_j51917564674095_3_alg».proof.Proof.Spec

noncomputable section

namespace Cert.ReferenceIdeal.RefSpec

open Cert.ReferenceIdeal Cert.ReferenceIdeal.Gen Cert.ReferenceIdeal.ReadP Idealize.ShloMosaic Idealize.ShloMosaic.ValueIdx
open Idealize.SL.Sem Idealize.ShloMosaic.StableHlo
open scoped BigOperators

variable (x0 : (⟨S128, .i32⟩ : BufTy).Contents (Elt Ideal)) (x1 x2 : (⟨S128x2048, .f32⟩ : BufTy).Contents (Elt Ideal))
  (x3 : (⟨S512x128x2048, .f32⟩ : BufTy).Contents (Elt Ideal)) (x4 : (⟨S512x128x1, .i32⟩ : BufTy).Contents (Elt Ideal))
  (x5 : (⟨S32000x2048, .f32⟩ : BufTy).Contents (Elt Ideal)) (x6 x7 : (⟨S8192x2048, .f32⟩ : BufTy).Contents (Elt Ideal))
  (x8 x9 : (⟨S8192, .f32⟩ : BufTy).Contents (Elt Ideal)) (x10 : (⟨S2048x4096, .f32⟩ : BufTy).Contents (Elt Ideal))
  (x11 : (⟨S2048, .f32⟩ : BufTy).Contents (Elt Ideal))

/-! ## Literal words and two small facts about words -/

/-- The f32 pattern 0x3F800000 is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- The f32 pattern 0xFF800000 is minus infinity. -/
theorem neg_inf_f32 : Ideal.ofBits .f32 0xFF800000#32 = ⊥ := by simp [Ideal.ofBits, Ideal.ieee]

/-- A select on an equality test of two words is the `if` on their equality. -/
theorem select_cmpi_eq {α : Type} (a c : BitVec 32) (p q : α) :
    Scalar.select (IntOp.cmpi .eq a c) p q = if a = c then p else q := by
  by_cases h : a = c
  · have e : IntOp.cmpi .eq a c = 1#1 := by subst h; simp [IntOp.cmpi]
    rw [e, select_one, if_pos h]
  · have hb : (a == c) = false := beq_eq_false_iff_ne.mpr h
    have e : IntOp.cmpi .eq a c = 0#1 := by simp [IntOp.cmpi, hb]
    rw [e, select_zero, if_neg h]

/-- divide(1, add(1, exp(negate x))) is the logistic function of x. -/
theorem sigmoid_eq (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [one_f32]; rfl

/-! ## The gates -/

/-- The transposed input weights at (k, n) are the weights at (n, k). -/
theorem v7_at (k : Fin 2048) (n : Fin 8192) : val_main_v7 (F := Ideal) x6 (ix2 k n) = x6 (ix2 n k) :=
  (val_main_v7_apply x6 (ix2 k n)).trans
    (congrArg x6 (funext fun a => Fin.ext (by match a with | ⟨0, _⟩ => rfl | ⟨1, _⟩ => rfl)))

/-- The transposed hidden weights at (k, n) are the weights at (n, k). -/
theorem v12_at (k : Fin 2048) (n : Fin 8192) : val_main_v12 (F := Ideal) x7 (ix2 k n) = x7 (ix2 n k) :=
  (val_main_v12_apply x7 (ix2 k n)).trans
    (congrArg x7 (funext fun a => Fin.ext (by match a with | ⟨0, _⟩ => rfl | ⟨1, _⟩ => rfl)))

/-- The input product at (b, n): the embedded row b against row n of the input weights. -/
theorem v8_at (b : Fin 128) (n : Fin 8192) :
    val_main_v8 (F := Ideal) x0 x5 x6 (ix2 b n)
      = ∑ k : Fin 2048, val_main_v6 (F := Ideal) x0 x5 (ix2 b k) * x6 (ix2 n k) := by
  rw [val_main_v8_apply]
  refine Finset.sum_congr rfl fun k _ => ?_
  have el : lidx_main_v8 (ix2 b n) k = ix2 b k :=
    funext fun a => Fin.ext (by match a with | ⟨0, _⟩ => rfl | ⟨1, _⟩ => rfl)
  have er : ridx_main_v8 (ix2 b n) k = ix2 k n :=
    funext fun a => Fin.ext (by match a with | ⟨0, _⟩ => rfl | ⟨1, _⟩ => rfl)
  rw [el, er, v7_at]

/-- The hidden product at (b, n): the hidden row b against row n of the hidden weights. -/
theorem v13_at (b : Fin 128) (n : Fin 8192) :
    val_main_v13 (F := Ideal) x1 x7 (ix2 b n) = ∑ k : Fin 2048, x1 (ix2 b k) * x7 (ix2 n k) := by
  rw [val_main_v13_apply]
  refine Finset.sum_congr rfl fun k _ => ?_
  have el : lidx_main_v13 (ix2 b n) k = ix2 b k :=
    funext fun a => Fin.ext (by match a with | ⟨0, _⟩ => rfl | ⟨1, _⟩ => rfl)
  have er : ridx_main_v13 (ix2 b n) k = ix2 k n :=
    funext fun a => Fin.ext (by match a with | ⟨0, _⟩ => rfl | ⟨1, _⟩ => rfl)
  rw [el, er, v12_at]

/-- The input bias broadcast over the rows, at (b, n), is the bias at n. -/
theorem v10_at (b : Fin 128) (n : Fin 8192) : val_main_v10 (F := Ideal) x8 (ix2 b n) = x8 (ix1 n) := by
  rw [val_main_v10_apply, val_main_v9_apply]
  exact congrArg x8 (funext fun a => Fin.ext (by match a with | ⟨0, _⟩ => rfl))

/-- The hidden bias broadcast over the rows, at (b, n), is the bias at n. -/
theorem v16_at (b : Fin 128) (n : Fin 8192) : val_main_v16 (F := Ideal) x9 (ix2 b n) = x9 (ix1 n) := by
  rw [val_main_v16_apply, val_main_v15_apply]
  exact congrArg x9 (funext fun a => Fin.ext (by match a with | ⟨0, _⟩ => rfl))

/-- The gates before activation, as the specification writes them over the embedded rows. -/
def GT : Fin 128 → Fin 8192 → EReal :=
  Spec.gate (fun b k => val_main_v6 (F := Ideal) x0 x5 (ix2 b k)) (fun b k => x1 (ix2 b k)) (fun n k => x6 (ix2 n k))
    (fun n k => x7 (ix2 n k)) (fun n => x8 (ix1 n)) (fun n => x9 (ix1 n))

/-- The gates at (b, n): the two products and the two biases, summed in the program's order. -/
theorem v17_at (b : Fin 128) (n : Fin 8192) :
    val_main_v17 (F := Ideal) x0 x1 x5 x6 x7 x8 x9 (ix2 b n) = GT x0 x1 x5 x6 x7 x8 x9 b n := by
  rw [val_main_v17_apply, val_main_v14_apply, val_main_v11_apply, v8_at, v13_at, v10_at, v16_at]
  rfl

/-! ## The four slices, the activations and the new hidden state -/

/-- Slice 0 of the gates at (b, k) is gate column 0·2048 + k. -/
theorem v18_at (b : Fin 128) (k : Fin 2048) :
    val_main_v18 (F := Ideal) x0 x1 x5 x6 x7 x8 x9 (ix2 b k) = GT x0 x1 x5 x6 x7 x8 x9 b (Spec.col 0 k) := by
  rw [val_main_v18_apply]
  have e : idx_main_v18 (ix2 b k) = ix2 b (Spec.col 0 k) := funext fun a => Fin.ext (by
    match a with
    | ⟨0, _⟩ => rfl
    | ⟨1, _⟩ => show k.val = 0 * 2048 + k.val; omega)
  rw [e, v17_at]

/-- Slice 1 of the gates at (b, k) is gate column 1·2048 + k. -/
theorem v19_at (b : Fin 128) (k : Fin 2048) :
    val_main_v19 (F := Ideal) x0 x1 x5 x6 x7 x8 x9 (ix2 b k) = GT x0 x1 x5 x6 x7 x8 x9 b (Spec.col 1 k) := by
  rw [val_main_v19_apply]
  have e : idx_main_v19 (ix2 b k) = ix2 b (Spec.col 1 k) := funext fun a => Fin.ext (by
    match a with
    | ⟨0, _⟩ => rfl
    | ⟨1, _⟩ => show 2048 + k.val = 1 * 2048 + k.val; omega)
  rw [e, v17_at]

/-- Slice 2 of the gates at (b, k) is gate column 2·2048 + k. -/
theorem v20_at (b : Fin 128) (k : Fin 2048) :
    val_main_v20 (F := Ideal) x0 x1 x5 x6 x7 x8 x9 (ix2 b k) = GT x0 x1 x5 x6 x7 x8 x9 b (Spec.col 2 k) := by
  rw [val_main_v20_apply]
  have e : idx_main_v20 (ix2 b k) = ix2 b (Spec.col 2 k) := funext fun a => Fin.ext (by
    match a with
    | ⟨0, _⟩ => rfl
    | ⟨1, _⟩ => show 4096 + k.val = 2 * 2048 + k.val; omega)
  rw [e, v17_at]

/-- Slice 3 of the gates at (b, k) is gate column 3·2048 + k. -/
theorem v21_at (b : Fin 128) (k : Fin 2048) :
    val_main_v21 (F := Ideal) x0 x1 x5 x6 x7 x8 x9 (ix2 b k) = GT x0 x1 x5 x6 x7 x8 x9 b (Spec.col 3 k) := by
  rw [val_main_v21_apply]
  have e : idx_main_v21 (ix2 b k) = ix2 b (Spec.col 3 k) := funext fun a => Fin.ext (by
    match a with
    | ⟨0, _⟩ => rfl
    | ⟨1, _⟩ => show 6144 + k.val = 3 * 2048 + k.val; omega)
  rw [e, v17_at]

/-- The input gate at (b, k): the logistic function of gate column 0·2048 + k. -/
theorem v27_at (b : Fin 128) (k : Fin 2048) :
    val_main_v27 (F := Ideal) x0 x1 x5 x6 x7 x8 x9 (ix2 b k) = Ideal.logistic (GT x0 x1 x5 x6 x7 x8 x9 b (Spec.col 0 k)) := by
  rw [val_main_v27_apply, val_main_v26_apply, val_main_cst_1_apply, val_main_v25_apply, val_main_v24_apply,
    val_main_cst_apply, val_main_v23_apply, val_main_v22_apply, v18_at]
  exact sigmoid_eq _

/-- The forget gate at (b, k): the logistic function of gate column 1·2048 + k. -/
theorem v33_at (b : Fin 128) (k : Fin 2048) :
    val_main_v33 (F := Ideal) x0 x1 x5 x6 x7 x8 x9 (ix2 b k) = Ideal.logistic (GT x0 x1 x5 x6 x7 x8 x9 b (Spec.col 1 k)) := by
  rw [val_main_v33_apply, val_main_v32_apply, val_main_cst_3_apply, val_main_v31_apply, val_main_v30_apply,
    val_main_cst_2_apply, val_main_v29_apply, val_main_v28_apply, v19_at]
  exact sigmoid_eq _

/-- The output gate at (b, k): the logistic function of gate column 3·2048 + k. -/
theorem v39_at (b : Fin 128) (k : Fin 2048) :
    val_main_v39 (F := Ideal) x0 x1 x5 x6 x7 x8 x9 (ix2 b k) = Ideal.logistic (GT x0 x1 x5 x6 x7 x8 x9 b (Spec.col 3 k)) := by
  rw [val_main_v39_apply, val_main_v38_apply, val_main_cst_5_apply, val_main_v37_apply, val_main_v36_apply,
    val_main_cst_4_apply, val_main_v35_apply, val_main_v34_apply, v21_at]
  exact sigmoid_eq _

/-- The candidate at (b, k): tanh of gate column 2·2048 + k. -/
theorem v40_at (b : Fin 128) (k : Fin 2048) :
    val_main_v40 (F := Ideal) x0 x1 x5 x6 x7 x8 x9 (ix2 b k) = Ideal.tanh (GT x0 x1 x5 x6 x7 x8 x9 b (Spec.col 2 k)) := by
  rw [val_main_v40_apply, v20_at]; rfl

/-- The new hidden state, as the specification writes it over the gates and the cell state. -/
def HN : Fin 128 → Fin 2048 → EReal := Spec.hnew (GT x0 x1 x5 x6 x7 x8 x9) (fun b k => x2 (ix2 b k))

/-- The new hidden state at (b, k): o · tanh(f · c + i · g). -/
theorem v45_at (b : Fin 128) (k : Fin 2048) :
    val_main_v45 (F := Ideal) x0 x1 x2 x5 x6 x7 x8 x9 (ix2 b k) = HN x0 x1 x2 x5 x6 x7 x8 x9 b k := by
  rw [val_main_v45_apply, v39_at, val_main_v44_apply, val_main_v43_apply, val_main_v41_apply, v33_at, val_main_v42_apply,
    v27_at, v40_at]
  rfl

/-! ## The scores and the mask -/

/-- The product under the score's sum at (s, b, k): the new hidden state at (b, k) times the source row. -/
theorem v48_at (s : Fin 512) (b : Fin 128) (k : Fin 2048) :
    val_main_v48 (F := Ideal) x0 x1 x2 x3 x5 x6 x7 x8 x9 (ix3 s b k) = HN x0 x1 x2 x5 x6 x7 x8 x9 b k * x3 (ix3 s b k) := by
  rw [val_main_v48_apply, val_main_v47_apply, val_main_v46_apply]
  have e : idx_main_v46 (idx_main_v47 (ix3 s b k)) = ix2 b k := funext fun a => Fin.ext (by match a with | ⟨0, _⟩ => rfl | ⟨1, _⟩ => rfl)
  rw [e, v45_at]; rfl

/-- The dot scores, as the specification writes them. -/
def SC : Fin 512 → Fin 128 → EReal := Spec.score (HN x0 x1 x2 x5 x6 x7 x8 x9) (fun s b k => x3 (ix3 s b k))

/-- The score at (s, b): from zero, the sum over k of the products. -/
theorem v49_at (s : Fin 512) (b : Fin 128) :
    val_main_v49 (F := Ideal) x0 x1 x2 x3 x5 x6 x7 x8 x9 (ix2 s b) = SC x0 x1 x2 x3 x5 x6 x7 x8 x9 s b := by
  rw [val_main_v49_apply, val_main_cst_6_apply, Ideal.ofBits_def, Ideal.ofBits_zero_f32, zero_add]
  show _ = ∑ k : Fin 2048, HN x0 x1 x2 x5 x6 x7 x8 x9 b k * x3 (ix3 s b k)
  refine Finset.sum_congr rfl fun k _ => ?_
  have e : idx_main_v49 (ix2 s b) k = ix3 s b k := funext fun a => Fin.ext (by match a with | ⟨0, _⟩ => rfl | ⟨1, _⟩ => rfl | ⟨2, _⟩ => rfl)
  rw [e, v48_at]

/-- The score with its unit axis at (s, b, 0). -/
theorem v50_at (s : Fin 512) (b : Fin 128) :
    val_main_v50 (F := Ideal) x0 x1 x2 x3 x5 x6 x7 x8 x9 (ix3 s b (0 : Fin 1)) = SC x0 x1 x2 x3 x5 x6 x7 x8 x9 s b := by
  rw [val_main_v50_apply]
  have e : idx_main_v50 (ix3 s b (0 : Fin 1)) = ix2 s b := funext fun a => Fin.ext (by match a with | ⟨0, _⟩ => rfl | ⟨1, _⟩ => rfl)
  rw [e, v49_at]

/-- The masked scores, as the specification writes them. -/
def MS : Fin 512 → Fin 128 → EReal := Spec.masked (SC x0 x1 x2 x3 x5 x6 x7 x8 x9) (fun s b => x4 (ix3 s b 0))

/-- The masked score at (s, b, 0): the fill value where the mask word is zero, the score elsewhere. -/
theorem v53_at (s : Fin 512) (b : Fin 128) :
    val_main_v53 (F := Ideal) x0 x1 x2 x3 x4 x5 x6 x7 x8 x9 (ix3 s b (0 : Fin 1)) = MS x0 x1 x2 x3 x4 x5 x6 x7 x8 x9 s b := by
  rw [val_main_v53_apply, val_main_v52_apply, val_main_v51_apply, val_main_c_7_apply, val_main_call0_v1_apply,
    val_main_call0_v0_apply, val_main_cst_8_apply, v50_at, select_cmpi_eq]
  rfl

/-! ## The column maximum -/

/-- The reduced index (b, 0) with position s put back on axis 0 is (s, b, 0). -/
theorem lift_ix3 (h : S512x128x1.Reduces [0] S128x1) (b : Fin 128) (s : Fin (S512x128x1.size 0)) :
    h.lift (ix2 b (0 : Fin 1)) s = ix3 (⟨s.val, s.isLt⟩ : Fin 512) b (0 : Fin 1) := by
  funext c; apply Fin.ext
  fin_cases c <;> rfl

/-- The max-reduce over the source positions, at (b, 0): the max-fold from -∞ of row b's masked scores. -/
theorem v54_at (b : Fin 128) :
    val_main_v54 (F := Ideal) x0 x1 x2 x3 x4 x5 x6 x7 x8 x9 (ix2 b (0 : Fin 1))
      = (Finset.univ : Finset (Fin 512)).fold max ⊥ (fun s => MS x0 x1 x2 x3 x4 x5 x6 x7 x8 x9 s b) := by
  have hy : ∀ s : Fin 512, val_main_v53 (F := Ideal) x0 x1 x2 x3 x4 x5 x6 x7 x8 x9 (ix3 s b (0 : Fin 1)) = MS x0 x1 x2 x3 x4 x5 x6 x7 x8 x9 s b :=
    fun s => v53_at x0 x1 x2 x3 x4 x5 x6 x7 x8 x9 s b
  unfold val_main_v54
  generalize val_main_v53 (F := Ideal) x0 x1 x2 x3 x4 x5 x6 x7 x8 x9 = y at hy ⊢
  have hr : S512x128x1.Reduces [0] S128x1 := by decide
  refine (Host.reduce_eq_fold_single (FloatOps.maximumf (F := Ideal) (φ := .f32)) y _ reducesTo_S512x128x1_S128x1_d0 hr h_S_
    (ix2 b (0 : Fin 1))).trans ?_
  have h9 : val_main_cst_9 (F := Ideal) (Shape.Idx.first h_S_) = (⊥ : EReal) := neg_inf_f32
  have hf : (y ∘ hr.lift (ix2 b (0 : Fin 1))) = fun s : Fin 512 => MS x0 x1 x2 x3 x4 x5 x6 x7 x8 x9 s b :=
    funext fun s => (congrArg y (lift_ix3 hr b s)).trans (hy _)
  refine (congrArg (fun z : EReal => Finset.fold max z (y ∘ hr.lift (ix2 b (0 : Fin 1)))
    (Finset.univ : Finset (Fin 512))) h9).trans ?_
  exact congrArg (fun f => Finset.fold max (⊥ : EReal) f (Finset.univ : Finset (Fin 512))) hf

/-- The column maximum at (b, 0), as the reference takes it: the max of -∞ and the fold. -/
theorem v56_at (b : Fin 128) :
    val_main_v56 (F := Ideal) x0 x1 x2 x3 x4 x5 x6 x7 x8 x9 (ix2 b (0 : Fin 1)) = Spec.Mx (fun s => MS x0 x1 x2 x3 x4 x5 x6 x7 x8 x9 s b) := by
  rw [val_main_v56_apply, val_main_v55_apply, val_main_cst_10_apply, Ideal.ofBits_def, neg_inf_f32, v54_at]
  rfl

/-- The column maximum broadcast back over the positions, at (s, b, 0). -/
theorem v58_at (s : Fin 512) (b : Fin 128) :
    val_main_v58 (F := Ideal) x0 x1 x2 x3 x4 x5 x6 x7 x8 x9 (ix3 s b (0 : Fin 1)) = Spec.Mx (fun s => MS x0 x1 x2 x3 x4 x5 x6 x7 x8 x9 s b) := by
  rw [val_main_v58_apply, val_main_v57_apply]
  have e : idx_main_v57 (idx_main_v58 (ix3 s b (0 : Fin 1))) = ix2 b (0 : Fin 1) := funext fun a => Fin.ext (by match a with | ⟨0, _⟩ => rfl | ⟨1, _⟩ => rfl)
  rw [e, v56_at]

/-! ## The softmax weights and the content -/

/-- The shifted exponential at (s, b, 0). -/
theorem v60_at (s : Fin 512) (b : Fin 128) :
    val_main_v60 (F := Ideal) x0 x1 x2 x3 x4 x5 x6 x7 x8 x9 (ix3 s b (0 : Fin 1))
      = Ideal.exp (MS x0 x1 x2 x3 x4 x5 x6 x7 x8 x9 s b - Spec.Mx (fun s => MS x0 x1 x2 x3 x4 x5 x6 x7 x8 x9 s b)) := by
  rw [val_main_v60_apply, val_main_v59_apply, v53_at, v58_at]; rfl

/-- The normaliser at (b, 0): from zero, the sum over the positions of the shifted exponentials. -/
theorem v61_at (b : Fin 128) :
    val_main_v61 (F := Ideal) x0 x1 x2 x3 x4 x5 x6 x7 x8 x9 (ix2 b (0 : Fin 1))
      = ∑ s : Fin 512, Ideal.exp (MS x0 x1 x2 x3 x4 x5 x6 x7 x8 x9 s b - Spec.Mx (fun s => MS x0 x1 x2 x3 x4 x5 x6 x7 x8 x9 s b)) := by
  rw [val_main_v61_apply, val_main_cst_11_apply, Ideal.ofBits_def, Ideal.ofBits_zero_f32, zero_add]
  refine Finset.sum_congr rfl fun s _ => ?_
  have e : idx_main_v61 (ix2 b (0 : Fin 1)) s = ix3 s b (0 : Fin 1) := funext fun a => Fin.ext (by match a with | ⟨0, _⟩ => rfl | ⟨1, _⟩ => rfl | ⟨2, _⟩ => rfl)
  rw [e, v60_at]

/-- The softmax weight at (s, b, 0). -/
theorem v64_at (s : Fin 512) (b : Fin 128) :
    val_main_v64 (F := Ideal) x0 x1 x2 x3 x4 x5 x6 x7 x8 x9 (ix3 s b (0 : Fin 1))
      = Ideal.div (Ideal.exp (MS x0 x1 x2 x3 x4 x5 x6 x7 x8 x9 s b - Spec.Mx (fun s => MS x0 x1 x2 x3 x4 x5 x6 x7 x8 x9 s b)))
          (∑ s' : Fin 512, Ideal.exp (MS x0 x1 x2 x3 x4 x5 x6 x7 x8 x9 s' b - Spec.Mx (fun s => MS x0 x1 x2 x3 x4 x5 x6 x7 x8 x9 s b))) := by
  rw [val_main_v64_apply, v60_at, val_main_v63_apply, val_main_v62_apply]
  have e : idx_main_v62 (idx_main_v63 (ix3 s b (0 : Fin 1))) = ix2 b (0 : Fin 1) := funext fun a => Fin.ext (by match a with | ⟨0, _⟩ => rfl | ⟨1, _⟩ => rfl)
  rw [e, v61_at]; rfl

/-- The weighted source row at (s, b, k). -/
theorem v66_at (s : Fin 512) (b : Fin 128) (k : Fin 2048) :
    val_main_v66 (F := Ideal) x0 x1 x2 x3 x4 x5 x6 x7 x8 x9 (ix3 s b k)
      = Ideal.div (Ideal.exp (MS x0 x1 x2 x3 x4 x5 x6 x7 x8 x9 s b - Spec.Mx (fun s => MS x0 x1 x2 x3 x4 x5 x6 x7 x8 x9 s b)))
          (∑ s' : Fin 512, Ideal.exp (MS x0 x1 x2 x3 x4 x5 x6 x7 x8 x9 s' b - Spec.Mx (fun s => MS x0 x1 x2 x3 x4 x5 x6 x7 x8 x9 s b))) * x3 (ix3 s b k) := by
  rw [val_main_v66_apply, val_main_v65_apply]
  have e : idx_main_v65 (ix3 s b k) = ix3 s b (0 : Fin 1) := funext fun a => Fin.ext (by match a with | ⟨0, _⟩ => rfl | ⟨1, _⟩ => rfl | ⟨2, _⟩ => rfl)
  rw [e, v64_at]; rfl

/-- The content, as the specification writes it: the textbook softmax average of row b's source rows. -/
def CT : Fin 128 → Fin 2048 → EReal :=
  fun b k => Spec.refContent (fun s => MS x0 x1 x2 x3 x4 x5 x6 x7 x8 x9 s b) (fun s k => x3 (ix3 s b k)) k

/-- The content at (b, k): from zero, the sum over the positions of the weighted source rows. -/
theorem v67_at (b : Fin 128) (k : Fin 2048) :
    val_main_v67 (F := Ideal) x0 x1 x2 x3 x4 x5 x6 x7 x8 x9 (ix2 b k) = CT x0 x1 x2 x3 x4 x5 x6 x7 x8 x9 b k := by
  rw [val_main_v67_apply, val_main_cst_12_apply, Ideal.ofBits_def, Ideal.ofBits_zero_f32, zero_add]
  show _ = ∑ s : Fin 512, Ideal.div (Ideal.exp (MS x0 x1 x2 x3 x4 x5 x6 x7 x8 x9 s b - Spec.Mx (fun s => MS x0 x1 x2 x3 x4 x5 x6 x7 x8 x9 s b)))
      (∑ s' : Fin 512, Ideal.exp (MS x0 x1 x2 x3 x4 x5 x6 x7 x8 x9 s' b - Spec.Mx (fun s => MS x0 x1 x2 x3 x4 x5 x6 x7 x8 x9 s b))) * x3 (ix3 s b k)
  refine Finset.sum_congr rfl fun s _ => ?_
  have e : idx_main_v67 (ix2 b k) s = ix3 s b k := funext fun a => Fin.ext (by match a with | ⟨0, _⟩ => rfl | ⟨1, _⟩ => rfl | ⟨2, _⟩ => rfl)
  rw [e, v66_at]

/-! ## The concatenation, the output product, the bias and the tanh -/

/-- [content, h'] at (b, k): the content below column 2048, the new hidden state from there on. -/
theorem v68_at (b : Fin 128) (k : Fin 4096) :
    val_main_v68 (F := Ideal) x0 x1 x2 x3 x4 x5 x6 x7 x8 x9 (ix2 b k)
      = if h : k.val < 2048 then CT x0 x1 x2 x3 x4 x5 x6 x7 x8 x9 b ⟨k.val, h⟩
        else HN x0 x1 x2 x5 x6 x7 x8 x9 b ⟨k.val - 2048, by have := k.isLt; omega⟩ := by
  unfold val_main_v68
  by_cases h : k.val < 2048
  · rw [dif_pos h]
    refine (concatenate_pair_apply_left (1 : Fin S128x4096.rank) _ _ concatenates_S128x2048_S128x2048_S128x4096_d1
      (ix2 b k) rfl (ix2 b (⟨k.val, h⟩ : Fin 2048)) ?_).trans (v67_at x0 x1 x2 x3 x4 x5 x6 x7 x8 x9 b ⟨k.val, h⟩)
    intro c
    match c with
    | ⟨0, _⟩ => rfl
    | ⟨1, _⟩ => rfl
  · rw [dif_neg h]
    refine (concatenate_pair_apply_right (1 : Fin S128x4096.rank) _ _ concatenates_S128x2048_S128x2048_S128x4096_d1
      (ix2 b k) rfl rfl (ix2 b (⟨k.val - 2048, by have := k.isLt; omega⟩ : Fin 2048)) ?_ ?_).trans
      (v45_at x0 x1 x2 x5 x6 x7 x8 x9 b ⟨k.val - 2048, by have := k.isLt; omega⟩)
    · intro c hc
      match c, hc with
      | ⟨0, _⟩, _ => rfl
      | ⟨1, _⟩, hc => exact absurd rfl hc
    · show (k.val - 2048) + 2048 = k.val
      omega

/-- The output product at (b, n): [content, h'] of row b against row n of the output weights. -/
theorem v70_at (b : Fin 128) (n : Fin 2048) :
    val_main_v70 (F := Ideal) x0 x1 x2 x3 x4 x5 x6 x7 x8 x9 x10 (ix2 b n)
      = ∑ k : Fin 4096, (if h : k.val < 2048 then CT x0 x1 x2 x3 x4 x5 x6 x7 x8 x9 b ⟨k.val, h⟩
          else HN x0 x1 x2 x5 x6 x7 x8 x9 b ⟨k.val - 2048, by have := k.isLt; omega⟩) * x10 (ix2 n k) := by
  rw [val_main_v70_apply]
  refine Finset.sum_congr rfl fun k _ => ?_
  have el : lidx_main_v70 (ix2 b n) k = ix2 b k := funext fun a => Fin.ext (by match a with | ⟨0, _⟩ => rfl | ⟨1, _⟩ => rfl)
  have er : ridx_main_v70 (ix2 b n) k = ix2 k n := funext fun a => Fin.ext (by match a with | ⟨0, _⟩ => rfl | ⟨1, _⟩ => rfl)
  have et : idx_main_v69 (ix2 k n) = ix2 n k := funext fun a => Fin.ext (by match a with | ⟨0, _⟩ => rfl | ⟨1, _⟩ => rfl)
  rw [el, er, v68_at, val_main_v69_apply, et]

/-- The output bias broadcast over the rows, at (b, n), is the bias at n. -/
theorem v72_at (b : Fin 128) (n : Fin 2048) : val_main_v72 (F := Ideal) x11 (ix2 b n) = x11 (ix1 n) := by
  rw [val_main_v72_apply, val_main_v71_apply]
  exact congrArg x11 (funext fun a => Fin.ext (by match a with | ⟨0, _⟩ => rfl))

/-- The result at (b, n): tanh of the output product plus the bias. -/
theorem v74_at (b : Fin 128) (n : Fin 2048) :
    val_main_v74 (F := Ideal) x0 x1 x2 x3 x4 x5 x6 x7 x8 x9 x10 x11 (ix2 b n)
      = Spec.outCat (CT x0 x1 x2 x3 x4 x5 x6 x7 x8 x9) (HN x0 x1 x2 x5 x6 x7 x8 x9) (fun n k => x10 (ix2 n k)) (fun n => x11 (ix1 n)) b n := by
  rw [val_main_v74_apply, val_main_v73_apply, v70_at, v72_at]
  rfl

/-! ## The whole result -/

/-- The reference program's result is the specification function of the embedded rows and the other arrays. -/
theorem ref_eq (x0 : (⟨S128, .i32⟩ : BufTy).Contents (Elt Ideal)) (x1 x2 : (⟨S128x2048, .f32⟩ : BufTy).Contents (Elt Ideal))
    (x3 : (⟨S512x128x2048, .f32⟩ : BufTy).Contents (Elt Ideal)) (x4 : (⟨S512x128x1, .i32⟩ : BufTy).Contents (Elt Ideal))
    (x5 : (⟨S32000x2048, .f32⟩ : BufTy).Contents (Elt Ideal)) (x6 x7 : (⟨S8192x2048, .f32⟩ : BufTy).Contents (Elt Ideal))
    (x8 x9 : (⟨S8192, .f32⟩ : BufTy).Contents (Elt Ideal)) (x10 : (⟨S2048x4096, .f32⟩ : BufTy).Contents (Elt Ideal))
    (x11 : (⟨S2048, .f32⟩ : BufTy).Contents (Elt Ideal)) :
    ReadP.val_main_v74 (F := Ideal) x0 x1 x2 x3 x4 x5 x6 x7 x8 x9 x10 x11
      = Cert.Spec.G (ReadP.val_main_v6 (F := Ideal) x0 x5) x1 x2 x3 x4 x6 x7 x8 x9 x10 x11 := by
  funext i
  obtain ⟨b, n, rfl⟩ : ∃ (b : Fin 128) (n : Fin 2048), i = ix2 b n := ⟨i 0, i 1, eq_ix2 i⟩
  exact v74_at x0 x1 x2 x3 x4 x5 x6 x7 x8 x9 x10 x11 b n

end Cert.ReferenceIdeal.RefSpec

end
-- ==== Proof.Finite.lean ====
/-
  From the finiteness test of the inputs to real numbers.

  The precondition is the conjunction of ten tests "every element x of the array has |x| < +∞", one per float
  argument, each an and-reduction of the elementwise comparison down to a single truth value. If the conjunction
  is true, each test is true, so each comparison is true at every index; and an extended real x whose absolute
  value max x (-x) lies strictly below +∞ is neither +∞ nor -∞, hence a real number. Only the test of the
  source rows (the fourth argument) is read here.
-/
import proofs.«424716_j51917564674095_3_alg».proof.Pre_finite_inputs
import Idealize.ShloMosaic.Lib.ReduceAll
import Idealize.ShloMosaic.Lib.ValueIdx
import Idealize.ShloMosaic.PureOps.Ideal
import Mathlib.Data.EReal.Basic
import Mathlib.Data.EReal.Operations

namespace Cert.Finite

open Idealize.ShloMosaic Idealize.ShloMosaic.ValueIdx Cert.Pre_finite_inputs

/-- The float32 word 0x7F800000 (sign 0, exponent all ones, fraction 0) denotes +∞. -/
theorem inf_f32 : Ideal.ofBits .f32 0x7F800000#32 = ⊤ := by simp [Ideal.ofBits, Ideal.ieee]

/-- A one-bit word made from a boolean is 1 exactly when the boolean is true. -/
theorem ofBool_eq_one {c : Bool} : BitVec.ofBool c = 1#1 ↔ c = true := by cases c <;> decide

/-- An extended real whose absolute value max x (-x) is below +∞ is a real: at +∞ the maximum is +∞, and at -∞
    the negation is +∞, so the maximum is +∞ again. -/
theorem real_of_abs_lt_top (x : EReal) (h : max x (-x) < ⊤) : ∃ r : ℝ, x = (r : EReal) := by
  induction x using EReal.rec with
  | bot => rw [EReal.neg_bot, max_eq_right bot_le] at h; exact absurd h (lt_irrefl _)
  | coe r => exact ⟨r, rfl⟩
  | top => rw [max_eq_left le_top] at h; exact absurd h (lt_irrefl _)

/-- The comparison |x| < (the word of +∞) coming out true makes x a real. -/
theorem real_of_test (x : EReal) (h : Ideal.cmp .olt (max x (-x)) (Ideal.ofBits .f32 0x7F800000#32) = 1#1) :
    ∃ r : ℝ, x = (r : EReal) := by
  rw [inf_f32] at h
  exact real_of_abs_lt_top x (of_decide_eq_true (ofBool_eq_one.1 h))

/-- The rank-0 shape has a single index. -/
instance : Subsingleton S_.Idx := ⟨fun _ _ => funext fun d => d.elim0⟩

variable [Facts]

/-- The precondition holding makes every entry of the source rows a real number: walk down the conjunction to the
    third test, read the and-reduction at the index, and read the comparison there. -/
theorem ew_real (a0 : IVec S128 32) (a1 a2 : FVec Ideal S128x2048 .f32) (a3 : FVec Ideal S512x128x2048 .f32)
    (a4 : IVec S512x128x1 32) (a5 : FVec Ideal S32000x2048 .f32) (a6 a7 : FVec Ideal S8192x2048 .f32)
    (a8 a9 : FVec Ideal S8192 .f32) (a10 : FVec Ideal S2048x4096 .f32) (a11 : FVec Ideal S2048 .f32)
    (h : fn (F := Ideal) a0 a1 a2 a3 a4 a5 a6 a7 a8 a9 a10 a11 = (fun _ => 1#1)) :
    ∀ i, ∃ r : ℝ, a3 i = (r : EReal) := by
  intro i
  have h48 := congrFun h ix0
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  have h13 := (IntOp.andi_eq_one.1 h18).1
  have h12 := (IntOp.andi_eq_one.1 h13).2
  have e := Host.reduce_andi_all _ _ _ _ ix0 h12 i
  exact real_of_test (a3 i) e

end Cert.Finite
-- ==== Proof.lean ====
/-
  The certificate of the decoder step: one LSTM cell, a masked dot-score attention over 512 source positions
  and a final affine map under tanh, computed by three launches on the chip and by plain array code in the
  reference.

  The three frames: the kernel program (at the word level and at the extended reals) runs its five segments
  in order — host lines, the LSTM launch, the attention launch, host lines, the final launch — and every
  weakly fair execution terminates with the argument arrays as launched; the reference's frame is its run
  with the result dropped. The idealization rewrote nothing, so `preserves` is trivial.

  The values: the kernel's result array is the third launch's output, tanh(content·Wc + h'·Wh + b), over the
  second launch's content (the softmax average of the source rows, streamed in sixteen tiles with a running
  maximum) over the first launch's hidden state o·tanh(f·c + i·g). The reference computes the same hidden state,
  the textbook softmax, and one contraction over the concatenated [content, h']. The two agree at every index
  over the extended reals: the streamed softmax is the textbook one because all scores are finite reals (the
  hidden state is a logistic times a tanh, the source rows are finite by the precondition), where rescaling by
  exp(m_old - m_new) and normalising at the end is exact; the split contraction is the whole one because
  addition of extended reals is associative and commutative; the embedded input word is the same gather of the
  same table on both sides and is never opened.
-/
import proofs.«424716_j51917564674095_3_alg».proof.Defs
import proofs.«424716_j51917564674095_3_alg».proof.Proof.Gen.Kernel
import proofs.«424716_j51917564674095_3_alg».proof.Proof.Gen.KernelIdeal
import proofs.«424716_j51917564674095_3_alg».proof.Proof.Gen.ReferenceIdeal
import proofs.«424716_j51917564674095_3_alg».proof.Proof.Gen.Pre_finite_inputs
import proofs.«424716_j51917564674095_3_alg».proof.Proof.KRun
import proofs.«424716_j51917564674095_3_alg».proof.Proof.KVal
import proofs.«424716_j51917564674095_3_alg».proof.Proof.RefRun
import proofs.«424716_j51917564674095_3_alg».proof.Proof.RefSpec
import proofs.«424716_j51917564674095_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end with its arguments unchanged. -/
theorem frame_p : Cert.frame_Kernel := fun m ρ _ => Cert.Kernel.Hand.frame (F := Bits) m ρ

/-- So does its reading over the extended reals. -/
theorem frame_pi : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the specification function of the argument arrays in their result buffer. -/
theorem algebraic : Cert.algebraic_KernelIdeal_ReferenceIdeal := by
  intro m ρ m' ρ' hpre hagree
  have hew : ∀ c : Dev Cert.KernelIdeal.nD, ∀ i, ∃ r : ℝ, Cert.KernelIdeal.Hand.aEw m c i = (r : EReal) :=
    fun c => Cert.Finite.ew_real _ _ _ _ _ _ _ _ _ _ _ _ (hpre c)
  refine ⟨fun c => Cert.Spec.G (Cert.KernelIdeal.Hand.aX m ρ c) (Cert.KernelIdeal.Hand.aHx m c) (Cert.KernelIdeal.Hand.aCx m c)
      (Cert.KernelIdeal.Hand.aEw m c) (Cert.KernelIdeal.Hand.aMask m c) (Cert.KernelIdeal.Hand.aWih m c) (Cert.KernelIdeal.Hand.aWhh m c)
      (Cert.KernelIdeal.Hand.aBih m c) (Cert.KernelIdeal.Hand.aBhh m c) (Cert.KernelIdeal.Hand.aAw m c) (Cert.KernelIdeal.Hand.aAb m c), ?_, ?_⟩
  · exact (θ_run Cert.KernelIdeal.defs _ _).mono
      (fun _ h c => ⟨(h c).1.trans (Cert.KernelIdeal.Hand.kval m ρ c (hew c)), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.RefRun.run (F := Ideal) m' ρ')
    rw [Cert.ReferenceIdeal.RefSpec.ref_eq]
    obtain ⟨h0, h1, h2, h3, h4, h5, h6, h7, h8, h9, h10, h11⟩ := hagree c
    rw [h0, h1, h2, h3, h4, h5, h6, h7, h8, h9, h10, h11]
    have hx : Cert.ReferenceIdeal.ReadP.val_main_v6 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg5))
        = Cert.KernelIdeal.Hand.aX m ρ c :=
      (Cert.KernelIdeal.Hand.host0_v6 (Cert.KernelIdeal.Hand.W0 m ρ c)).symm
    rw [hx]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
